-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S6144x4096 : Shape := ⟨2, ![6144, 4096]⟩
abbrev S6144 : Shape := ⟨1, ![6144]⟩
abbrev S4x4096x512 : Shape := ⟨3, ![4, 4096, 512]⟩
abbrev S4x1024x512 : Shape := ⟨3, ![4, 1024, 512]⟩
abbrev S4x512x1 : Shape := ⟨3, ![4, 512, 1]⟩
abbrev S4x128x1 : Shape := ⟨3, ![4, 128, 1]⟩
abbrev S4x4096x1 : Shape := ⟨3, ![4, 4096, 1]⟩
abbrev S4x1024x1 : Shape := ⟨3, ![4, 1024, 1]⟩
abbrev S1024 : Shape := ⟨1, ![1024]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S6144x4096 : S_.BroadcastsInDim S6144x4096 (![] : Fin 0 → Fin S6144x4096.rank)
  reducesTo_S6144x4096_S_d0_1 : S6144x4096.ReducesTo [0, 1] S_
  bcast_S_S6144 : S_.BroadcastsInDim S6144 (![] : Fin 0 → Fin S6144.rank)
  reducesTo_S6144_S_d0 : S6144.ReducesTo [0] S_
  bcast_S_S4x4096x1 : S_.BroadcastsInDim S4x4096x1 (![] : Fin 0 → Fin S4x4096x1.rank)
  reducesTo_S4x4096x1_S_d0_1_2 : S4x4096x1.ReducesTo [0, 1, 2] S_
  bcast_S_S4x1024x1 : S_.BroadcastsInDim S4x1024x1 (![] : Fin 0 → Fin S4x1024x1.rank)
  reducesTo_S4x1024x1_S_d0_1_2 : S4x1024x1.ReducesTo [0, 1, 2] S_

variable [Facts]

def fn_part1 {F : FTy → Type} [FloatOps F] (main_arg10 : FVec F S4x1024x1 .f32) (main_arg11 : FVec F S4x1024x1 .f32) (main_v13 : IVec S_ 1) (main_v16 : IVec S4x4096x1 1) : IVec S_ 1 :=
  let main_c_5 : IVec S_ 1 := constantI S_ 1 1#1
  let main_v17 : IVec S_ 1 := (fun x v => Host.reduce IntOp.andi x v reducesTo_S4x4096x1_S_d0_1_2 h_S_) main_v16 main_c_5
  let main_v18 : IVec S_ 1 := andi main_v13 main_v17
  let main_v19 : FVec F S4x1024x1 .f32 := Host.absf main_arg10
  let main_cst_6 : FVec F S_ .f32 := constant S_ .f32 0x7F800000#32
  let main_v20 : FVec F S4x1024x1 .f32 := broadcastInDim S4x1024x1 ![] bcast_S_S4x1024x1 main_cst_6
  let main_v21 : IVec S4x1024x1 1 := cmpf .olt main_v19 main_v20
  let main_c_7 : IVec S_ 1 := constantI S_ 1 1#1
  let main_v22 : IVec S_ 1 := (fun x v => Host.reduce IntOp.andi x v reducesTo_S4x1024x1_S_d0_1_2 h_S_) main_v21 main_c_7
  let main_v23 : IVec S_ 1 := andi main_v18 main_v22
  let main_v24 : FVec F S4x1024x1 .f32 := Host.absf main_arg11
  let main_cst_8 : FVec F S_ .f32 := constant S_ .f32 0x7F800000#32
  let main_v25 : FVec F S4x1024x1 .f32 := broadcastInDim S4x1024x1 ![] bcast_S_S4x1024x1 main_cst_8
  let main_v26 : IVec S4x1024x1 1 := cmpf .olt main_v24 main_v25
  let main_c_9 : IVec S_ 1 := constantI S_ 1 1#1
  let main_v27 : IVec S_ 1 := (fun x v => Host.reduce IntOp.andi x v reducesTo_S4x1024x1_S_d0_1_2 h_S_) main_v26 main_c_9
  let main_v28 : IVec S_ 1 := andi main_v23 main_v27
  main_v28

def fn {F : FTy → Type} [FloatOps F] (main_arg0 : FVec F S1024x4096 .f32) (main_arg1 : FVec F S6144x4096 .f32) (main_arg2 : FVec F S6144 .f32) (main_arg3 : IVec S4x4096x512 32) (main_arg4 : IVec S4x1024x512 32) (main_arg5 : IVec S4x1024x512 32) (main_arg6 : IVec S4x512x1 32) (main_arg7 : IVec S4x128x1 32) (main_arg8 : IVec S4x128x1 32) (main_arg9 : FVec F S4x4096x1 .f32) (main_arg10 : FVec F S4x1024x1 .f32) (main_arg11 : FVec F S4x1024x1 .f32) (main_arg12 : IVec S1024 32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S6144x4096 .f32 := Host.absf main_arg1
  let main_cst_0 : FVec F S_ .f32 := constant S_ .f32 0x7F800000#32
  let main_v5 : FVec F S6144x4096 .f32 := broadcastInDim S6144x4096 ![] bcast_S_S6144x4096 main_cst_0
  let main_v6 : IVec S6144x4096 1 := cmpf .olt main_v4 main_v5
  let main_c_1 : IVec S_ 1 := constantI S_ 1 1#1
  let main_v7 : IVec S_ 1 := (fun x v => Host.reduce IntOp.andi x v reducesTo_S6144x4096_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S4x4096x1 .f32 := Host.absf main_arg9
  let main_cst_4 : FVec F S_ .f32 := constant S_ .f32 0x7F800000#32
  let main_v15 : FVec F S4x4096x1 .f32 := broadcastInDim S4x4096x1 ![] bcast_S_S4x4096x1 main_cst_4
  let main_v16 : IVec S4x4096x1 1 := cmpf .olt main_v14 main_v15
  fn_part1 (F := F) main_arg10 main_arg11 main_v13 main_v16
-- ==== Kernel.lean ====
abbrev S1024x4096 : Shape := ⟨2, ![1024, 4096]⟩
abbrev S6144x4096 : Shape := ⟨2, ![6144, 4096]⟩
abbrev S6144 : Shape := ⟨1, ![6144]⟩
abbrev S4x4096x512 : Shape := ⟨3, ![4, 4096, 512]⟩
abbrev S4x1024x512 : Shape := ⟨3, ![4, 1024, 512]⟩
abbrev S4x512x1 : Shape := ⟨3, ![4, 512, 1]⟩
abbrev S4x128x1 : Shape := ⟨3, ![4, 128, 1]⟩
abbrev S4x4096x1 : Shape := ⟨3, ![4, 4096, 1]⟩
abbrev S4x1024x1 : Shape := ⟨3, ![4, 1024, 1]⟩
abbrev S1024 : Shape := ⟨1, ![1024]⟩
abbrev S8 : Shape := ⟨1, ![8]⟩
abbrev S_ : Shape := ⟨0, ![]⟩
abbrev S4x4096x512x1 : Shape := ⟨4, ![4, 4096, 512, 1]⟩
abbrev S1x1x1x8 : Shape := ⟨4, ![1, 1, 1, 8]⟩
abbrev S4x4096x512x8 : Shape := ⟨4, ![4, 4096, 512, 8]⟩
abbrev S4x4096x4096 : Shape := ⟨3, ![4, 4096, 4096]⟩
abbrev S4x512 : Shape := ⟨2, ![4, 512]⟩
abbrev S1x1x8 : Shape := ⟨3, ![1, 1, 8]⟩
abbrev S4x512x8 : Shape := ⟨3, ![4, 512, 8]⟩
abbrev S4x4096 : Shape := ⟨2, ![4, 4096]⟩
abbrev S4x1024x512x1 : Shape := ⟨4, ![4, 1024, 512, 1]⟩
abbrev S4x1024x512x8 : Shape := ⟨4, ![4, 1024, 512, 8]⟩
abbrev S4x1024x4096 : Shape := ⟨3, ![4, 1024, 4096]⟩
abbrev S4x128 : Shape := ⟨2, ![4, 128]⟩
abbrev S4x128x8 : Shape := ⟨3, ![4, 128, 8]⟩
abbrev S4x1024 : Shape := ⟨2, ![4, 1024]⟩
abbrev S4x6144x4096 : Shape := ⟨3, ![4, 6144, 4096]⟩
abbrev S1x6144x4096 : Shape := ⟨3, ![1, 6144, 4096]⟩
abbrev S5x6144x4096 : Shape := ⟨3, ![5, 6144, 4096]⟩
abbrev S1024x1 : Shape := ⟨2, ![1024, 1]⟩
abbrev S4 : Shape := ⟨1, ![4]⟩
abbrev S1x4 : Shape := ⟨2, ![1, 4]⟩
abbrev S1024x4 : Shape := ⟨2, ![1024, 4]⟩
abbrev S1024x5 : Shape := ⟨2, ![1024, 5]⟩
abbrev S1x6144 : Shape := ⟨2, ![1, 6144]⟩
abbrev S1024x6144 : Shape := ⟨2, ![1024, 6144]⟩
abbrev S1024x512 : Shape := ⟨2, ![1024, 512]⟩
abbrev S5x1536x512 : Shape := ⟨3, ![5, 1536, 512]⟩
abbrev S1x1536 : Shape := ⟨2, ![1, 1536]⟩
abbrev S1024x1536 : Shape := ⟨2, ![1024, 1536]⟩
abbrev S1x1536x512 : Shape := ⟨3, ![1, 1536, 512]⟩
abbrev S1536x512 : Shape := ⟨2, ![1536, 512]⟩

abbrev nBuf : Space → Nat
  | .hbm => 132
  | .vmem => 10
  | .smem => 0
  | _ => 0

abbrev hbmTy0_0 (i : Nat) : BufTy := match i % 128 with
  | 0 => ⟨S1024x4096, .f32⟩
  | 1 => ⟨S6144x4096, .f32⟩
  | 2 => ⟨S6144, .f32⟩
  | 3 => ⟨S4x4096x512, .i32⟩
  | 4 => ⟨S4x1024x512, .i32⟩
  | 5 => ⟨S4x1024x512, .i32⟩
  | 6 => ⟨S4x512x1, .i32⟩
  | 7 => ⟨S4x128x1, .i32⟩
  | 8 => ⟨S4x128x1, .i32⟩
  | 9 => ⟨S4x4096x1, .f32⟩
  | 10 => ⟨S4x1024x1, .f32⟩
  | 11 => ⟨S4x1024x1, .f32⟩
  | 12 => ⟨S1024, .i32⟩
  | 13 => ⟨S8, .i32⟩
  | 14 => ⟨S_, .i32⟩
  | 15 => ⟨S8, .i32⟩
  | 16 => ⟨S8, .i32⟩
  | 17 => ⟨S4x4096x512x1, .i32⟩
  | 18 => ⟨S1x1x1x8, .i32⟩
  | 19 => ⟨S4x4096x512x8, .i32⟩
  | 20 => ⟨S4x4096x512x8, .i32⟩
  | 21 => ⟨S4x4096x512x8, .i32⟩
  | 22 => ⟨S_, .i32⟩
  | 23 => ⟨S4x4096x512x8, .i32⟩
  | 24 => ⟨S4x4096x512x8, .i32⟩
  | 25 => ⟨S4x4096x4096, .i32⟩
  | 26 => ⟨S4x512, .i32⟩
  | 27 => ⟨S4x512x1, .i32⟩
  | 28 => ⟨S1x1x8, .i32⟩
  | 29 => ⟨S4x512x8, .i32⟩
  | 30 => ⟨S4x512x8, .i32⟩
  | 31 => ⟨S4x512x8, .i32⟩
  | 32 => ⟨S_, .i32⟩
  | 33 => ⟨S4x512x8, .i32⟩
  | 34 => ⟨S4x512x8, .i32⟩
  | 35 => ⟨S4x4096, .i32⟩
  | 36 => ⟨S4x4096x4096, .f32⟩
  | 37 => ⟨S4x4096, .f32⟩
  | 38 => ⟨S_, .f32⟩
  | 39 => ⟨S4x4096, .f32⟩
  | 40 => ⟨S4x4096, .f32⟩
  | 41 => ⟨S4x4096x1, .f32⟩
  | 42 => ⟨S4x4096x4096, .f32⟩
  | 43 => ⟨S4x4096x4096, .f32⟩
  | 44 => ⟨S4x4096x4096, .f32⟩
  | 45 => ⟨S4x4096x4096, .f32⟩
  | 46 => ⟨S4x4096x4096, .bf16⟩
  | 47 => ⟨S8, .i32⟩
  | 48 => ⟨S_, .i32⟩
  | 49 => ⟨S8, .i32⟩
  | 50 => ⟨S8, .i32⟩
  | 51 => ⟨S4x1024x512x1, .i32⟩
  | 52 => ⟨S1x1x1x8, .i32⟩
  | 53 => ⟨S4x1024x512x8, .i32⟩
  | 54 => ⟨S4x1024x512x8, .i32⟩
  | 55 => ⟨S4x1024x512x8, .i32⟩
  | 56 => ⟨S_, .i32⟩
  | 57 => ⟨S4x1024x512x8, .i32⟩
  | 58 => ⟨S4x1024x512x8, .i32⟩
  | 59 => ⟨S4x1024x4096, .i32⟩
  | 60 => ⟨S4x128, .i32⟩
  | 61 => ⟨S4x128x1, .i32⟩
  | 62 => ⟨S1x1x8, .i32⟩
  | 63 => ⟨S4x128x8, .i32⟩
  | 64 => ⟨S4x128x8, .i32⟩
  | 65 => ⟨S4x128x8, .i32⟩
  | 66 => ⟨S_, .i32⟩
  | 67 => ⟨S4x128x8, .i32⟩
  | 68 => ⟨S4x128x8, .i32⟩
  | 69 => ⟨S4x1024, .i32⟩
  | 70 => ⟨S4x1024x4096, .f32⟩
  | 71 => ⟨S4x1024, .f32⟩
  | 72 => ⟨S_, .f32⟩
  | 73 => ⟨S4x1024, .f32⟩
  | 74 => ⟨S4x1024, .f32⟩
  | 75 => ⟨S4x1024x1, .f32⟩
  | 76 => ⟨S4x1024x4096, .f32⟩
  | 77 => ⟨S4x1024x4096, .f32⟩
  | 78 => ⟨S4x1024x4096, .f32⟩
  | 79 => ⟨S4x1024x4096, .f32⟩
  | 80 => ⟨S4x1024x4096, .bf16⟩
  | 81 => ⟨S8, .i32⟩
  | 82 => ⟨S_, .i32⟩
  | 83 => ⟨S8, .i32⟩
  | 84 => ⟨S8, .i32⟩
  | 85 => ⟨S4x1024x512x1, .i32⟩
  | 86 => ⟨S1x1x1x8, .i32⟩
  | 87 => ⟨S4x1024x512x8, .i32⟩
  | 88 => ⟨S4x1024x512x8, .i32⟩
  | 89 => ⟨S4x1024x512x8, .i32⟩
  | 90 => ⟨S_, .i32⟩
  | 91 => ⟨S4x1024x512x8, .i32⟩
  | 92 => ⟨S4x1024x512x8, .i32⟩
  | 93 => ⟨S4x1024x4096, .i32⟩
  | 94 => ⟨S4x128, .i32⟩
  | 95 => ⟨S4x128x1, .i32⟩
  | 96 => ⟨S1x1x8, .i32⟩
  | 97 => ⟨S4x128x8, .i32⟩
  | 98 => ⟨S4x128x8, .i32⟩
  | 99 => ⟨S4x128x8, .i32⟩
  | 100 => ⟨S_, .i32⟩
  | 101 => ⟨S4x128x8, .i32⟩
  | 102 => ⟨S4x128x8, .i32⟩
  | 103 => ⟨S4x1024, .i32⟩
  | 104 => ⟨S4x1024x4096, .f32⟩
  | 105 => ⟨S4x1024, .f32⟩
  | 106 => ⟨S_, .f32⟩
  | 107 => ⟨S4x1024, .f32⟩
  | 108 => ⟨S4x1024, .f32⟩
  | 109 => ⟨S4x1024x1, .f32⟩
  | 110 => ⟨S4x1024x4096, .f32⟩
  | 111 => ⟨S4x1024x4096, .f32⟩
  | 112 => ⟨S4x1024x4096, .f32⟩
  | 113 => ⟨S4x1024x4096, .f32⟩
  | 114 => ⟨S4x1024x4096, .bf16⟩
  | 115 => ⟨S4x6144x4096, .bf16⟩
  | 116 => ⟨S1x6144x4096, .f32⟩
  | 117 => ⟨S1x6144x4096, .bf16⟩
  | 118 => ⟨S5x6144x4096, .bf16⟩
  | 119 => ⟨S1024x1, .i32⟩
  | 120 => ⟨S4, .i32⟩
  | 121 => ⟨S1x4, .i32⟩
  | 122 => ⟨S1024x4, .i32⟩
  | 123 => ⟨S1024x4, .i32⟩
  | 124 => ⟨S1024x4, .i1⟩
  | 125 => ⟨S1024x4, .f32⟩
  | 126 => ⟨S_, .f32⟩
  | 127 => ⟨S1024x1, .f32⟩
  | _ => ⟨S1024x4096, .f32⟩

abbrev hbmTy0_1 (i : Nat) : BufTy := match i % 128 with
  | 0 => ⟨S1024x5, .f32⟩
  | 1 => ⟨S1x6144, .f32⟩
  | 2 => ⟨S1024x4096, .bf16⟩
  | 3 => ⟨S1024x6144, .f32⟩
  | _ => ⟨S1024x4096, .f32⟩

abbrev hbmTy (i : Nat) : BufTy := match i / 128 with
  | 0 => hbmTy0_0 i
  | 1 => hbmTy0_1 i
  | _ => ⟨S1024x4096, .f32⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S5x1536x512, .bf16⟩
  | .local _ .vmem, ⟨3, _⟩ => ⟨S5x1536x512, .bf16⟩
  | .local _ .vmem, ⟨4, _⟩ => ⟨S1024x5, .f32⟩
  | .local _ .vmem, ⟨5, _⟩ => ⟨S1x1536, .f32⟩
  | .local _ .vmem, ⟨6, _⟩ => ⟨S1x1536, .f32⟩
  | .local _ .vmem, ⟨7, _⟩ => ⟨S1024x1536, .f32⟩
  | .local _ .vmem, ⟨8, _⟩ => ⟨S1024x1536, .f32⟩
  | .local _ .vmem, ⟨9, _⟩ => ⟨S1024x1536, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_4 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_6 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_7 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_8 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_9 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_10 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_23 : BitVec 32 := 0#32
  let v49 : BitVec 1 := Scalar.cmpi .ne v48 c0_i32_23
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5x1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S8 : S_.BroadcastsInDim S8 (![] : Fin 0 → Fin S8.rank)
  bcast_S4x4096x512_S4x4096x512x1_0_1_2 : S4x4096x512.BroadcastsInDim S4x4096x512x1 (![0, 1, 2] : Fin 3 → Fin S4x4096x512x1.rank)
  bcast_S8_S1x1x1x8_3 : S8.BroadcastsInDim S1x1x1x8 (![3] : Fin 1 → Fin S1x1x1x8.rank)
  bcast_S4x4096x512x1_S4x4096x512x8_0_1_2_3 : S4x4096x512x1.BroadcastsInDim S4x4096x512x8 (![0, 1, 2, 3] : Fin 4 → Fin S4x4096x512x8.rank)
  bcast_S1x1x1x8_S4x4096x512x8_0_1_2_3 : S1x1x1x8.BroadcastsInDim S4x4096x512x8 (![0, 1, 2, 3] : Fin 4 → Fin S4x4096x512x8.rank)
  bcast_S_S4x4096x512x8 : S_.BroadcastsInDim S4x4096x512x8 (![] : Fin 0 → Fin S4x4096x512x8.rank)
  shapeCasts_S4x4096x512x8_S4x4096x4096 : S4x4096x512x8.ShapeCasts S4x4096x4096
  shapeCasts_S4x512x1_S4x512 : S4x512x1.ShapeCasts S4x512
  bcast_S4x512_S4x512x1_0_1 : S4x512.BroadcastsInDim S4x512x1 (![0, 1] : Fin 2 → Fin S4x512x1.rank)
  bcast_S8_S1x1x8_2 : S8.BroadcastsInDim S1x1x8 (![2] : Fin 1 → Fin S1x1x8.rank)
  bcast_S4x512x1_S4x512x8_0_1_2 : S4x512x1.BroadcastsInDim S4x512x8 (![0, 1, 2] : Fin 3 → Fin S4x512x8.rank)
  bcast_S1x1x8_S4x512x8_0_1_2 : S1x1x8.BroadcastsInDim S4x512x8 (![0, 1, 2] : Fin 3 → Fin S4x512x8.rank)
  bcast_S_S4x512x8 : S_.BroadcastsInDim S4x512x8 (![] : Fin 0 → Fin S4x512x8.rank)
  shapeCasts_S4x512x8_S4x4096 : S4x512x8.ShapeCasts S4x4096
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bitsLt_bf16_f32 : FTy.bits .bf16 < FTy.bits .f32
  bcast_S4x1024x512_S4x1024x512x1_0_1_2 : S4x1024x512.BroadcastsInDim S4x1024x512x1 (![0, 1, 2] : Fin 3 → Fin S4x1024x512x1.rank)
  bcast_S4x1024x512x1_S4x1024x512x8_0_1_2_3 : S4x1024x512x1.BroadcastsInDim S4x1024x512x8 (![0, 1, 2, 3] : Fin 4 → Fin S4x1024x512x8.rank)
  bcast_S1x1x1x8_S4x1024x512x8_0_1_2_3 : S1x1x1x8.BroadcastsInDim S4x1024x512x8 (![0, 1, 2, 3] : Fin 4 → Fin S4x1024x512x8.rank)
  bcast_S_S4x1024x512x8 : S_.BroadcastsInDim S4x1024x512x8 (![] : Fin 0 → Fin S4x1024x512x8.rank)
  shapeCasts_S4x1024x512x8_S4x1024x4096 : S4x1024x512x8.ShapeCasts S4x1024x4096
  shapeCasts_S4x128x1_S4x128 : S4x128x1.ShapeCasts S4x128
  bcast_S4x128_S4x128x1_0_1 : S4x128.BroadcastsInDim S4x128x1 (![0, 1] : Fin 2 → Fin S4x128x1.rank)
  bcast_S4x128x1_S4x128x8_0_1_2 : S4x128x1.BroadcastsInDim S4x128x8 (![0, 1, 2] : Fin 3 → Fin S4x128x8.rank)
  bcast_S1x1x8_S4x128x8_0_1_2 : S1x1x8.BroadcastsInDim S4x128x8 (![0, 1, 2] : Fin 3 → Fin S4x128x8.rank)
  bcast_S_S4x128x8 : S_.BroadcastsInDim S4x128x8 (![] : Fin 0 → Fin S4x128x8.rank)
  shapeCasts_S4x128x8_S4x1024 : S4x128x8.ShapeCasts S4x1024
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x4096_0_1_2 : S4x1024x1.BroadcastsInDim S4x1024x4096 (![0, 1, 2] : Fin 3 → Fin S4x1024x4096.rank)
  concatenates_S4x4096x4096_S4x1024x4096_S4x1024x4096_S4x6144x4096_d1 : Shape.Concatenates [S4x4096x4096, S4x1024x4096, S4x1024x4096] S4x6144x4096 1
  bcast_S6144x4096_S1x6144x4096_1_2 : S6144x4096.BroadcastsInDim S1x6144x4096 (![1, 2] : Fin 2 → Fin S1x6144x4096.rank)
  concatenates_S1x6144x4096_S4x6144x4096_S5x6144x4096_d0 : Shape.Concatenates [S1x6144x4096, S4x6144x4096] S5x6144x4096 0
  bcast_S1024_S1024x1_0 : S1024.BroadcastsInDim S1024x1 (![0] : Fin 1 → Fin S1024x1.rank)
  bcast_S4_S1x4_1 : S4.BroadcastsInDim S1x4 (![1] : Fin 1 → Fin S1x4.rank)
  bcast_S1024x1_S1024x4_0_1 : S1024x1.BroadcastsInDim S1024x4 (![0, 1] : Fin 2 → Fin S1024x4.rank)
  bcast_S1x4_S1024x4_0_1 : S1x4.BroadcastsInDim S1024x4 (![0, 1] : Fin 2 → Fin S1024x4.rank)
  bcast_S_S1024x1 : S_.BroadcastsInDim S1024x1 (![] : Fin 0 → Fin S1024x1.rank)
  concatenates_S1024x1_S1024x4_S1024x5_d1 : Shape.Concatenates [S1024x1, S1024x4] S1024x5 1
  shapeCasts_S6144_S1x6144 : S6144.ShapeCasts S1x6144
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x5_S1024x5_0_0 : ∀ a, (![0, 0] : Fin 2 → Nat) a + S1024x5.size a ≤ S1024x5.size a
  h_S1024x5 : 0 < S1024x5.numel
  shapeCasts_S1024x5_S1024x5 : S1024x5.ShapeCasts S1024x5
  inb_S5x1536x512_S1x1536x512_0_0_0 : ∀ a, (![0, 0, 0] : Fin 3 → Nat) a + S1x1536x512.size a ≤ S5x1536x512.size a
  h_S1x1536x512 : 0 < S1x1536x512.numel
  shapeCasts_S1x1536x512_S1536x512 : S1x1536x512.ShapeCasts S1536x512
  slices_S1024x5_o0_1_S1024x1 : S1024x5.Slices ![0, 1] S1024x1
  broadcasts_S1024x1_S1024x512 : S1024x1.Broadcasts S1024x512
  inb_S5x1536x512_S1x1536x512_1_0_0 : ∀ a, (![1, 0, 0] : Fin 3 → Nat) a + S1x1536x512.size a ≤ S5x1536x512.size a
  slices_S1024x5_o0_2_S1024x1 : S1024x5.Slices ![0, 2] S1024x1
  inb_S5x1536x512_S1x1536x512_2_0_0 : ∀ a, (![2, 0, 0] : Fin 3 → Nat) a + S1x1536x512.size a ≤ S5x1536x512.size a
  slices_S1024x5_o0_3_S1024x1 : S1024x5.Slices ![0, 3] S1024x1
  inb_S5x1536x512_S1x1536x512_3_0_0 : ∀ a, (![3, 0, 0] : Fin 3 → Nat) a + S1x1536x512.size a ≤ S5x1536x512.size a
  slices_S1024x5_o0_4_S1024x1 : S1024x5.Slices ![0, 4] S1024x1
  inb_S5x1536x512_S1x1536x512_4_0_0 : ∀ a, (![4, 0, 0] : Fin 3 → Nat) a + S1x1536x512.size a ≤ S5x1536x512.size a
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  dot_S1024x512_S1536x512_S1024x1536_1_1_0_0_n_n_wf : DotDims.WF S1024x512 S1536x512 S1024x1536 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x4096.size a
  hwx0_0 : ∀ i : grid0.Coords, EltTy.bits .bf16 = 32 ∨ (Rect.block (s := S1024x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x1536x512.size a ≤ S5x6144x4096.size a
  hwx0_1 : ∀ i : grid0.Coords, EltTy.bits .bf16 = 32 ∨ (Rect.block (s := S5x6144x4096) S5x1536x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x5.size a ≤ S1024x5.size a
  hwx0_2 : ∀ i : grid0.Coords, EltTy.bits .f32 = 32 ∨ (Rect.block (s := S1024x5) S1024x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x6144.size a
  hwx0_3 : ∀ i : grid0.Coords, EltTy.bits .f32 = 32 ∨ (Rect.block (s := S1x6144) S1x1536.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1536.size a ≤ S1024x6144.size a
  hwx0_4 : ∀ i : grid0.Coords, EltTy.bits .f32 = 32 ∨ (Rect.block (s := S1024x6144) S1024x1536.size (cc0_transform_4 i) (hinb0_4 i)).WholeWords (EltTy.packing .f32)

variable [Facts₀]

def dot_S1024x512_S1536x512_S1024x1536_1_1_0_0_n_n : DotDims S1024x512 S1536x512 S1024x1536 where
  lhsContracting := [1]
  rhsContracting := [1]
  lhsNonContracting := [0]
  rhsNonContracting := [0]
  lhsBatch := []
  rhsBatch := []
  wf := dot_S1024x512_S1536x512_S1024x1536_1_1_0_0_n_n_wf

abbrev win0_0 : Pipeline.Window sig grid0 :=
  Pipeline.Window.ofSpec (Memref.whole main_v104) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v93) S5x1536x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v102) S1024x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v103) S1x1536.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v105) S1024x1536.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x4096 : Shape := ⟨2, ![1024, 4096]⟩
abbrev S6144x4096 : Shape := ⟨2, ![6144, 4096]⟩
abbrev S6144 : Shape := ⟨1, ![6144]⟩
abbrev S4x4096x512 : Shape := ⟨3, ![4, 4096, 512]⟩
abbrev S4x1024x512 : Shape := ⟨3, ![4, 1024, 512]⟩
abbrev S4x512x1 : Shape := ⟨3, ![4, 512, 1]⟩
abbrev S4x128x1 : Shape := ⟨3, ![4, 128, 1]⟩
abbrev S4x4096x1 : Shape := ⟨3, ![4, 4096, 1]⟩
abbrev S4x1024x1 : Shape := ⟨3, ![4, 1024, 1]⟩
abbrev S1024 : Shape := ⟨1, ![1024]⟩
abbrev S4096x6144 : Shape := ⟨2, ![4096, 6144]⟩
abbrev S1024x6144 : Shape := ⟨2, ![1024, 6144]⟩
abbrev S1x6144 : Shape := ⟨2, ![1, 6144]⟩
abbrev S8 : Shape := ⟨1, ![8]⟩
abbrev S_ : Shape := ⟨0, ![]⟩
abbrev S4x4096x512x1 : Shape := ⟨4, ![4, 4096, 512, 1]⟩
abbrev S1x1x1x8 : Shape := ⟨4, ![1, 1, 1, 8]⟩
abbrev S4x4096x512x8 : Shape := ⟨4, ![4, 4096, 512, 8]⟩
abbrev S4x4096x4096 : Shape := ⟨3, ![4, 4096, 4096]⟩
abbrev S4x512 : Shape := ⟨2, ![4, 512]⟩
abbrev S1x1x8 : Shape := ⟨3, ![1, 1, 8]⟩
abbrev S4x512x8 : Shape := ⟨3, ![4, 512, 8]⟩
abbrev S4x4096 : Shape := ⟨2, ![4, 4096]⟩
abbrev S4x1024x512x1 : Shape := ⟨4, ![4, 1024, 512, 1]⟩
abbrev S4x1024x512x8 : Shape := ⟨4, ![4, 1024, 512, 8]⟩
abbrev S4x1024x4096 : Shape := ⟨3, ![4, 1024, 4096]⟩
abbrev S4x128 : Shape := ⟨2, ![4, 128]⟩
abbrev S4x128x8 : Shape := ⟨3, ![4, 128, 8]⟩
abbrev S4x1024 : Shape := ⟨2, ![4, 1024]⟩
abbrev S4x6144x4096 : Shape := ⟨3, ![4, 6144, 4096]⟩
abbrev S1024x1 : Shape := ⟨2, ![1024, 1]⟩
abbrev S1x6144x4096 : Shape := ⟨3, ![1, 6144, 4096]⟩

abbrev nBuf : Space → Nat
  | .hbm => 174
  | .vmem => 0
  | .smem => 0
  | _ => 0

abbrev hbmTy0_0 (i : Nat) : BufTy := match i % 128 with
  | 0 => ⟨S1024x4096, .f32⟩
  | 1 => ⟨S6144x4096, .f32⟩
  | 2 => ⟨S6144, .f32⟩
  | 3 => ⟨S4x4096x512, .i32⟩
  | 4 => ⟨S4x1024x512, .i32⟩
  | 5 => ⟨S4x1024x512, .i32⟩
  | 6 => ⟨S4x512x1, .i32⟩
  | 7 => ⟨S4x128x1, .i32⟩
  | 8 => ⟨S4x128x1, .i32⟩
  | 9 => ⟨S4x4096x1, .f32⟩
  | 10 => ⟨S4x1024x1, .f32⟩
  | 11 => ⟨S4x1024x1, .f32⟩
  | 12 => ⟨S1024, .i32⟩
  | 13 => ⟨S4096x6144, .f32⟩
  | 14 => ⟨S1024x6144, .f32⟩
  | 15 => ⟨S1x6144, .f32⟩
  | 16 => ⟨S1024x6144, .f32⟩
  | 17 => ⟨S1024x6144, .f32⟩
  | 18 => ⟨S8, .i32⟩
  | 19 => ⟨S_, .i32⟩
  | 20 => ⟨S8, .i32⟩
  | 21 => ⟨S8, .i32⟩
  | 22 => ⟨S4x4096x512x1, .i32⟩
  | 23 => ⟨S1x1x1x8, .i32⟩
  | 24 => ⟨S4x4096x512x8, .i32⟩
  | 25 => ⟨S4x4096x512x8, .i32⟩
  | 26 => ⟨S4x4096x512x8, .i32⟩
  | 27 => ⟨S_, .i32⟩
  | 28 => ⟨S4x4096x512x8, .i32⟩
  | 29 => ⟨S4x4096x512x8, .i32⟩
  | 30 => ⟨S4x4096x4096, .i32⟩
  | 31 => ⟨S4x512, .i32⟩
  | 32 => ⟨S4x512x1, .i32⟩
  | 33 => ⟨S1x1x8, .i32⟩
  | 34 => ⟨S4x512x8, .i32⟩
  | 35 => ⟨S4x512x8, .i32⟩
  | 36 => ⟨S4x512x8, .i32⟩
  | 37 => ⟨S_, .i32⟩
  | 38 => ⟨S4x512x8, .i32⟩
  | 39 => ⟨S4x512x8, .i32⟩
  | 40 => ⟨S4x4096, .i32⟩
  | 41 => ⟨S4x4096x4096, .f32⟩
  | 42 => ⟨S4x4096, .f32⟩
  | 43 => ⟨S_, .f32⟩
  | 44 => ⟨S4x4096, .f32⟩
  | 45 => ⟨S4x4096, .f32⟩
  | 46 => ⟨S4x4096x1, .f32⟩
  | 47 => ⟨S4x4096x4096, .f32⟩
  | 48 => ⟨S4x4096x4096, .f32⟩
  | 49 => ⟨S4x4096x4096, .f32⟩
  | 50 => ⟨S4x4096x4096, .f32⟩
  | 51 => ⟨S8, .i32⟩
  | 52 => ⟨S_, .i32⟩
  | 53 => ⟨S8, .i32⟩
  | 54 => ⟨S8, .i32⟩
  | 55 => ⟨S4x1024x512x1, .i32⟩
  | 56 => ⟨S1x1x1x8, .i32⟩
  | 57 => ⟨S4x1024x512x8, .i32⟩
  | 58 => ⟨S4x1024x512x8, .i32⟩
  | 59 => ⟨S4x1024x512x8, .i32⟩
  | 60 => ⟨S_, .i32⟩
  | 61 => ⟨S4x1024x512x8, .i32⟩
  | 62 => ⟨S4x1024x512x8, .i32⟩
  | 63 => ⟨S4x1024x4096, .i32⟩
  | 64 => ⟨S4x128, .i32⟩
  | 65 => ⟨S4x128x1, .i32⟩
  | 66 => ⟨S1x1x8, .i32⟩
  | 67 => ⟨S4x128x8, .i32⟩
  | 68 => ⟨S4x128x8, .i32⟩
  | 69 => ⟨S4x128x8, .i32⟩
  | 70 => ⟨S_, .i32⟩
  | 71 => ⟨S4x128x8, .i32⟩
  | 72 => ⟨S4x128x8, .i32⟩
  | 73 => ⟨S4x1024, .i32⟩
  | 74 => ⟨S4x1024x4096, .f32⟩
  | 75 => ⟨S4x1024, .f32⟩
  | 76 => ⟨S_, .f32⟩
  | 77 => ⟨S4x1024, .f32⟩
  | 78 => ⟨S4x1024, .f32⟩
  | 79 => ⟨S4x1024x1, .f32⟩
  | 80 => ⟨S4x1024x4096, .f32⟩
  | 81 => ⟨S4x1024x4096, .f32⟩
  | 82 => ⟨S4x1024x4096, .f32⟩
  | 83 => ⟨S4x1024x4096, .f32⟩
  | 84 => ⟨S8, .i32⟩
  | 85 => ⟨S_, .i32⟩
  | 86 => ⟨S8, .i32⟩
  | 87 => ⟨S8, .i32⟩
  | 88 => ⟨S4x1024x512x1, .i32⟩
  | 89 => ⟨S1x1x1x8, .i32⟩
  | 90 => ⟨S4x1024x512x8, .i32⟩
  | 91 => ⟨S4x1024x512x8, .i32⟩
  | 92 => ⟨S4x1024x512x8, .i32⟩
  | 93 => ⟨S_, .i32⟩
  | 94 => ⟨S4x1024x512x8, .i32⟩
  | 95 => ⟨S4x1024x512x8, .i32⟩
  | 96 => ⟨S4x1024x4096, .i32⟩
  | 97 => ⟨S4x128, .i32⟩
  | 98 => ⟨S4x128x1, .i32⟩
  | 99 => ⟨S1x1x8, .i32⟩
  | 100 => ⟨S4x128x8, .i32⟩
  | 101 => ⟨S4x128x8, .i32⟩
  | 102 => ⟨S4x128x8, .i32⟩
  | 103 => ⟨S_, .i32⟩
  | 104 => ⟨S4x128x8, .i32⟩
  | 105 => ⟨S4x128x8, .i32⟩
  | 106 => ⟨S4x1024, .i32⟩
  | 107 => ⟨S4x1024x4096, .f32⟩
  | 108 => ⟨S4x1024, .f32⟩
  | 109 => ⟨S_, .f32⟩
  | 110 => ⟨S4x1024, .f32⟩
  | 111 => ⟨S4x1024, .f32⟩
  | 112 => ⟨S4x1024x1, .f32⟩
  | 113 => ⟨S4x1024x4096, .f32⟩
  | 114 => ⟨S4x1024x4096, .f32⟩
  | 115 => ⟨S4x1024x4096, .f32⟩
  | 116 => ⟨S4x1024x4096, .f32⟩
  | 117 => ⟨S4x6144x4096, .f32⟩
  | 118 => ⟨S_, .i32⟩
  | 119 => ⟨S1024, .i32⟩
  | 120 => ⟨S1024, .i1⟩
  | 121 => ⟨S1024x1, .i1⟩
  | 122 => ⟨S_, .f32⟩
  | 123 => ⟨S_, .f32⟩
  | 124 => ⟨S1024x4096, .i1⟩
  | 125 => ⟨S1024x4096, .f32⟩
  | 126 => ⟨S1024x4096, .f32⟩
  | 127 => ⟨S1x6144x4096, .f32⟩
  | _ => ⟨S1024x4096, .f32⟩

abbrev hbmTy0_1 (i : Nat) : BufTy := match i % 128 with
  | 0 => ⟨S6144x4096, .f32⟩
  | 1 => ⟨S4096x6144, .f32⟩
  | 2 => ⟨S1024x6144, .f32⟩
  | 3 => ⟨S1024x6144, .f32⟩
  | 4 => ⟨S_, .i32⟩
  | 5 => ⟨S1024, .i32⟩
  | 6 => ⟨S1024, .i1⟩
  | 7 => ⟨S1024x1, .i1⟩
  | 8 => ⟨S_, .f32⟩
  | 9 => ⟨S_, .f32⟩
  | 10 => ⟨S1024x4096, .i1⟩
  | 11 => ⟨S1024x4096, .f32⟩
  | 12 => ⟨S1024x4096, .f32⟩
  | 13 => ⟨S1x6144x4096, .f32⟩
  | 14 => ⟨S6144x4096, .f32⟩
  | 15 => ⟨S4096x6144, .f32⟩
  | 16 => ⟨S1024x6144, .f32⟩
  | 17 => ⟨S1024x6144, .f32⟩
  | 18 => ⟨S_, .i32⟩
  | 19 => ⟨S1024, .i32⟩
  | 20 => ⟨S1024, .i1⟩
  | 21 => ⟨S1024x1, .i1⟩
  | 22 => ⟨S_, .f32⟩
  | 23 => ⟨S_, .f32⟩
  | 24 => ⟨S1024x4096, .i1⟩
  | 25 => ⟨S1024x4096, .f32⟩
  | 26 => ⟨S1024x4096, .f32⟩
  | 27 => ⟨S1x6144x4096, .f32⟩
  | 28 => ⟨S6144x4096, .f32⟩
  | 29 => ⟨S4096x6144, .f32⟩
  | 30 => ⟨S1024x6144, .f32⟩
  | 31 => ⟨S1024x6144, .f32⟩
  | 32 => ⟨S_, .i32⟩
  | 33 => ⟨S1024, .i32⟩
  | 34 => ⟨S1024, .i1⟩
  | 35 => ⟨S1024x1, .i1⟩
  | 36 => ⟨S_, .f32⟩
  | 37 => ⟨S_, .f32⟩
  | 38 => ⟨S1024x4096, .i1⟩
  | 39 => ⟨S1024x4096, .f32⟩
  | 40 => ⟨S1024x4096, .f32⟩
  | 41 => ⟨S1x6144x4096, .f32⟩
  | 42 => ⟨S6144x4096, .f32⟩
  | 43 => ⟨S4096x6144, .f32⟩
  | 44 => ⟨S1024x6144, .f32⟩
  | 45 => ⟨S1024x6144, .f32⟩
  | _ => ⟨S1024x4096, .f32⟩

abbrev hbmTy (i : Nat) : BufTy := match i / 128 with
  | 0 => hbmTy0_0 i
  | 1 => hbmTy0_1 i
  | _ => ⟨S1024x4096, .f32⟩

abbrev bufTy : (tb : Table) → Fin (tcTables nBuf tb) → BufTy
  | .hbm, ⟨i, _⟩ => hbmTy i
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_3 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_4 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_6 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_7 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_8 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_9 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_c_10 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_11 : Ref sig .tc := ⟨.hbm, 122, rfl⟩
abbrev main_call0_v0 : Ref sig .tc := ⟨.hbm, 123, rfl⟩
abbrev main_call0_v1 : Ref sig .tc := ⟨.hbm, 124, rfl⟩
abbrev main_call0_v2 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_c_12 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_13 : Ref sig .tc := ⟨.hbm, 136, rfl⟩
abbrev main_call1_v0 : Ref sig .tc := ⟨.hbm, 137, rfl⟩
abbrev main_call1_v1 : Ref sig .tc := ⟨.hbm, 138, rfl⟩
abbrev main_call1_v2 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c_14 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_15 : Ref sig .tc := ⟨.hbm, 150, rfl⟩
abbrev main_call2_v0 : Ref sig .tc := ⟨.hbm, 151, rfl⟩
abbrev main_call2_v1 : Ref sig .tc := ⟨.hbm, 152, rfl⟩
abbrev main_call2_v2 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_c_16 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_17 : Ref sig .tc := ⟨.hbm, 164, rfl⟩
abbrev main_call3_v0 : Ref sig .tc := ⟨.hbm, 165, rfl⟩
abbrev main_call3_v1 : Ref sig .tc := ⟨.hbm, 166, rfl⟩
abbrev main_call3_v2 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩

abbrev nD : Nat := 1
abbrev τ : Topo := Topo.v7x

variable {F : FTy → Type} [FloatOps F]

class Facts₀ : Prop where
  transposes_S6144x4096_S4096x6144_1_0 : S6144x4096.Transposes [1, 0] S4096x6144
  bcast_S6144_S1x6144_1 : S6144.BroadcastsInDim S1x6144 (![1] : Fin 1 → Fin S1x6144.rank)
  bcast_S1x6144_S1024x6144_0_1 : S1x6144.BroadcastsInDim S1024x6144 (![0, 1] : Fin 2 → Fin S1024x6144.rank)
  bcast_S_S8 : S_.BroadcastsInDim S8 (![] : Fin 0 → Fin S8.rank)
  bcast_S4x4096x512_S4x4096x512x1_0_1_2 : S4x4096x512.BroadcastsInDim S4x4096x512x1 (![0, 1, 2] : Fin 3 → Fin S4x4096x512x1.rank)
  bcast_S8_S1x1x1x8_3 : S8.BroadcastsInDim S1x1x1x8 (![3] : Fin 1 → Fin S1x1x1x8.rank)
  bcast_S4x4096x512x1_S4x4096x512x8_0_1_2_3 : S4x4096x512x1.BroadcastsInDim S4x4096x512x8 (![0, 1, 2, 3] : Fin 4 → Fin S4x4096x512x8.rank)
  bcast_S1x1x1x8_S4x4096x512x8_0_1_2_3 : S1x1x1x8.BroadcastsInDim S4x4096x512x8 (![0, 1, 2, 3] : Fin 4 → Fin S4x4096x512x8.rank)
  bcast_S_S4x4096x512x8 : S_.BroadcastsInDim S4x4096x512x8 (![] : Fin 0 → Fin S4x4096x512x8.rank)
  shapeCasts_S4x4096x512x8_S4x4096x4096 : S4x4096x512x8.ShapeCasts S4x4096x4096
  shapeCasts_S4x512x1_S4x512 : S4x512x1.ShapeCasts S4x512
  bcast_S4x512_S4x512x1_0_1 : S4x512.BroadcastsInDim S4x512x1 (![0, 1] : Fin 2 → Fin S4x512x1.rank)
  bcast_S8_S1x1x8_2 : S8.BroadcastsInDim S1x1x8 (![2] : Fin 1 → Fin S1x1x8.rank)
  bcast_S4x512x1_S4x512x8_0_1_2 : S4x512x1.BroadcastsInDim S4x512x8 (![0, 1, 2] : Fin 3 → Fin S4x512x8.rank)
  bcast_S1x1x8_S4x512x8_0_1_2 : S1x1x8.BroadcastsInDim S4x512x8 (![0, 1, 2] : Fin 3 → Fin S4x512x8.rank)
  bcast_S_S4x512x8 : S_.BroadcastsInDim S4x512x8 (![] : Fin 0 → Fin S4x512x8.rank)
  shapeCasts_S4x512x8_S4x4096 : S4x512x8.ShapeCasts S4x4096
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S4x1024x512_S4x1024x512x1_0_1_2 : S4x1024x512.BroadcastsInDim S4x1024x512x1 (![0, 1, 2] : Fin 3 → Fin S4x1024x512x1.rank)
  bcast_S4x1024x512x1_S4x1024x512x8_0_1_2_3 : S4x1024x512x1.BroadcastsInDim S4x1024x512x8 (![0, 1, 2, 3] : Fin 4 → Fin S4x1024x512x8.rank)
  bcast_S1x1x1x8_S4x1024x512x8_0_1_2_3 : S1x1x1x8.BroadcastsInDim S4x1024x512x8 (![0, 1, 2, 3] : Fin 4 → Fin S4x1024x512x8.rank)
  bcast_S_S4x1024x512x8 : S_.BroadcastsInDim S4x1024x512x8 (![] : Fin 0 → Fin S4x1024x512x8.rank)
  shapeCasts_S4x1024x512x8_S4x1024x4096 : S4x1024x512x8.ShapeCasts S4x1024x4096
  shapeCasts_S4x128x1_S4x128 : S4x128x1.ShapeCasts S4x128
  bcast_S4x128_S4x128x1_0_1 : S4x128.BroadcastsInDim S4x128x1 (![0, 1] : Fin 2 → Fin S4x128x1.rank)
  bcast_S4x128x1_S4x128x8_0_1_2 : S4x128x1.BroadcastsInDim S4x128x8 (![0, 1, 2] : Fin 3 → Fin S4x128x8.rank)
  bcast_S1x1x8_S4x128x8_0_1_2 : S1x1x8.BroadcastsInDim S4x128x8 (![0, 1, 2] : Fin 3 → Fin S4x128x8.rank)
  bcast_S_S4x128x8 : S_.BroadcastsInDim S4x128x8 (![] : Fin 0 → Fin S4x128x8.rank)
  shapeCasts_S4x128x8_S4x1024 : S4x128x8.ShapeCasts S4x1024
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x4096_0_1_2 : S4x1024x1.BroadcastsInDim S4x1024x4096 (![0, 1, 2] : Fin 3 → Fin S4x1024x4096.rank)
  concatenates_S4x4096x4096_S4x1024x4096_S4x1024x4096_S4x6144x4096_d1 : Shape.Concatenates [S4x4096x4096, S4x1024x4096, S4x1024x4096] S4x6144x4096 1
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x4096_0_1 : S1024x1.BroadcastsInDim S1024x4096 (![0, 1] : Fin 2 → Fin S1024x4096.rank)
  bcast_S_S1024x4096 : S_.BroadcastsInDim S1024x4096 (![] : Fin 0 → Fin S1024x4096.rank)
  slices_S4x6144x4096_S1x6144x4096_0_0_0 : S4x6144x4096.Slices ![0, 0, 0] S1x6144x4096
  shapeCasts_S1x6144x4096_S6144x4096 : S1x6144x4096.ShapeCasts S6144x4096
  slices_S4x6144x4096_S1x6144x4096_1_0_0 : S4x6144x4096.Slices ![1, 0, 0] S1x6144x4096
  slices_S4x6144x4096_S1x6144x4096_2_0_0 : S4x6144x4096.Slices ![2, 0, 0] S1x6144x4096
  slices_S4x6144x4096_S1x6144x4096_3_0_0 : S4x6144x4096.Slices ![3, 0, 0] S1x6144x4096
  dot_S1024x4096_S4096x6144_S1024x6144_1_0_0_1_n_n_wf : DotDims.WF S1024x4096 S4096x6144 S1024x6144 [1] [0] [0] [1] [] []

variable [Facts₀]

def dot_S1024x4096_S4096x6144_S1024x6144_1_0_0_1_n_n : DotDims S1024x4096 S4096x6144 S1024x6144 where
  lhsContracting := [1]
  rhsContracting := [0]
  lhsNonContracting := [0]
  rhsNonContracting := [1]
  lhsBatch := []
  rhsBatch := []
  wf := dot_S1024x4096_S4096x6144_S1024x6144_1_0_0_1_n_n_wf

class Facts : Prop extends Facts₀ where

variable [Facts]
-- ==== Proof.FrameB.Entry.lean ====
/-
  The launch of the one pallas_call as the host lines before it leave the memory, and what every grid point's body is
  handed. The host lines (the three 4-bit unpackings and their scaling, the two concatenations that stack the base
  weight on the four adapters' weights, the one-hot mask with its leading column of ones, the bias as a row, the
  activations rounded) write fresh buffers only, so the thirteen argument arrays reach the launch untouched. The grid
  is 4 × 8: the first coordinate picks a block of 1536 output columns, the second a block of 512 contraction
  positions; the body's two conditionals test the second coordinate against 0 (clear the accumulator) and against 7
  (add the bias and store the output block), so a point's case is its position modulo 8.
-/
import proofs.«405207_j28973849379101_2_alg».proof.Proof.Gen.Kernel.Launch
import proofs.«405207_j28973849379101_2_alg».proof.Proof.Gen.Kernel.Skeleton
import proofs.«405207_j28973849379101_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory at the launch -/

/-- Core `c`'s buffers when the launch is reached: the host lines before it folded over the given memory. -/
abbrev V (c : Dev nD) (b : Ref sig .tc) : Buf (Elt F) ((c : Thread nD τ).loc b) := StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- The program is its host lines followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 8000000 in
/-- An argument array is the result of no host line, so the launch finds it as it was given: each of the 118 lines writes
    its own result buffer, and that is none of the thirteen arguments. -/
theorem V_arg (c : Dev nD) (b : Ref sig .tc)
    (hb : b = main_arg0 ∨ b = main_arg1 ∨ b = main_arg2 ∨ b = main_arg3 ∨ b = main_arg4 ∨ b = main_arg5 ∨ b = main_arg6
      ∨ b = main_arg7 ∨ b = main_arg8 ∨ b = main_arg9 ∨ b = main_arg10 ∨ b = main_arg11 ∨ b = main_arg12) :
    V m c b = m ((c : Thread nD τ).loc b) := by
  rcases hb with rfl | rfl | rfl | rfl | rfl | rfl | rfl | rfl | rfl | rfl | rfl | rfl | rfl <;>
    exact StableHlo.after_of_forall_not_mem _ _ (List.forall_iff_forall_mem.mp (by
      simp only [hostOps0, List.Forall, StableHlo.nullary_writes, StableHlo.unary_writes, StableHlo.binary_writes,
        StableHlo.nary_writes, StableHlo.reshape_writes, Finset.mem_singleton]
      repeat' apply And.intro
      all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds the point's block of them, whether or not the point fetched it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the stacked weights. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the mask, fetched once: its one block is the whole array at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The same for the bias row, fetched when the column block changes. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run -/

/-- A run that ends with every buffer outside the launch's five arrays as the launch found it ends with the thirteen
    arguments as given: none of them is one of the five arrays (those are results of host lines), and the host lines
    left them alone. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    have kept : ∀ b : Ref sig .tc, b.isScoped = false → (∀ w, (spec0 w).arr.view.ref ≠ b) →
        (b = main_arg0 ∨ b = main_arg1 ∨ b = main_arg2 ∨ b = main_arg3 ∨ b = main_arg4 ∨ b = main_arg5 ∨ b = main_arg6
          ∨ b = main_arg7 ∨ b = main_arg8 ∨ b = main_arg9 ∨ b = main_arg10 ∨ b = main_arg11 ∨ b = main_arg12) →
        _ = m ((c.tc : Thread nD τ).loc b) :=
      fun b hs ha hb => ((h c).2 b (Pipeline.mem_restRefs_of b hs ha)).trans (V_arg m c b hb)
    ⟨kept main_arg0 (by decide) (by decide) (by simp), kept main_arg1 (by decide) (by decide) (by simp),
     kept main_arg2 (by decide) (by decide) (by simp), kept main_arg3 (by decide) (by decide) (by simp),
     kept main_arg4 (by decide) (by decide) (by simp), kept main_arg5 (by decide) (by decide) (by simp),
     kept main_arg6 (by decide) (by decide) (by simp), kept main_arg7 (by decide) (by decide) (by simp),
     kept main_arg8 (by decide) (by decide) (by simp), kept main_arg9 (by decide) (by decide) (by simp),
     kept main_arg10 (by decide) (by decide) (by simp), kept main_arg11 (by decide) (by decide) (by simp),
     kept main_arg12 (by decide) (by decide) (by simp)⟩) h

/-! ## The body's two conditionals over the grid -/

/-- "This is the first contraction block" (the accumulator is cleared), as the body computes it from the second grid coordinate. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last contraction block" (the output block is stored). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where a window rests -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last contraction block nothing is stored into the output block: the window rests and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last contraction block it is stored into. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x1536x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x5 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1536 .f32 := win0_4.stage (cfg0.slots t 4)
abbrev hs0_4 (t : Fin cfg0.N) : (ms0_4 t).IsWhole := hstage0_4 ((cfg0.slots t 4).cast nbuf0_4)
/-- The accumulator: a scratch buffer of the kernel's own, kept from point to point. -/
abbrev scM0_0 : Memref sig .tc .vmem S1024x1536 .f32 := Memref.whole cc0_scratch0
/-- The accumulator and one staging buffer of the output as views, through which their contents are stated. -/
abbrev VS0_0 : View sig .tc .vmem S1024x1536 .f32 := scM0_0.view
abbrev VO0_4 : View sig .tc .vmem S1024x1536 .f32 := (Memref.whole cc0_stg4_0 : Memref sig .tc .vmem S1024x1536 .f32).view

/-- What a launch lends its body besides the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.FrameB.CaseFirst.lean ====
/-
  The body at a FIRST contraction block (second grid coordinate 0, not the last): it clears the accumulator, then
  stores into it the five products of this block — the activations with the base weight and, masked column by column,
  with the four adapters' weights — added up from the cleared contents. The output block is not touched. The
  accumulator ends with two stores written over whatever it held: the zeros, then the sum.
-/
import proofs.«405207_j28973849379101_2_alg».proof.Proof.FrameB.Entry

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The two stores the body leaves in the accumulator at a first block (last first), with the proof that from whole
    staging buffers — the four inputs at their blocks, the output at contents `xi4` it hands back untouched, the
    accumulator at anything — the body runs to a continuation that gets the inputs as they were and the accumulator with
    those stores written. -/
noncomputable def kernelRun0_A (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : cond0_0 i) (hc1 : ¬cond0_1 i)
    (x0 : Vec F S1024x512 .bf16) (x1 : Vec F S5x1536x512 .bf16) (x2 : Vec F S1024x5 .f32) (x3 : Vec F S1x1536 .f32) :
    Σ' (L4 : List (View.Piece (Elt F) S1024x1536 .f32)), { LS0 : List (View.Piece (Elt F) S1024x1536 .f32) //
      ∀ (xi4 : Vec F S1024x1536 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.FrameB.CaseMiddle.lean ====
/-
  The body at a MIDDLE contraction block (second grid coordinate 1 … 6): it adds this block's five products to what the
  point before left in the accumulator and stores the sum back. The output block is not touched.
-/
import proofs.«405207_j28973849379101_2_alg».proof.Proof.FrameB.CaseFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The store the body leaves in the accumulator at a middle block, with the proof that from whole staging buffers — the
    four inputs at their blocks, the output at contents `xi4` handed back untouched, the accumulator at what the point
    before left (`xs0`) — the body runs to a continuation that gets the inputs as they were and the accumulator with that
    store written. -/
noncomputable def kernelRun0_B (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : ¬cond0_1 i)
    (x0 : Vec F S1024x512 .bf16) (x1 : Vec F S5x1536x512 .bf16) (x2 : Vec F S1024x5 .f32) (x3 : Vec F S1x1536 .f32) (xs0 : Vec F S1024x1536 .f32) :
    Σ' (L4 : List (View.Piece (Elt F) S1024x1536 .f32)), { LS0 : List (View.Piece (Elt F) S1024x1536 .f32) //
      ∀ (xi4 : Vec F S1024x1536 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.FrameB.CaseLast.lean ====
/-
  The body at a LAST contraction block (second grid coordinate 7): it adds this block's five products to what the point
  before left in the accumulator, stores the sum back, reads it again, adds the bias row to every row and stores the
  result as the output block.
-/
import proofs.«405207_j28973849379101_2_alg».proof.Proof.FrameB.CaseMiddle

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the output block and in the accumulator at a last block, with the proof that from whole
    staging buffers — the four inputs at their blocks, the output at anything, the accumulator at what the point before
    left (`xs0`) — the body runs to a continuation that gets the inputs as they were and both buffers with those stores
    written. -/
noncomputable def kernelRun0_C (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : cond0_1 i)
    (x0 : Vec F S1024x512 .bf16) (x1 : Vec F S5x1536x512 .bf16) (x2 : Vec F S1024x5 .f32) (x3 : Vec F S1x1536 .f32) (xs0 : Vec F S1024x1536 .f32) :
    Σ' (L4 : List (View.Piece (Elt F) S1024x1536 .f32)), { LS0 : List (View.Piece (Elt F) S1024x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.FrameB.Frame.lean ====
/-
  What the accumulator and the output block hold after every grid point, and the run of the whole program from it.
  A point's case is its position modulo 8 (first, middle or last contraction block of its column block). After a
  first block the accumulator holds that case's two stores read back; after a later block that case's store over what
  the point before left. The output block is stored only at a last block and is written back only there; at the
  other points its staging buffer rests. Between points the accumulator is kept at exactly these contents, which is
  what lets each body run from the contents the point before left.
-/
import proofs.«405207_j28973849379101_2_alg».proof.Proof.FrameB.CaseLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A first block stores nothing into the output block: a placeholder nothing consults (the window rests there). -/
def out0_A_4 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : cond0_0 i) (hc1 : ¬cond0_1 i)
    (x0 : Vec F S1024x512 .bf16) (x1 : Vec F S5x1536x512 .bf16) (x2 : Vec F S1024x5 .f32) (x3 : Vec F S1x1536 .f32) : Vec F S1024x1536 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- A first block's two stores cover the accumulator (each is the whole buffer). -/
theorem scover0_A_0 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : cond0_0 i) (hc1 : ¬cond0_1 i)
    (x0 : Vec F S1024x512 .bf16) (x1 : Vec F S5x1536x512 .bf16) (x2 : Vec F S1024x5 .f32) (x3 : Vec F S1x1536 .f32) (y : S1024x1536.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x1536.size (by sl_kernel_rfl) y

/-- What a first block leaves in the accumulator: its stores read back. -/
def sout0_A_0 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : cond0_0 i) (hc1 : ¬cond0_1 i)
    (x0 : Vec F S1024x512 .bf16) (x1 : Vec F S5x1536x512 .bf16) (x2 : Vec F S1024x5 .f32) (x3 : Vec F S1x1536 .f32) : Vec F S1024x1536 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- A middle block stores nothing into the output block either. -/
def out0_B_4 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : ¬cond0_1 i)
    (x0 : Vec F S1024x512 .bf16) (x1 : Vec F S5x1536x512 .bf16) (x2 : Vec F S1024x5 .f32) (x3 : Vec F S1x1536 .f32) (xs0 : Vec F S1024x1536 .f32) : Vec F S1024x1536 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

theorem scover0_B_0 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : ¬cond0_1 i)
    (x0 : Vec F S1024x512 .bf16) (x1 : Vec F S5x1536x512 .bf16) (x2 : Vec F S1024x5 .f32) (x3 : Vec F S1x1536 .f32) (xs0 : Vec F S1024x1536 .f32) (y : S1024x1536.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x1536.size (by sl_kernel_rfl) y

/-- What a middle block leaves in the accumulator, over what the point before left (`xs0`). -/
def sout0_B_0 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : ¬cond0_1 i)
    (x0 : Vec F S1024x512 .bf16) (x1 : Vec F S5x1536x512 .bf16) (x2 : Vec F S1024x5 .f32) (x3 : Vec F S1x1536 .f32) (xs0 : Vec F S1024x1536 .f32) : Vec F S1024x1536 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- A last block's one store covers the output block. -/
theorem cover0_C_4 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : cond0_1 i)
    (x0 : Vec F S1024x512 .bf16) (x1 : Vec F S5x1536x512 .bf16) (x2 : Vec F S1024x5 .f32) (x3 : Vec F S1x1536 .f32) (xs0 : Vec F S1024x1536 .f32) (y : S1024x1536.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1536.size (by sl_kernel_rfl) y

/-- What a last block leaves in the output block's staging buffer. -/
def out0_C_4 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : cond0_1 i)
    (x0 : Vec F S1024x512 .bf16) (x1 : Vec F S5x1536x512 .bf16) (x2 : Vec F S1024x5 .f32) (x3 : Vec F S1x1536 .f32) (xs0 : Vec F S1024x1536 .f32) : Vec F S1024x1536 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : cond0_1 i)
    (x0 : Vec F S1024x512 .bf16) (x1 : Vec F S5x1536x512 .bf16) (x2 : Vec F S1024x5 .f32) (x3 : Vec F S1x1536 .f32) (xs0 : Vec F S1024x1536 .f32) (y : S1024x1536.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1536.size (by sl_kernel_rfl) y

/-- What a last block leaves in the accumulator. -/
def sout0_C_0 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : cond0_1 i)
    (x0 : Vec F S1024x512 .bf16) (x1 : Vec F S5x1536x512 .bf16) (x2 : Vec F S1024x5 .f32) (x3 : Vec F S1x1536 .f32) (xs0 : Vec F S1024x1536 .f32) : Vec F S1024x1536 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## The accumulation, point by point -/

/-- What the output block's staging buffer (first component) and the accumulator (second) hold after the body at
    position `n`: the case of `n` modulo 8, run on the point's staging buffers and input blocks, a later block starting
    from what position `n - 1` left in the accumulator. Position 0 is a first block. -/
def outsAt0 (c : Dev nD) : (n : ℕ) → n < cfg0.N → Vec F S1024x1536 .f32 × Vec F S1024x1536 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At a first block. -/
theorem outsAt0_A (c : Dev nD) (t : Fin cfg0.N) (h0 : t.val % 8 = 0) (h1 : ¬t.val % 8 = 7) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a middle block: over what the point before left. -/
theorem outsAt0_B (c : Dev nD) (t : Fin cfg0.N) (h0 : ¬t.val % 8 = 0) (h1 : ¬t.val % 8 = 7) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last block: over what the point before left. -/
theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What is kept between points: before the first point what the launch lends (the accumulator at anything); afterwards
    the accumulator at what the point before left in it, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The launch's proof data -/

/-- On core `c`: the five arrays as the launch finds them; after the body at point `t` each input's buffer at its
    block and the output's at `outsAt0`'s first component; between points `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point. The inputs' buffers hold their blocks; the position modulo 8 says which case runs; what is
    kept between points hands the body the accumulator at what the point before left (at anything before the very first
    point) and takes it back at this point's contents; the output block is handed back untouched except at a last block,
    where it is returned with its store written. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · -- a first block
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · -- a last block
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · -- a middle block
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      have hz : t.val ≠ 0 := by intro hz; rw [hz] at h0; exact h0 (Nat.zero_mod _)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The launch's obligation on the body, at every point. -/
theorem body_obligation (c : Dev nD) : BodyObligation (dats (F := F) m 0 c) (defs₀ (F := F)) Variants.none () Set.univ := fun t => by
  rw [bigSep_W0, bigSep_W0]
  exact sound_body m c t

/-- What the launch lends is what is kept before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point what is kept gives the loan back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run -/

set_option backward.isDefEq.respectTransparency.types false in
/-- From any memory with zero counters every weakly fair execution of the program terminates, and it ends with each of
    the launch's five arrays at what the write-backs of the proof data make of it and every other unscoped buffer as the
    launch found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, faults nowhere, and leaves its thirteen arguments as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (run_main m ρ)

end Cert.Kernel.Fr

end
-- ==== Proof.FrameI.Entry.lean ====
/-
  The launch of the one pallas_call as the host lines before it leave the memory, and what every grid point's body is
  handed. The host lines (the three 4-bit unpackings and their scaling, the two concatenations that stack the base
  weight on the four adapters' weights, the one-hot mask with its leading column of ones, the bias as a row, the
  activations rounded) write fresh buffers only, so the thirteen argument arrays reach the launch untouched. The grid
  is 4 × 8: the first coordinate picks a block of 1536 output columns, the second a block of 512 contraction
  positions; the body's two conditionals test the second coordinate against 0 (clear the accumulator) and against 7
  (add the bias and store the output block), so a point's case is its position modulo 8.
-/
import proofs.«405207_j28973849379101_2_alg».proof.Proof.Gen.KernelIdeal.Launch
import proofs.«405207_j28973849379101_2_alg».proof.Proof.Gen.KernelIdeal.Skeleton
import proofs.«405207_j28973849379101_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory at the launch -/

/-- Core `c`'s buffers when the launch is reached: the host lines before it folded over the given memory. -/
abbrev V (c : Dev nD) (b : Ref sig .tc) : Buf (Elt F) ((c : Thread nD τ).loc b) := StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- The program is its host lines followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 8000000 in
/-- An argument array is the result of no host line, so the launch finds it as it was given: each of the 118 lines writes
    its own result buffer, and that is none of the thirteen arguments. -/
theorem V_arg (c : Dev nD) (b : Ref sig .tc)
    (hb : b = main_arg0 ∨ b = main_arg1 ∨ b = main_arg2 ∨ b = main_arg3 ∨ b = main_arg4 ∨ b = main_arg5 ∨ b = main_arg6
      ∨ b = main_arg7 ∨ b = main_arg8 ∨ b = main_arg9 ∨ b = main_arg10 ∨ b = main_arg11 ∨ b = main_arg12) :
    V m c b = m ((c : Thread nD τ).loc b) := by
  rcases hb with rfl | rfl | rfl | rfl | rfl | rfl | rfl | rfl | rfl | rfl | rfl | rfl | rfl <;>
    exact StableHlo.after_of_forall_not_mem _ _ (List.forall_iff_forall_mem.mp (by
      simp only [hostOps0, List.Forall, StableHlo.nullary_writes, StableHlo.unary_writes, StableHlo.binary_writes,
        StableHlo.nary_writes, StableHlo.reshape_writes, Finset.mem_singleton]
      repeat' apply And.intro
      all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds the point's block of them, whether or not the point fetched it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the stacked weights. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the mask, fetched once: its one block is the whole array at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The same for the bias row, fetched when the column block changes. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run -/

/-- A run that ends with every buffer outside the launch's five arrays as the launch found it ends with the thirteen
    arguments as given: none of them is one of the five arrays (those are results of host lines), and the host lines
    left them alone. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    have kept : ∀ b : Ref sig .tc, b.isScoped = false → (∀ w, (spec0 w).arr.view.ref ≠ b) →
        (b = main_arg0 ∨ b = main_arg1 ∨ b = main_arg2 ∨ b = main_arg3 ∨ b = main_arg4 ∨ b = main_arg5 ∨ b = main_arg6
          ∨ b = main_arg7 ∨ b = main_arg8 ∨ b = main_arg9 ∨ b = main_arg10 ∨ b = main_arg11 ∨ b = main_arg12) →
        _ = m ((c.tc : Thread nD τ).loc b) :=
      fun b hs ha hb => ((h c).2 b (Pipeline.mem_restRefs_of b hs ha)).trans (V_arg m c b hb)
    ⟨kept main_arg0 (by decide) (by decide) (by simp), kept main_arg1 (by decide) (by decide) (by simp),
     kept main_arg2 (by decide) (by decide) (by simp), kept main_arg3 (by decide) (by decide) (by simp),
     kept main_arg4 (by decide) (by decide) (by simp), kept main_arg5 (by decide) (by decide) (by simp),
     kept main_arg6 (by decide) (by decide) (by simp), kept main_arg7 (by decide) (by decide) (by simp),
     kept main_arg8 (by decide) (by decide) (by simp), kept main_arg9 (by decide) (by decide) (by simp),
     kept main_arg10 (by decide) (by decide) (by simp), kept main_arg11 (by decide) (by decide) (by simp),
     kept main_arg12 (by decide) (by decide) (by simp)⟩) h

/-! ## The body's two conditionals over the grid -/

/-- "This is the first contraction block" (the accumulator is cleared), as the body computes it from the second grid coordinate. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last contraction block" (the output block is stored). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where a window rests -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last contraction block nothing is stored into the output block: the window rests and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last contraction block it is stored into. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x1536x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x5 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1536 .f32 := win0_4.stage (cfg0.slots t 4)
abbrev hs0_4 (t : Fin cfg0.N) : (ms0_4 t).IsWhole := hstage0_4 ((cfg0.slots t 4).cast nbuf0_4)
/-- The accumulator: a scratch buffer of the kernel's own, kept from point to point. -/
abbrev scM0_0 : Memref sig .tc .vmem S1024x1536 .f32 := Memref.whole cc0_scratch0
/-- The accumulator and one staging buffer of the output as views, through which their contents are stated. -/
abbrev VS0_0 : View sig .tc .vmem S1024x1536 .f32 := scM0_0.view
abbrev VO0_4 : View sig .tc .vmem S1024x1536 .f32 := (Memref.whole cc0_stg4_0 : Memref sig .tc .vmem S1024x1536 .f32).view

/-- What a launch lends its body besides the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.FrameI.CaseFirst.lean ====
/-
  The body at a FIRST contraction block (second grid coordinate 0, not the last): it clears the accumulator, then
  stores into it the five products of this block — the activations with the base weight and, masked column by column,
  with the four adapters' weights — added up from the cleared contents. The output block is not touched. The
  accumulator ends with two stores written over whatever it held: the zeros, then the sum.
-/
import proofs.«405207_j28973849379101_2_alg».proof.Proof.FrameI.Entry

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The two stores the body leaves in the accumulator at a first block (last first), with the proof that from whole
    staging buffers — the four inputs at their blocks, the output at contents `xi4` it hands back untouched, the
    accumulator at anything — the body runs to a continuation that gets the inputs as they were and the accumulator with
    those stores written. -/
noncomputable def kernelRun0_A (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : cond0_0 i) (hc1 : ¬cond0_1 i)
    (x0 : Vec F S1024x512 .bf16) (x1 : Vec F S5x1536x512 .bf16) (x2 : Vec F S1024x5 .f32) (x3 : Vec F S1x1536 .f32) :
    Σ' (L4 : List (View.Piece (Elt F) S1024x1536 .f32)), { LS0 : List (View.Piece (Elt F) S1024x1536 .f32) //
      ∀ (xi4 : Vec F S1024x1536 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.FrameI.CaseMiddle.lean ====
/-
  The body at a MIDDLE contraction block (second grid coordinate 1 … 6): it adds this block's five products to what the
  point before left in the accumulator and stores the sum back. The output block is not touched.
-/
import proofs.«405207_j28973849379101_2_alg».proof.Proof.FrameI.CaseFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The store the body leaves in the accumulator at a middle block, with the proof that from whole staging buffers — the
    four inputs at their blocks, the output at contents `xi4` handed back untouched, the accumulator at what the point
    before left (`xs0`) — the body runs to a continuation that gets the inputs as they were and the accumulator with that
    store written. -/
noncomputable def kernelRun0_B (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : ¬cond0_1 i)
    (x0 : Vec F S1024x512 .bf16) (x1 : Vec F S5x1536x512 .bf16) (x2 : Vec F S1024x5 .f32) (x3 : Vec F S1x1536 .f32) (xs0 : Vec F S1024x1536 .f32) :
    Σ' (L4 : List (View.Piece (Elt F) S1024x1536 .f32)), { LS0 : List (View.Piece (Elt F) S1024x1536 .f32) //
      ∀ (xi4 : Vec F S1024x1536 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.FrameI.CaseLast.lean ====
/-
  The body at a LAST contraction block (second grid coordinate 7): it adds this block's five products to what the point
  before left in the accumulator, stores the sum back, reads it again, adds the bias row to every row and stores the
  result as the output block.
-/
import proofs.«405207_j28973849379101_2_alg».proof.Proof.FrameI.CaseMiddle

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the output block and in the accumulator at a last block, with the proof that from whole
    staging buffers — the four inputs at their blocks, the output at anything, the accumulator at what the point before
    left (`xs0`) — the body runs to a continuation that gets the inputs as they were and both buffers with those stores
    written. -/
noncomputable def kernelRun0_C (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : cond0_1 i)
    (x0 : Vec F S1024x512 .bf16) (x1 : Vec F S5x1536x512 .bf16) (x2 : Vec F S1024x5 .f32) (x3 : Vec F S1x1536 .f32) (xs0 : Vec F S1024x1536 .f32) :
    Σ' (L4 : List (View.Piece (Elt F) S1024x1536 .f32)), { LS0 : List (View.Piece (Elt F) S1024x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.FrameI.Frame.lean ====
/-
  What the accumulator and the output block hold after every grid point, and the run of the whole program from it.
  A point's case is its position modulo 8 (first, middle or last contraction block of its column block). After a
  first block the accumulator holds that case's two stores read back; after a later block that case's store over what
  the point before left. The output block is stored only at a last block and is written back only there; at the
  other points its staging buffer rests. Between points the accumulator is kept at exactly these contents, which is
  what lets each body run from the contents the point before left.
-/
import proofs.«405207_j28973849379101_2_alg».proof.Proof.FrameI.CaseLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A first block stores nothing into the output block: a placeholder nothing consults (the window rests there). -/
def out0_A_4 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : cond0_0 i) (hc1 : ¬cond0_1 i)
    (x0 : Vec F S1024x512 .bf16) (x1 : Vec F S5x1536x512 .bf16) (x2 : Vec F S1024x5 .f32) (x3 : Vec F S1x1536 .f32) : Vec F S1024x1536 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- A first block's two stores cover the accumulator (each is the whole buffer). -/
theorem scover0_A_0 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : cond0_0 i) (hc1 : ¬cond0_1 i)
    (x0 : Vec F S1024x512 .bf16) (x1 : Vec F S5x1536x512 .bf16) (x2 : Vec F S1024x5 .f32) (x3 : Vec F S1x1536 .f32) (y : S1024x1536.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x1536.size (by sl_kernel_rfl) y

/-- What a first block leaves in the accumulator: its stores read back. -/
def sout0_A_0 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : cond0_0 i) (hc1 : ¬cond0_1 i)
    (x0 : Vec F S1024x512 .bf16) (x1 : Vec F S5x1536x512 .bf16) (x2 : Vec F S1024x5 .f32) (x3 : Vec F S1x1536 .f32) : Vec F S1024x1536 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- A middle block stores nothing into the output block either. -/
def out0_B_4 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : ¬cond0_1 i)
    (x0 : Vec F S1024x512 .bf16) (x1 : Vec F S5x1536x512 .bf16) (x2 : Vec F S1024x5 .f32) (x3 : Vec F S1x1536 .f32) (xs0 : Vec F S1024x1536 .f32) : Vec F S1024x1536 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

theorem scover0_B_0 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : ¬cond0_1 i)
    (x0 : Vec F S1024x512 .bf16) (x1 : Vec F S5x1536x512 .bf16) (x2 : Vec F S1024x5 .f32) (x3 : Vec F S1x1536 .f32) (xs0 : Vec F S1024x1536 .f32) (y : S1024x1536.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x1536.size (by sl_kernel_rfl) y

/-- What a middle block leaves in the accumulator, over what the point before left (`xs0`). -/
def sout0_B_0 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : ¬cond0_1 i)
    (x0 : Vec F S1024x512 .bf16) (x1 : Vec F S5x1536x512 .bf16) (x2 : Vec F S1024x5 .f32) (x3 : Vec F S1x1536 .f32) (xs0 : Vec F S1024x1536 .f32) : Vec F S1024x1536 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- A last block's one store covers the output block. -/
theorem cover0_C_4 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : cond0_1 i)
    (x0 : Vec F S1024x512 .bf16) (x1 : Vec F S5x1536x512 .bf16) (x2 : Vec F S1024x5 .f32) (x3 : Vec F S1x1536 .f32) (xs0 : Vec F S1024x1536 .f32) (y : S1024x1536.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1536.size (by sl_kernel_rfl) y

/-- What a last block leaves in the output block's staging buffer. -/
def out0_C_4 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : cond0_1 i)
    (x0 : Vec F S1024x512 .bf16) (x1 : Vec F S5x1536x512 .bf16) (x2 : Vec F S1024x5 .f32) (x3 : Vec F S1x1536 .f32) (xs0 : Vec F S1024x1536 .f32) : Vec F S1024x1536 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : cond0_1 i)
    (x0 : Vec F S1024x512 .bf16) (x1 : Vec F S5x1536x512 .bf16) (x2 : Vec F S1024x5 .f32) (x3 : Vec F S1x1536 .f32) (xs0 : Vec F S1024x1536 .f32) (y : S1024x1536.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1536.size (by sl_kernel_rfl) y

/-- What a last block leaves in the accumulator. -/
def sout0_C_0 (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : cond0_1 i)
    (x0 : Vec F S1024x512 .bf16) (x1 : Vec F S5x1536x512 .bf16) (x2 : Vec F S1024x5 .f32) (x3 : Vec F S1x1536 .f32) (xs0 : Vec F S1024x1536 .f32) : Vec F S1024x1536 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## The accumulation, point by point -/

/-- What the output block's staging buffer (first component) and the accumulator (second) hold after the body at
    position `n`: the case of `n` modulo 8, run on the point's staging buffers and input blocks, a later block starting
    from what position `n - 1` left in the accumulator. Position 0 is a first block. -/
def outsAt0 (c : Dev nD) : (n : ℕ) → n < cfg0.N → Vec F S1024x1536 .f32 × Vec F S1024x1536 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At a first block. -/
theorem outsAt0_A (c : Dev nD) (t : Fin cfg0.N) (h0 : t.val % 8 = 0) (h1 : ¬t.val % 8 = 7) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a middle block: over what the point before left. -/
theorem outsAt0_B (c : Dev nD) (t : Fin cfg0.N) (h0 : ¬t.val % 8 = 0) (h1 : ¬t.val % 8 = 7) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last block: over what the point before left. -/
theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What is kept between points: before the first point what the launch lends (the accumulator at anything); afterwards
    the accumulator at what the point before left in it, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The launch's proof data -/

/-- On core `c`: the five arrays as the launch finds them; after the body at point `t` each input's buffer at its
    block and the output's at `outsAt0`'s first component; between points `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point. The inputs' buffers hold their blocks; the position modulo 8 says which case runs; what is
    kept between points hands the body the accumulator at what the point before left (at anything before the very first
    point) and takes it back at this point's contents; the output block is handed back untouched except at a last block,
    where it is returned with its store written. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · -- a first block
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · -- a last block
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · -- a middle block
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      have hz : t.val ≠ 0 := by intro hz; rw [hz] at h0; exact h0 (Nat.zero_mod _)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The launch's obligation on the body, at every point. -/
theorem body_obligation (c : Dev nD) : BodyObligation (dats (F := F) m 0 c) (defs₀ (F := F)) Variants.none () Set.univ := fun t => by
  rw [bigSep_W0, bigSep_W0]
  exact sound_body m c t

/-- What the launch lends is what is kept before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point what is kept gives the loan back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run -/

set_option backward.isDefEq.respectTransparency.types false in
/-- From any memory with zero counters every weakly fair execution of the program terminates, and it ends with each of
    the launch's five arrays at what the write-backs of the proof data make of it and every other unscoped buffer as the
    launch found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, faults nowhere, and leaves its thirteen arguments as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (run_main m ρ)

end Cert.KernelIdeal.Fr

end
-- ==== Proof.KVal.Payload.lean ====
import proofs.«405207_j28973849379101_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

/-!
# One grid step's arithmetic, read at an output position

At the ideal (extended-real) values the body of the kernel, at one grid point, adds to the carried
accumulator block five products of the activation block with a weight block, each contracted over the 512
shared positions of the step; the last four activations are first scaled, row by row, by one column of the
mask. This module reads each payload of the body at an output position `(r, j)`:

* `zero_at`   : the cleared accumulator is `0` everywhere;
* `bias_at`   : the last step adds the bias row to every row of the accumulator;
* `step_at`   : one step's update of the accumulator, as five sums over the contraction positions.
-/

noncomputable section

namespace Cert.KernelIdeal.KVal

open Cert.KernelIdeal Cert.KernelIdeal.Gen Idealize.ShloMosaic Idealize.ShloMosaic.ValueIdx
open scoped BigOperators

/-! ## A column kept as a unit axis, broadcast over many columns -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The layout casts of the body -/

/-- The activation block is cast to its own shape. -/
theorem pay4_eq (x0 : FVec Ideal S1024x512 .bf16) : k0_pay4 x0 = x0 := by
  unfold k0_pay4
  exact shapeCast_self _ _

/-- The mask is cast to its own shape. -/
theorem pay5_eq (x2 : FVec Ideal S1024x5 .f32) : k0_pay5 x2 = x2 := by
  unfold k0_pay5
  exact shapeCast_self _ _

/-- A weight block `[1, 1536, 512]` read as a matrix `[1536, 512]`: entry `(j, kk)` is entry `(0, j, kk)`. -/
theorem cast_w_at (w : FVec Ideal S1x1536x512 .bf16) (j : Fin 1536) (kk : Fin 512) :
    shapeCast S1536x512 w shapeCasts_S1x1536x512_S1536x512 (ix2 j kk) = w (ix3 (0 : Fin 1) j kk) :=
  shapeCast_1ab_ab_apply w _ j kk

theorem pay8_at (w : FVec Ideal S1x1536x512 .bf16) (j : Fin 1536) (kk : Fin 512) :
    k0_pay8 w (ix2 j kk) = w (ix3 (0 : Fin 1) j kk) := by
  unfold k0_pay8
  exact cast_w_at w j kk

/-! ## The activations scaled by one column of the mask -/

/-- Column `c` of the mask, kept as a `[1024, 1]` array, narrowed (the identity on extended reals) and
    broadcast over the 512 columns of the activation block, multiplies row `r` of the block by `x2 (r, c)`. -/
theorem scaled_at (x0 : FVec Ideal S1024x512 .bf16) (x2 : FVec Ideal S1024x5 .f32) (o : Nat) (c : Fin 5)
    (hc : c.val = o) (h : S1024x5.Slices ![0, o] S1024x1) (r : Fin 1024) (kk : Fin 512) :
    mulf x0 (broadcastTo S1024x512 (truncf .bf16 (extractStridedSlice S1024x1 ![0, o] x2 h) bitsLt_bf16_f32)
      broadcasts_S1024x1_S1024x512) (ix2 r kk) = x0 (ix2 r kk) * x2 (ix2 r c) := by
  refine (mulf_apply _ _ _).trans (congrArg (x0 (ix2 r kk) * ·) ?_)
  refine (broadcastTo_a1_ab_apply _ _ r kk).trans ?_
  show extractStridedSlice S1024x1 ![0, o] x2 h (ix2 r (0 : Fin 1)) = x2 (ix2 r c)
  exact slice2_axis1_apply o x2 h r (0 : Fin 1) c (by rw [hc]; rfl)

theorem pay7_at (x0 : FVec Ideal S1024x512 .bf16) (x2 : FVec Ideal S1024x5 .f32) (r : Fin 1024) (kk : Fin 512) :
    k0_pay7 x0 x2 (ix2 r kk) = x0 (ix2 r kk) * x2 (ix2 r 3) := by
  unfold k0_pay7
  refine (scaled_at (k0_pay4 x0) (k0_pay5 x2) 3 3 rfl slices_S1024x5_o0_3_S1024x1 r kk).trans ?_
  rw [pay4_eq, pay5_eq]

/-! ## The contraction: both operands are contracted along their second axis -/

theorem lhs_dot_0 (i : S1024x1536.Idx) (q : dot_S1024x512_S1536x512_S1024x1536_1_1_0_0_n_n.contr.Idx) :
    (dot_S1024x512_S1536x512_S1024x1536_1_1_0_0_n_n.lhsIdx i q 0).val = (i 0).val := by
  unfold DotDims.lhsIdx
  rw [dif_neg (show ¬(0 : Fin S1024x512.rank) ∈ dot_S1024x512_S1536x512_S1024x1536_1_1_0_0_n_n.lhsBatch by decide), dif_pos (show (0 : Fin S1024x512.rank) ∈ dot_S1024x512_S1536x512_S1024x1536_1_1_0_0_n_n.lhsNonContracting by decide)]
  rfl
theorem lhs_dot_1 (i : S1024x1536.Idx) (q : dot_S1024x512_S1536x512_S1024x1536_1_1_0_0_n_n.contr.Idx) :
    (dot_S1024x512_S1536x512_S1024x1536_1_1_0_0_n_n.lhsIdx i q 1).val = (q ⟨0, by decide⟩).val :=
  dot_S1024x512_S1536x512_S1024x1536_1_1_0_0_n_n.lhsIdx_val_of_single rfl i q
theorem rhs_dot_0 (i : S1024x1536.Idx) (q : dot_S1024x512_S1536x512_S1024x1536_1_1_0_0_n_n.contr.Idx) :
    (dot_S1024x512_S1536x512_S1024x1536_1_1_0_0_n_n.rhsIdx i q 0).val = (i 1).val := by
  unfold DotDims.rhsIdx
  rw [dif_neg (show ¬(0 : Fin S1536x512.rank) ∈ dot_S1024x512_S1536x512_S1024x1536_1_1_0_0_n_n.rhsBatch by decide), dif_pos (show (0 : Fin S1536x512.rank) ∈ dot_S1024x512_S1536x512_S1024x1536_1_1_0_0_n_n.rhsNonContracting by decide)]
  rfl
theorem rhs_dot_1 (i : S1024x1536.Idx) (q : dot_S1024x512_S1536x512_S1024x1536_1_1_0_0_n_n.contr.Idx) :
    (dot_S1024x512_S1536x512_S1024x1536_1_1_0_0_n_n.rhsIdx i q 1).val = (q ⟨0, by decide⟩).val :=
  dot_S1024x512_S1536x512_S1024x1536_1_1_0_0_n_n.rhsIdx_val_of_single rfl i q

/-- The product into a cleared accumulator, at `(r, j)`: row `r` of the left operand against row `j` of the
    right one, summed over the 512 contraction positions. -/
theorem matmul_zero_at (lhs : FVec Ideal S1024x512 .bf16) (rhs : FVec Ideal S1536x512 .bf16) (r : Fin 1024) (j : Fin 1536) :
    matmul dot_S1024x512_S1536x512_S1024x1536_1_1_0_0_n_n none lhs rhs (constant (F := Ideal) S1024x1536 .f32 0x00000000#32) (ix2 r j)
      = ∑ kk : Fin 512, lhs (ix2 r kk) * rhs (ix2 j kk) := by
  simp only [matmul]
  rw [Ideal.matmul_constant_zero_apply, ← Equiv.sum_comp (contrEquiv1 dot_S1024x512_S1536x512_S1024x1536_1_1_0_0_n_n 512 rfl rfl).symm]
  refine Finset.sum_congr rfl fun k _ => ?_
  have hk := contrEquiv1_symm_val dot_S1024x512_S1536x512_S1024x1536_1_1_0_0_n_n 512 rfl rfl k
  have el : dot_S1024x512_S1536x512_S1024x1536_1_1_0_0_n_n.lhsIdx (ix2 r j) ((contrEquiv1 dot_S1024x512_S1536x512_S1024x1536_1_1_0_0_n_n 512 rfl rfl).symm k) = ix2 r k := funext fun a => Fin.ext (by
    match a with
    | ⟨0, _⟩ => exact lhs_dot_0 _ _
    | ⟨1, _⟩ => exact (lhs_dot_1 _ _).trans hk)
  have er : dot_S1024x512_S1536x512_S1024x1536_1_1_0_0_n_n.rhsIdx (ix2 r j) ((contrEquiv1 dot_S1024x512_S1536x512_S1024x1536_1_1_0_0_n_n 512 rfl rfl).symm k) = ix2 j k := funext fun a => Fin.ext (by
    match a with
    | ⟨0, _⟩ => exact rhs_dot_0 _ _
    | ⟨1, _⟩ => exact (rhs_dot_1 _ _).trans hk)
  rw [el, er]

/-! ## The five products of one step -/

/-- The unscaled product: the activation block against a weight block read as a matrix. -/
theorem plain_term_at (x0 : FVec Ideal S1024x512 .bf16) (w : FVec Ideal S1x1536x512 .bf16) (r : Fin 1024) (j : Fin 1536) :
    matmul dot_S1024x512_S1536x512_S1024x1536_1_1_0_0_n_n none (k0_pay4 x0) (shapeCast S1536x512 w shapeCasts_S1x1536x512_S1536x512)
        (constant (F := Ideal) S1024x1536 .f32 0x00000000#32) (ix2 r j)
      = ∑ kk : Fin 512, x0 (ix2 r kk) * w (ix3 (0 : Fin 1) j kk) := by
  refine (matmul_zero_at _ _ r j).trans (Finset.sum_congr rfl fun kk _ => ?_)
  rw [pay4_eq, cast_w_at]

/-- A scaled product: the activation block, its rows scaled by column `c` of the mask, against a weight block
    read as a matrix. -/
theorem scaled_term_at (x0 : FVec Ideal S1024x512 .bf16) (x2 : FVec Ideal S1024x5 .f32) (w : FVec Ideal S1x1536x512 .bf16)
    (o : Nat) (c : Fin 5) (hc : c.val = o) (h : S1024x5.Slices ![0, o] S1024x1) (r : Fin 1024) (j : Fin 1536) :
    matmul dot_S1024x512_S1536x512_S1024x1536_1_1_0_0_n_n none
        (mulf (k0_pay4 x0) (broadcastTo S1024x512 (truncf .bf16 (extractStridedSlice S1024x1 ![0, o] (k0_pay5 x2) h) bitsLt_bf16_f32)
          broadcasts_S1024x1_S1024x512))
        (shapeCast S1536x512 w shapeCasts_S1x1536x512_S1536x512)
        (constant (F := Ideal) S1024x1536 .f32 0x00000000#32) (ix2 r j)
      = ∑ kk : Fin 512, (x0 (ix2 r kk) * x2 (ix2 r c)) * w (ix3 (0 : Fin 1) j kk) := by
  refine (matmul_zero_at _ _ r j).trans (Finset.sum_congr rfl fun kk _ => ?_)
  rw [scaled_at (k0_pay4 x0) (k0_pay5 x2) o c hc h r kk, pay4_eq, pay5_eq, cast_w_at]

/-- The first three products, added to the carried accumulator. -/
theorem pay6_at (x0 : FVec Ideal S1024x512 .bf16) (x2 : FVec Ideal S1024x5 .f32) (acc : FVec Ideal S1024x1536 .f32)
    (w0 w1 w2 : FVec Ideal S1x1536x512 .bf16) (r : Fin 1024) (j : Fin 1536) :
    k0_pay6 x0 x2 acc w0 w1 w2 (ix2 r j)
      = ((acc (ix2 r j) + ∑ kk : Fin 512, x0 (ix2 r kk) * w0 (ix3 0 j kk))
          + ∑ kk : Fin 512, (x0 (ix2 r kk) * x2 (ix2 r 1)) * w1 (ix3 0 j kk))
          + ∑ kk : Fin 512, (x0 (ix2 r kk) * x2 (ix2 r 2)) * w2 (ix3 0 j kk) := by
  unfold k0_pay6
  refine (addf_apply _ _ _).trans (congrArg₂ (· + ·) ?_ (scaled_term_at x0 x2 w2 2 2 rfl slices_S1024x5_o0_2_S1024x1 r j))
  refine (addf_apply _ _ _).trans (congrArg₂ (· + ·) ?_ (scaled_term_at x0 x2 w1 1 1 rfl slices_S1024x5_o0_1_S1024x1 r j))
  exact (addf_apply _ _ _).trans (congrArg (acc (ix2 r j) + ·) (plain_term_at x0 w0 r j))

/-- ONE STEP: the accumulator block after the step is the block before it plus the five products, the last four
    with the activations scaled by columns 1 to 4 of the mask. -/
theorem step_at (x0 : FVec Ideal S1024x512 .bf16) (x2 : FVec Ideal S1024x5 .f32) (acc : FVec Ideal S1024x1536 .f32) (w0 w1 w2 w3 w4 : FVec Ideal S1x1536x512 .bf16) (r : Fin 1024) (j : Fin 1536) :
    k0_pay1 (k0_pay4 x0) (k0_pay5 x2) (k0_pay6 x0 x2 acc w0 w1 w2) (k0_pay7 x0 x2) (k0_pay8 w3) w4 (ix2 r j)
      = ((((acc (ix2 r j) + ∑ kk : Fin 512, x0 (ix2 r kk) * w0 (ix3 0 j kk))
          + ∑ kk : Fin 512, (x0 (ix2 r kk) * x2 (ix2 r 1)) * w1 (ix3 0 j kk))
          + ∑ kk : Fin 512, (x0 (ix2 r kk) * x2 (ix2 r 2)) * w2 (ix3 0 j kk))
          + ∑ kk : Fin 512, (x0 (ix2 r kk) * x2 (ix2 r 3)) * w3 (ix3 0 j kk))
          + ∑ kk : Fin 512, (x0 (ix2 r kk) * x2 (ix2 r 4)) * w4 (ix3 0 j kk) := by
  unfold k0_pay1
  refine (congrFun (shapeCast_self _ _) (ix2 r j)).trans ?_
  refine (addf_apply _ _ _).trans (congrArg₂ (· + ·) ?_ (scaled_term_at x0 x2 w4 4 4 rfl slices_S1024x5_o0_4_S1024x1 r j))
  refine (addf_apply _ _ _).trans (congrArg₂ (· + ·) (pay6_at x0 x2 acc w0 w1 w2 r j) ?_)
  exact scaled_term_at x0 x2 w3 3 3 rfl slices_S1024x5_o0_3_S1024x1 r j

/-! ## The cleared accumulator and the bias -/

/-- The first step clears the accumulator: the splat of the f32 word `0`, which is the extended real `0`. -/
theorem zero_at (i : S1024x1536.Idx) : (k0_pay3 (F := Ideal)) i = 0 := by
  unfold k0_pay3
  refine (congrFun (shapeCast_self _ _) i).trans ?_
  exact Ideal.ofBits_zero_f32

/-- The last step adds the bias row, broadcast down the 1024 rows, to the accumulator. -/
theorem bias_at (v50 : FVec Ideal S1024x1536 .f32) (v51 : FVec Ideal S1x1536 .f32) (r : Fin 1024) (j : Fin 1536) :
    k0_pay2 v50 v51 (ix2 r j) = v50 (ix2 r j) + v51 (ix2 0 j) := by
  unfold k0_pay2
  refine (addf_apply _ _ _).trans (congrArg (v50 (ix2 r j) + ·) ?_)
  refine (broadcastTo_1b_ab_apply _ _ r j).trans ?_
  exact congrFun (shapeCast_self _ _) _

end Cert.KernelIdeal.KVal

end
-- ==== Proof.KVal.Pieces.lean ====
/-
  What one grid point's body leaves, as arithmetic on the point's input blocks. Every load of the body reads a whole
  staging buffer except the five loads of the weights block, each of which reads one entry of the stack of five
  [1536, 512] matrices. The accumulator's last store is the whole buffer, so what the accumulator holds afterwards is
  that store's value: the previous contents (zero at a first contraction block) plus the five block products, added one
  after the other. At a last contraction block the output block is that sum, read back, plus the bias row on every row.
-/
import proofs.«405207_j28973849379101_2_alg».proof.Proof.FrameI.Frame
import proofs.«405207_j28973849379101_2_alg».proof.Proof.KVal.Payload
import Idealize.ShloMosaic.Lib.Pipeline.Value

set_option maxRecDepth 16384

noncomputable section

namespace Cert.KernelIdeal.KVal

open Cert.KernelIdeal Cert.KernelIdeal.Gen Cert.KernelIdeal.Fr Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-! ## One entry of the stack of weights, out of the weights block -/

def wld0 (x1 : Vec F S5x1536x512 .bf16) : Vec F S1x1536x512 .bf16 := View.ld x1 (Rect.unit (s := S5x1536x512) ![0, 0, 0] S1x1536x512.size inb_S5x1536x512_S1x1536x512_0_0_0)
def wld1 (x1 : Vec F S5x1536x512 .bf16) : Vec F S1x1536x512 .bf16 := View.ld x1 (Rect.unit (s := S5x1536x512) ![1, 0, 0] S1x1536x512.size inb_S5x1536x512_S1x1536x512_1_0_0)
def wld2 (x1 : Vec F S5x1536x512 .bf16) : Vec F S1x1536x512 .bf16 := View.ld x1 (Rect.unit (s := S5x1536x512) ![2, 0, 0] S1x1536x512.size inb_S5x1536x512_S1x1536x512_2_0_0)
def wld3 (x1 : Vec F S5x1536x512 .bf16) : Vec F S1x1536x512 .bf16 := View.ld x1 (Rect.unit (s := S5x1536x512) ![3, 0, 0] S1x1536x512.size inb_S5x1536x512_S1x1536x512_3_0_0)
def wld4 (x1 : Vec F S5x1536x512 .bf16) : Vec F S1x1536x512 .bf16 := View.ld x1 (Rect.unit (s := S5x1536x512) ![4, 0, 0] S1x1536x512.size inb_S5x1536x512_S1x1536x512_4_0_0)

/-- Entry `e` of the stack, at row `j` and contraction position `kk`, is the block at (e, j, kk). -/
theorem wld0_at (x1 : Vec F S5x1536x512 .bf16) (j : Fin 1536) (kk : Fin 512) :
    (wld0 x1 : Vec F S1x1536x512 .bf16) (@ix3 1 1536 512 0 j kk) = x1 (@ix3 5 1536 512 0 j kk) :=
  congrArg x1 (funext fun a => Fin.ext (by match a with | ⟨0, _⟩ => rfl | ⟨1, _⟩ => exact (Nat.zero_add _).trans (Nat.one_mul _) | ⟨2, _⟩ => exact (Nat.zero_add _).trans (Nat.one_mul _)))
theorem wld1_at (x1 : Vec F S5x1536x512 .bf16) (j : Fin 1536) (kk : Fin 512) :
    (wld1 x1 : Vec F S1x1536x512 .bf16) (@ix3 1 1536 512 0 j kk) = x1 (@ix3 5 1536 512 1 j kk) :=
  congrArg x1 (funext fun a => Fin.ext (by match a with | ⟨0, _⟩ => rfl | ⟨1, _⟩ => exact (Nat.zero_add _).trans (Nat.one_mul _) | ⟨2, _⟩ => exact (Nat.zero_add _).trans (Nat.one_mul _)))
theorem wld2_at (x1 : Vec F S5x1536x512 .bf16) (j : Fin 1536) (kk : Fin 512) :
    (wld2 x1 : Vec F S1x1536x512 .bf16) (@ix3 1 1536 512 0 j kk) = x1 (@ix3 5 1536 512 2 j kk) :=
  congrArg x1 (funext fun a => Fin.ext (by match a with | ⟨0, _⟩ => rfl | ⟨1, _⟩ => exact (Nat.zero_add _).trans (Nat.one_mul _) | ⟨2, _⟩ => exact (Nat.zero_add _).trans (Nat.one_mul _)))
theorem wld3_at (x1 : Vec F S5x1536x512 .bf16) (j : Fin 1536) (kk : Fin 512) :
    (wld3 x1 : Vec F S1x1536x512 .bf16) (@ix3 1 1536 512 0 j kk) = x1 (@ix3 5 1536 512 3 j kk) :=
  congrArg x1 (funext fun a => Fin.ext (by match a with | ⟨0, _⟩ => rfl | ⟨1, _⟩ => exact (Nat.zero_add _).trans (Nat.one_mul _) | ⟨2, _⟩ => exact (Nat.zero_add _).trans (Nat.one_mul _)))
theorem wld4_at (x1 : Vec F S5x1536x512 .bf16) (j : Fin 1536) (kk : Fin 512) :
    (wld4 x1 : Vec F S1x1536x512 .bf16) (@ix3 1 1536 512 0 j kk) = x1 (@ix3 5 1536 512 4 j kk) :=
  congrArg x1 (funext fun a => Fin.ext (by match a with | ⟨0, _⟩ => rfl | ⟨1, _⟩ => exact (Nat.zero_add _).trans (Nat.one_mul _) | ⟨2, _⟩ => exact (Nat.zero_add _).trans (Nat.one_mul _)))

/-! ## One point's step -/

/-- The accumulator after a point, from what it held before (`acc`) and the point's activations, weights and mask blocks. -/
def stepOf (x0 : Vec F S1024x512 .bf16) (x1 : Vec F S5x1536x512 .bf16) (x2 : Vec F S1024x5 .f32) (acc : Vec F S1024x1536 .f32) : Vec F S1024x1536 .f32 :=
  k0_pay1 (k0_pay4 x0) (k0_pay5 x2) (k0_pay6 x0 x2 acc (wld0 x1) (wld1 x1) (wld2 x1)) (k0_pay7 x0 x2) (k0_pay8 (wld3 x1)) (wld4 x1)

/-- A first contraction block leaves the step from the cleared accumulator. -/
theorem sout0_A_0_eq (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : cond0_0 i) (hc1 : ¬cond0_1 i)
    (x0 : Vec F S1024x512 .bf16) (x1 : Vec F S5x1536x512 .bf16) (x2 : Vec F S1024x5 .f32) (x3 : Vec F S1x1536 .f32) :
    sout0_A_0 c i arg2 harg2 arg3 harg3 arg4 harg4 arg5 harg5 arg6 harg6 arg7 harg7 hc0 hc1 x0 x1 x2 x3 = stepOf x0 x1 x2 k0_pay3 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x1536) hz2]
  simp only [View.readAt_eq_ld, harg2.read_unread, harg3.read_unread, harg4.read_unread, harg5.read_unread, harg7.read_unread,
    View.ld_unit_zero (S := S1024x512) hz2, View.ld_unit_zero (S := S1024x5) hz2, View.ld_unit_zero (S := S1x1536) hz2,
    View.ld_unit_zero (S := S1024x1536) hz2, View.readCov_unit_zero (S := S1024x1536) _ hz2]
  rfl

/-- A middle contraction block leaves the step from what the point before left. -/
theorem sout0_B_0_eq (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : ¬cond0_1 i)
    (x0 : Vec F S1024x512 .bf16) (x1 : Vec F S5x1536x512 .bf16) (x2 : Vec F S1024x5 .f32) (x3 : Vec F S1x1536 .f32) (xs0 : Vec F S1024x1536 .f32) :
    sout0_B_0 c i arg2 harg2 arg3 harg3 arg4 harg4 arg5 harg5 arg6 harg6 arg7 harg7 hc0 hc1 x0 x1 x2 x3 xs0 = stepOf x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S1024x1536) hz2]
  simp only [View.readAt_eq_ld, harg2.read_unread, harg3.read_unread, harg4.read_unread, harg5.read_unread, harg7.read_unread,
    View.ld_unit_zero (S := S1024x512) hz2, View.ld_unit_zero (S := S1024x5) hz2, View.ld_unit_zero (S := S1x1536) hz2,
    View.ld_unit_zero (S := S1024x1536) hz2, View.readCov_unit_zero (S := S1024x1536) _ hz2]
  rfl

/-- So does a last contraction block, -/
theorem sout0_C_0_eq (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : cond0_1 i)
    (x0 : Vec F S1024x512 .bf16) (x1 : Vec F S5x1536x512 .bf16) (x2 : Vec F S1024x5 .f32) (x3 : Vec F S1x1536 .f32) (xs0 : Vec F S1024x1536 .f32) :
    sout0_C_0 c i arg2 harg2 arg3 harg3 arg4 harg4 arg5 harg5 arg6 harg6 arg7 harg7 hc0 hc1 x0 x1 x2 x3 xs0 = stepOf x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1024x1536) hz2]
  simp only [View.readAt_eq_ld, harg2.read_unread, harg3.read_unread, harg4.read_unread, harg5.read_unread, harg7.read_unread,
    View.ld_unit_zero (S := S1024x512) hz2, View.ld_unit_zero (S := S1024x5) hz2, View.ld_unit_zero (S := S1x1536) hz2,
    View.ld_unit_zero (S := S1024x1536) hz2, View.readCov_unit_zero (S := S1024x1536) _ hz2]
  rfl

/-- and it stores that, plus the bias row, as the output block. -/
theorem out0_C_4_eq (c : Dev nD) (i : grid0.Coords) (arg2 : Memref sig .tc .vmem S1024x512 .bf16) (harg2 : arg2.IsWhole) (arg3 : Memref sig .tc .vmem S5x1536x512 .bf16) (harg3 : arg3.IsWhole) (arg4 : Memref sig .tc .vmem S1024x5 .f32) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : cond0_1 i)
    (x0 : Vec F S1024x512 .bf16) (x1 : Vec F S5x1536x512 .bf16) (x2 : Vec F S1024x5 .f32) (x3 : Vec F S1x1536 .f32) (xs0 : Vec F S1024x1536 .f32) :
    out0_C_4 c i arg2 harg2 arg3 harg3 arg4 harg4 arg5 harg5 arg6 harg6 arg7 harg7 hc0 hc1 x0 x1 x2 x3 xs0 = k0_pay2 (stepOf x0 x1 x2 xs0) x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1024x1536) hz2]
  simp only [View.readAt_eq_ld, harg2.read_unread, harg3.read_unread, harg4.read_unread, harg5.read_unread, harg7.read_unread,
    View.ld_unit_zero (S := S1024x512) hz2, View.ld_unit_zero (S := S1024x5) hz2, View.ld_unit_zero (S := S1x1536) hz2,
    View.ld_unit_zero (S := S1024x1536) hz2, View.readCov_unit_zero (S := S1024x1536) _ hz2]
  rfl

end Cert.KernelIdeal.KVal

end
-- ==== Proof.KVal.Blocks.lean ====
/-
  The four input windows' blocks, read off their arrays. At grid point t = 8·oi + ki the activations' block is
  columns 512·ki … 512·ki + 511 of the activations, the stacked weights' block is rows 1536·oi … and columns 512·ki …
  of every one of the five stacked matrices, the mask's block is the whole mask, and the bias row's block is columns
  1536·oi … of the bias. A block's element sits in its array, on each axis, at the block index times the block's size
  plus its own coordinate; the block indices are the printed index maps, decided once over the 32 grid points.
-/
import proofs.«405207_j28973849379101_2_alg».proof.Proof.FrameI.Entry
import Idealize.ShloMosaic.Lib.Pipeline.Value
import Idealize.ShloMosaic.Lib.ValueIdx

set_option maxRecDepth 16384

noncomputable section

namespace Cert.KernelIdeal.KVal

open Cert.KernelIdeal Cert.KernelIdeal.Gen Cert.KernelIdeal.Fr
open Idealize.ShloMosaic Idealize.ShloMosaic.TcCoe Idealize.SL.Sem Idealize.ShloMosaic.ValueIdx

variable {F : FTy → Type} [FloatOps F]
variable (m : (ℓ : Loc nD τ sig) → Buf (Elt F) ℓ) (c : Dev nD)

/-! ## The block indices over the grid -/

/-- The activations' block index at point t: row block 0, column block t mod 8. -/
theorem index_x : ∀ t : Fin cfg0.N, win0_0.index t (0 : Fin 2) = 0 ∧ win0_0.index t (1 : Fin 2) = t.val % 8 :=
  (by decide +kernel : ∀ t : Fin grid0.N, _)

/-- The stacked weights' block index: all five matrices, row block t / 8, column block t mod 8. -/
theorem index_w : ∀ t : Fin cfg0.N, win0_1.index t (0 : Fin 3) = 0 ∧ win0_1.index t (1 : Fin 3) = t.val / 8
    ∧ win0_1.index t (2 : Fin 3) = t.val % 8 :=
  (by decide +kernel : ∀ t : Fin grid0.N, _)

/-- The mask's block index: the one block. -/
theorem index_m : ∀ t : Fin cfg0.N, win0_2.index t (0 : Fin 2) = 0 ∧ win0_2.index t (1 : Fin 2) = 0 :=
  (by decide +kernel : ∀ t : Fin grid0.N, _)

/-- The bias row's block index: column block t / 8. -/
theorem index_b : ∀ t : Fin cfg0.N, win0_3.index t (0 : Fin 2) = 0 ∧ win0_3.index t (1 : Fin 2) = t.val / 8 :=
  (by decide +kernel : ∀ t : Fin grid0.N, _)

/-! ## The blocks -/

/-- The activations' block at point t is columns 512·(t mod 8) … of the activations. -/
theorem xblk_at (t : Fin cfg0.N) (r : Fin 1024) (kk : Fin 512) (h : 512 * (t.val % 8) + kk.val < 4096) :
    (iblk m c 0 t : Vec F S1024x512 .bf16) (ix2 r kk)
      = (V m c main_v104 : Vec F S1024x4096 .bf16) (ix2 r ⟨512 * (t.val % 8) + kk.val, h⟩) := by
  obtain ⟨e0, e1⟩ := index_x t
  unfold iblk
  show V m c main_v104 (((cfg0.win 0).blk t).view.emb (ix2 r kk)) = V m c main_v104 (ix2 r ⟨512 * (t.val % 8) + kk.val, h⟩)
  generalize V m c main_v104 = A
  refine congrArg A (funext fun a => Fin.ext ?_)
  match a with
  | ⟨0, _⟩ => show win0_0.index t (0 : Fin 2) * 1024 + 1 * r.val = r.val; omega
  | ⟨1, _⟩ => show win0_0.index t (1 : Fin 2) * 512 + 1 * kk.val = 512 * (t.val % 8) + kk.val; omega

/-- The stacked weights' block at point t is, in each of the five matrices, rows 1536·(t / 8) … and columns
    512·(t mod 8) … . -/
theorem wblk_at (t : Fin cfg0.N) (e : Fin 5) (j : Fin 1536) (kk : Fin 512) (ho : 1536 * (t.val / 8) + j.val < 6144)
    (hk : 512 * (t.val % 8) + kk.val < 4096) :
    (iblk m c 1 t : Vec F S5x1536x512 .bf16) (ix3 e j kk)
      = (V m c main_v93 : Vec F S5x6144x4096 .bf16) (ix3 e ⟨1536 * (t.val / 8) + j.val, ho⟩ ⟨512 * (t.val % 8) + kk.val, hk⟩) := by
  obtain ⟨e0, e1, e2⟩ := index_w t
  unfold iblk
  show V m c main_v93 (((cfg0.win 1).blk t).view.emb (ix3 e j kk))
    = V m c main_v93 (ix3 e ⟨1536 * (t.val / 8) + j.val, ho⟩ ⟨512 * (t.val % 8) + kk.val, hk⟩)
  generalize V m c main_v93 = A
  refine congrArg A (funext fun a => Fin.ext ?_)
  match a with
  | ⟨0, _⟩ => show win0_1.index t (0 : Fin 3) * 5 + 1 * e.val = e.val; omega
  | ⟨1, _⟩ => show win0_1.index t (1 : Fin 3) * 1536 + 1 * j.val = 1536 * (t.val / 8) + j.val; omega
  | ⟨2, _⟩ => show win0_1.index t (2 : Fin 3) * 512 + 1 * kk.val = 512 * (t.val % 8) + kk.val; omega

/-- The mask's block is the whole mask at every point. -/
theorem mblk_at (t : Fin cfg0.N) (r : Fin 1024) (e : Fin 5) :
    (iblk m c 2 t : Vec F S1024x5 .f32) (ix2 r e) = (V m c main_v102 : Vec F S1024x5 .f32) (ix2 r e) := by
  obtain ⟨e0, e1⟩ := index_m t
  unfold iblk
  show V m c main_v102 (((cfg0.win 2).blk t).view.emb (ix2 r e)) = V m c main_v102 (ix2 r e)
  generalize V m c main_v102 = A
  refine congrArg A (funext fun a => Fin.ext ?_)
  match a with
  | ⟨0, _⟩ => show win0_2.index t (0 : Fin 2) * 1024 + 1 * r.val = r.val; omega
  | ⟨1, _⟩ => show win0_2.index t (1 : Fin 2) * 5 + 1 * e.val = e.val; omega

/-- The bias row's block at point t is columns 1536·(t / 8) … of the bias. -/
theorem bblk_at (t : Fin cfg0.N) (j : Fin 1536) (ho : 1536 * (t.val / 8) + j.val < 6144) :
    (iblk m c 3 t : Vec F S1x1536 .f32) (ix2 0 j)
      = (V m c main_v103 : Vec F S1x6144 .f32) (ix2 0 ⟨1536 * (t.val / 8) + j.val, ho⟩) := by
  obtain ⟨e0, e1⟩ := index_b t
  unfold iblk
  show V m c main_v103 (((cfg0.win 3).blk t).view.emb (ix2 0 j)) = V m c main_v103 (ix2 0 ⟨1536 * (t.val / 8) + j.val, ho⟩)
  generalize V m c main_v103 = A
  refine congrArg A (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 1536 + 1 * j.val = 1536 * (t.val / 8) + j.val; omega

end Cert.KernelIdeal.KVal

end
-- ==== Proof.LibBlockSum.lean ====
/-
  A sum over the first `N·B` naturals taken block by block, `B` consecutive terms at a time: the bookkeeping
  step between a column sum over all rows of an array and the same sum accumulated over consecutive row blocks
  of equal height. Stated for any additive commutative monoid (so for the extended reals as well), over a summand
  defined on every natural so that no bound proofs enter the statement; the `Fin` forms read the summand at the
  values of the indices.
-/
import Mathlib.Algebra.BigOperators.Fin
import Mathlib.Algebra.BigOperators.Intervals

open scoped BigOperators

namespace Cert.LibBlockSum

variable {β : Type*} [AddCommMonoid β]

/-- The first `(N + 1)·B` terms are the first `N·B` terms and then the `B` terms of block `N`. -/
theorem sum_range_succ_block (g : ℕ → β) (B N : ℕ) :
    ∑ i ∈ Finset.range (B * (N + 1)), g i
      = ∑ i ∈ Finset.range (B * N), g i + ∑ k ∈ Finset.range B, g (B * N + k) := by
  rw [Nat.mul_succ, Finset.sum_range_add]

/-- The first `N·B` terms, block by block: block `s` holds the terms `B·s … B·s + B − 1`. -/
theorem sum_range_blocks (g : ℕ → β) (B : ℕ) :
    ∀ N : ℕ, ∑ i ∈ Finset.range (B * N), g i = ∑ s ∈ Finset.range N, ∑ k ∈ Finset.range B, g (B * s + k)
  | 0 => by simp
  | N + 1 => by rw [sum_range_succ_block, sum_range_blocks g B N, Finset.sum_range_succ]

/-- The same with both index sets as `Fin` types: a sum over `Fin M`, `M = B·N`, is the sum over the `N` blocks
    of the sum over the `B` positions inside a block. -/
theorem sum_fin_blocks (g : ℕ → β) {M B N : ℕ} (h : B * N = M) :
    ∑ r : Fin M, g r.val = ∑ s ∈ Finset.range N, ∑ k : Fin B, g (B * s + k.val) := by
  subst h
  rw [Fin.sum_univ_eq_sum_range (fun i => g i) (B * N), sum_range_blocks]
  exact Finset.sum_congr rfl fun s _ => (Fin.sum_univ_eq_sum_range (fun k => g (B * s + k)) B).symm

/-- The partial form an induction over the blocks uses: the terms below `B·(n + 1)` are those below `B·n` and
    block `n`'s, the block's as a `Fin` sum. -/
theorem sum_range_succ_block_fin (g : ℕ → β) (B n : ℕ) :
    ∑ i ∈ Finset.range (B * (n + 1)), g i = ∑ i ∈ Finset.range (B * n), g i + ∑ k : Fin B, g (B * n + k.val) := by
  rw [sum_range_succ_block, Fin.sum_univ_eq_sum_range (fun k => g (B * n + k)) B]

/-- AN ACCUMULATOR OVER THE BLOCKS. A quantity that is zero plus block 0's sum at step 0 and at each later step adds
    the next block's sum to what it was, is after step `n` the sum of all the terms below the end of block `n`
    (the bound proofs of the steps are threaded, as a recursion over the points of a grid carries them). -/
theorem fold_eq_prefix (g : ℕ → β) (B : ℕ) {N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val)) :
    ∀ (n : ℕ) (h : n < N), s n h = ∑ i ∈ Finset.range (B * (n + 1)), g i
  | 0, h => by
    rw [h0 h, sum_range_succ_block_fin, Nat.mul_zero, Finset.range_zero, Finset.sum_empty]
  | n + 1, h => by
    rw [hs n h, fold_eq_prefix g B s h0 hs n (Nat.lt_of_succ_lt h), ← sum_range_succ_block_fin]

/-- … so after the step whose block ends at `M` it is the whole sum over `Fin M`. -/
theorem fold_eq_total (g : ℕ → β) (B : ℕ) {M N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val))
    (n : ℕ) (h : n < N) (hM : B * (n + 1) = M) : s n h = ∑ r : Fin M, g r.val := by
  subst hM
  rw [fold_eq_prefix g B s h0 hs n h, Fin.sum_univ_eq_sum_range (fun i => g i) (B * (n + 1))]

end Cert.LibBlockSum
-- ==== Proof.Spec.lean ====
/-
  The two arrangements of the result, entry by entry, and the law that joins them.

  Row `r` of the activations meets row `o` of five weight matrices: the base weight and the four adapters' weights, an
  adapter's product taken with the activations multiplied by that adapter's mask entry for the row (1 when the row's
  adapter index names it, else 0). The kernel walks the 4096 contraction positions in eight blocks of 512 and, in each
  block, adds the five block products one after the other to a running total that starts from zero; the bias is added
  at the end. The reference takes each of the five products over all 4096 positions at once, the adapters' with the
  activations SELECTED by the row's adapter index (the row's entries where the index names the adapter, zero elsewhere),
  adds the bias to the first and the other four in turn. Sums of extended reals may be regrouped and reordered freely,
  `x · 1 = x` and `x · 0 = 0` hold for every extended real, so the two are equal with no finiteness assumption.
-/
import Idealize.ShloMosaic.PureOps.Ideal
import Idealize.ShloMosaic.Lib.ValueIdx
import proofs.«405207_j28973849379101_2_alg».proof.Proof.LibBlockSum

open scoped BigOperators

noncomputable section

namespace Cert.QkvSpec

open Idealize.ShloMosaic Idealize.ShloMosaic.ValueIdx

/-! ## Scalars: one row against one output column -/

/-- The running total after one more block: the five block products of block `n` added in turn to `prev`. -/
def blk5 (a0 a1 a2 a3 a4 : ℕ → EReal) (prev : EReal) (n : ℕ) : EReal :=
  ((((prev + ∑ kk : Fin 512, a0 (512 * n + kk.val)) + ∑ kk : Fin 512, a1 (512 * n + kk.val))
    + ∑ kk : Fin 512, a2 (512 * n + kk.val)) + ∑ kk : Fin 512, a3 (512 * n + kk.val)) + ∑ kk : Fin 512, a4 (512 * n + kk.val)

/-- The running total after block `n`, from zero. -/
def accAt (a0 a1 a2 a3 a4 : ℕ → EReal) : ℕ → EReal
  | 0 => blk5 a0 a1 a2 a3 a4 0 0
  | n + 1 => blk5 a0 a1 a2 a3 a4 (accAt a0 a1 a2 a3 a4 n) (n + 1)

/-- One block step adds to the running total the block's sum of the five summands taken together: the sum of a
    sum is the sum of the sums, and the five additions are regrouped by associativity. -/
private theorem blk5_eq (a0 a1 a2 a3 a4 : ℕ → EReal) (p : EReal) (n : ℕ) :
    blk5 a0 a1 a2 a3 a4 p n
      = p + ∑ kk : Fin 512, (fun k => ((((a0 k + a1 k) + a2 k) + a3 k) + a4 k)) (512 * n + kk.val) := by
  unfold blk5
  simp only [Finset.sum_add_distrib, add_assoc]

/-- After the eighth block the running total is the sum over all 4096 positions of the five summands. -/
theorem accAt_seven (a0 a1 a2 a3 a4 : ℕ → EReal) :
    accAt a0 a1 a2 a3 a4 7 = ∑ k : Fin 4096, ((((a0 k.val + a1 k.val) + a2 k.val) + a3 k.val) + a4 k.val) := by
  refine Cert.LibBlockSum.fold_eq_total (fun k => ((((a0 k + a1 k) + a2 k) + a3 k) + a4 k)) 512 (N := 8)
    (fun n _ => accAt a0 a1 a2 a3 a4 n) ?_ ?_ 7 (by norm_num) (by norm_num)
  · intro _
    exact blk5_eq a0 a1 a2 a3 a4 0 0
  · intro n _
    exact blk5_eq a0 a1 a2 a3 a4 (accAt a0 a1 a2 a3 a4 n) (n + 1)

/-- The law over any finite index set: a factor `1` leaves the activation, a factor `0` leaves zero; the sum of
    the five summands is the sum of the five sums; the bias moves past the four adapter sums by commutativity. -/
private theorem masked_law_fin {ι : Type} [Fintype ι] (x w d0 d1 d2 d3 : ι → EReal) (b : EReal) (p0 p1 p2 p3 : Prop)
    [Decidable p0] [Decidable p1] [Decidable p2] [Decidable p3] :
    (∑ k : ι, ((((x k * w k + (x k * (if p0 then (1 : EReal) else 0)) * d0 k)
        + (x k * (if p1 then (1 : EReal) else 0)) * d1 k) + (x k * (if p2 then (1 : EReal) else 0)) * d2 k)
        + (x k * (if p3 then (1 : EReal) else 0)) * d3 k)) + b
      = ((((∑ k : ι, x k * w k + b) + ∑ k : ι, (if p0 then x k else 0) * d0 k)
          + ∑ k : ι, (if p1 then x k else 0) * d1 k) + ∑ k : ι, (if p2 then x k else 0) * d2 k)
          + ∑ k : ι, (if p3 then x k else 0) * d3 k := by
  simp only [mul_ite, mul_one, mul_zero, Finset.sum_add_distrib]
  rw [add_right_comm _ _ b, add_right_comm _ _ b, add_right_comm _ _ b, add_right_comm _ _ b]

/-- The law: with the four masks each 1 or 0 as a condition holds or fails, the kernel's total plus the bias is the
    reference's nest of five whole products. -/
theorem masked_law (x w d0 d1 d2 d3 : ℕ → EReal) (b : EReal) (p0 p1 p2 p3 : Prop)
    [Decidable p0] [Decidable p1] [Decidable p2] [Decidable p3] :
    (∑ k : Fin 4096, ((((x k.val * w k.val + (x k.val * (if p0 then (1 : EReal) else 0)) * d0 k.val)
        + (x k.val * (if p1 then (1 : EReal) else 0)) * d1 k.val) + (x k.val * (if p2 then (1 : EReal) else 0)) * d2 k.val)
        + (x k.val * (if p3 then (1 : EReal) else 0)) * d3 k.val)) + b
      = ((((∑ k : Fin 4096, x k.val * w k.val + b) + ∑ k : Fin 4096, (if p0 then x k.val else 0) * d0 k.val)
          + ∑ k : Fin 4096, (if p1 then x k.val else 0) * d1 k.val) + ∑ k : Fin 4096, (if p2 then x k.val else 0) * d2 k.val)
          + ∑ k : Fin 4096, (if p3 then x k.val else 0) * d3 k.val :=
  masked_law_fin (fun k : Fin 4096 => x k.val) (fun k => w k.val) (fun k => d0 k.val) (fun k => d1 k.val)
    (fun k => d2 k.val) (fun k => d3 k.val) b p0 p1 p2 p3

/-! ## Arrays -/

abbrev SX : Shape := ⟨2, ![1024, 4096]⟩
abbrev SW5 : Shape := ⟨3, ![5, 6144, 4096]⟩
abbrev SM : Shape := ⟨2, ![1024, 5]⟩
abbrev SB2 : Shape := ⟨2, ![1, 6144]⟩
abbrev SWb : Shape := ⟨2, ![6144, 4096]⟩
abbrev SB1 : Shape := ⟨1, ![6144]⟩
abbrev SWd : Shape := ⟨3, ![4, 6144, 4096]⟩
abbrev SI : Shape := ⟨1, ![1024]⟩
abbrev SO : Shape := ⟨2, ![1024, 6144]⟩

/-- The kernel's summand at contraction position `k` for stack entry `e`, row `r`, output column `o` (zero past the
    array's end): the activation, for an adapter times its mask entry, times the stacked weight. -/
def kterm (X : SX.Idx → EReal) (W : SW5.Idx → EReal) (M : SM.Idx → EReal) (r : Fin 1024) (o : Fin 6144) (e : Fin 5) (k : ℕ) : EReal :=
  if h : k < 4096 then
    (if e = 0 then X (ix2 r ⟨k, h⟩) else X (ix2 r ⟨k, h⟩) * M (ix2 r e)) * W (ix3 e o ⟨k, h⟩)
  else 0

/-- Inside the array the kernel's summand for the base weight is the plain product. -/
private theorem kterm_zero (X : SX.Idx → EReal) (W : SW5.Idx → EReal) (M : SM.Idx → EReal) (r : Fin 1024) (o : Fin 6144)
    (k : Fin 4096) : kterm X W M r o 0 k.val = X (ix2 r k) * W (ix3 0 o k) := by
  unfold kterm
  rw [dif_pos k.isLt, if_pos rfl]

/-- Inside the array the kernel's summand for an adapter is the activation times the mask entry times the weight. -/
private theorem kterm_adapter (X : SX.Idx → EReal) (W : SW5.Idx → EReal) (M : SM.Idx → EReal) (r : Fin 1024) (o : Fin 6144)
    (e : Fin 5) (he : e ≠ 0) (k : Fin 4096) :
    kterm X W M r o e k.val = (X (ix2 r k) * M (ix2 r e)) * W (ix3 e o k) := by
  unfold kterm
  rw [dif_pos k.isLt, if_neg he]

/-- The kernel's arrangement of entry (r, o) of the result, from the launch's four arrays. -/
def KGat (X : SX.Idx → EReal) (W : SW5.Idx → EReal) (M : SM.Idx → EReal) (B : SB2.Idx → EReal) (r : Fin 1024) (o : Fin 6144) : EReal :=
  accAt (kterm X W M r o 0) (kterm X W M r o 1) (kterm X W M r o 2) (kterm X W M r o 3) (kterm X W M r o 4) 7 + B (ix2 0 o)

/-- The reference's arrangement of entry (r, o), from the activations, the base weight, the bias, the four adapters'
    weights and the rows' adapter indices. -/
def RGat (x : SX.Idx → EReal) (w : SWb.Idx → EReal) (b : SB1.Idx → EReal) (wd : SWd.Idx → EReal) (idx : SI.Idx → BitVec 32)
    (r : Fin 1024) (o : Fin 6144) : EReal :=
  ((((∑ k : Fin 4096, x (ix2 r k) * w (ix2 o k) + b (ix1 o))
    + ∑ k : Fin 4096, (if idx (ix1 r) = 0#32 then x (ix2 r k) else 0) * wd (ix3 0 o k))
    + ∑ k : Fin 4096, (if idx (ix1 r) = 1#32 then x (ix2 r k) else 0) * wd (ix3 1 o k))
    + ∑ k : Fin 4096, (if idx (ix1 r) = 2#32 then x (ix2 r k) else 0) * wd (ix3 2 o k))
    + ∑ k : Fin 4096, (if idx (ix1 r) = 3#32 then x (ix2 r k) else 0) * wd (ix3 3 o k)

/-- The two arrangements agree once the launch's arrays are what the host lines make of the arguments: the activations
    themselves, the base weight stacked on the adapters' weights, a column of ones beside the one-hot of the adapter
    indices, the bias as a row. -/
theorem KGat_eq_RGat (X : SX.Idx → EReal) (W : SW5.Idx → EReal) (M : SM.Idx → EReal) (B : SB2.Idx → EReal)
    (x : SX.Idx → EReal) (w : SWb.Idx → EReal) (b : SB1.Idx → EReal) (wd : SWd.Idx → EReal) (idx : SI.Idx → BitVec 32)
    (hX : ∀ (r : Fin 1024) (k : Fin 4096), X (ix2 r k) = x (ix2 r k))
    (hW0 : ∀ (o : Fin 6144) (k : Fin 4096), W (ix3 0 o k) = w (ix2 o k))
    (hW1 : ∀ (o : Fin 6144) (k : Fin 4096), W (ix3 1 o k) = wd (ix3 0 o k))
    (hW2 : ∀ (o : Fin 6144) (k : Fin 4096), W (ix3 2 o k) = wd (ix3 1 o k))
    (hW3 : ∀ (o : Fin 6144) (k : Fin 4096), W (ix3 3 o k) = wd (ix3 2 o k))
    (hW4 : ∀ (o : Fin 6144) (k : Fin 4096), W (ix3 4 o k) = wd (ix3 3 o k))
    (hM1 : ∀ r : Fin 1024, M (ix2 r 1) = if idx (ix1 r) = 0#32 then (1 : EReal) else 0)
    (hM2 : ∀ r : Fin 1024, M (ix2 r 2) = if idx (ix1 r) = 1#32 then (1 : EReal) else 0)
    (hM3 : ∀ r : Fin 1024, M (ix2 r 3) = if idx (ix1 r) = 2#32 then (1 : EReal) else 0)
    (hM4 : ∀ r : Fin 1024, M (ix2 r 4) = if idx (ix1 r) = 3#32 then (1 : EReal) else 0)
    (hB : ∀ o : Fin 6144, B (ix2 0 o) = b (ix1 o))
    (r : Fin 1024) (o : Fin 6144) :
    KGat X W M B r o = RGat x w b wd idx r o := by
  unfold KGat RGat
  rw [accAt_seven]
  simp only [kterm_zero, kterm_adapter X W M r o 1 (by decide), kterm_adapter X W M r o 2 (by decide),
    kterm_adapter X W M r o 3 (by decide), kterm_adapter X W M r o 4 (by decide),
    hX, hW0, hW1, hW2, hW3, hW4, hM1, hM2, hM3, hM4, hB]
  exact masked_law_fin (fun k : Fin 4096 => x (ix2 r k)) (fun k => w (ix2 o k)) (fun k => wd (ix3 0 o k))
    (fun k => wd (ix3 1 o k)) (fun k => wd (ix3 2 o k)) (fun k => wd (ix3 3 o k)) (b (ix1 o))
    (idx (ix1 r) = 0#32) (idx (ix1 r) = 1#32) (idx (ix1 r) = 2#32) (idx (ix1 r) = 3#32)

end Cert.QkvSpec

end
-- ==== Proof.KVal.Final.lean ====
/-
  The launch's output array after the run, as the kernel's arrangement of the result.

  Grid point t = 8·oi + ki works on output columns 1536·oi … 1536·oi + 1535 and contraction positions
  512·ki … 512·ki + 511. By induction over the points, after point t the accumulator's entry (r, j) is the running
  total after block ki of the five summands of row r against output column 1536·oi + j: a first block starts from the
  cleared accumulator, a later one from what the point before left, and a block's five products are the summands'
  sums over the block's 512 positions because the point's input blocks are those stretches of the launch's arrays. At
  a last block the output block is that total plus the bias row; those are the only points that write the output back,
  the column blocks they write are disjoint and fill the array, so the array ends as that function of the four arrays.
-/
import proofs.«405207_j28973849379101_2_alg».proof.Proof.KVal.Pieces
import proofs.«405207_j28973849379101_2_alg».proof.Proof.KVal.Blocks
import proofs.«405207_j28973849379101_2_alg».proof.Proof.Spec
import Idealize.ShloMosaic.Lib.Pipeline.Value

set_option maxRecDepth 16384

noncomputable section

namespace Cert.KernelIdeal.KVal

open Cert.KernelIdeal Cert.KernelIdeal.Gen Cert.KernelIdeal.Fr Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

open scoped BigOperators

/-! ## Names for the launch's arrays and a point's blocks, at their literal types -/

abbrev Xa : FVec Ideal S1024x4096 .bf16 := V m c main_v104
abbrev Wa : FVec Ideal S5x6144x4096 .bf16 := V m c main_v93
abbrev Ma : FVec Ideal S1024x5 .f32 := V m c main_v102
abbrev Ba : FVec Ideal S1x6144 .f32 := V m c main_v103
abbrev xb (t : Fin cfg0.N) : FVec Ideal S1024x512 .bf16 := iblk m c 0 t
abbrev wb (t : Fin cfg0.N) : FVec Ideal S5x1536x512 .bf16 := iblk m c 1 t
abbrev mb (t : Fin cfg0.N) : FVec Ideal S1024x5 .f32 := iblk m c 2 t
abbrev bb (t : Fin cfg0.N) : FVec Ideal S1x1536 .f32 := iblk m c 3 t
/-- The summand of stack entry `e` for row `r` and output column `o`, as a function of the contraction position. -/
abbrev kt (r : Fin 1024) (o : Fin 6144) (e : Fin 5) : ℕ → EReal := Cert.QkvSpec.kterm (Xa m c) (Wa m c) (Ma m c) r o e

/-! ## One point's step, entry by entry -/

/-- The step at an entry: the previous contents plus the five block products in turn. -/
theorem stepOf_at (x0 : FVec Ideal S1024x512 .bf16) (x1 : FVec Ideal S5x1536x512 .bf16) (x2 : FVec Ideal S1024x5 .f32)
    (acc : FVec Ideal S1024x1536 .f32) (r : Fin 1024) (j : Fin 1536) :
    stepOf (F := Ideal) x0 x1 x2 acc (ix2 r j)
      = ((((acc (ix2 r j) + ∑ kk : Fin 512, x0 (ix2 r kk) * x1 (ix3 0 j kk))
          + ∑ kk : Fin 512, (x0 (ix2 r kk) * x2 (ix2 r 1)) * x1 (ix3 1 j kk))
          + ∑ kk : Fin 512, (x0 (ix2 r kk) * x2 (ix2 r 2)) * x1 (ix3 2 j kk))
          + ∑ kk : Fin 512, (x0 (ix2 r kk) * x2 (ix2 r 3)) * x1 (ix3 3 j kk))
          + ∑ kk : Fin 512, (x0 (ix2 r kk) * x2 (ix2 r 4)) * x1 (ix3 4 j kk) := by
  have h := step_at x0 x2 acc (wld0 (F := Ideal) x1) (wld1 (F := Ideal) x1) (wld2 (F := Ideal) x1) (wld3 (F := Ideal) x1) (wld4 (F := Ideal) x1) r j
  simp only [wld0_at, wld1_at, wld2_at, wld3_at, wld4_at] at h
  exact h

/-- A product of the base weight's block is the base summand at the block's positions. -/
theorem term0 (t : Fin cfg0.N) (r : Fin 1024) (j : Fin 1536) (o : Fin 6144) (ho : o.val = 1536 * (t.val / 8) + j.val)
    (q : ℕ) (hq : t.val % 8 = q) (kk : Fin 512) :
    xb m c t (ix2 r kk) * wb m c t (ix3 0 j kk) = kt m c r o 0 (512 * q + kk.val) := by
  subst hq
  have hk : 512 * (t.val % 8) + kk.val < 4096 := by have := kk.isLt; omega
  have hlt : 1536 * (t.val / 8) + j.val < 6144 := ho ▸ o.isLt
  have eo : (⟨1536 * (t.val / 8) + j.val, hlt⟩ : Fin 6144) = o := Fin.ext ho.symm
  have e1 := xblk_at m c t r kk hk
  have e2 := wblk_at m c t 0 j kk hlt hk
  rw [eo] at e2
  unfold kt Cert.QkvSpec.kterm
  rw [dif_pos hk, if_pos rfl]
  exact congrArg₂ (· * ·) e1 e2

/-- A product of an adapter's block, taken with the masked activations, is that adapter's summand there. -/
theorem termE (e : Fin 5) (he : e ≠ 0) (t : Fin cfg0.N) (r : Fin 1024) (j : Fin 1536) (o : Fin 6144)
    (ho : o.val = 1536 * (t.val / 8) + j.val) (q : ℕ) (hq : t.val % 8 = q) (kk : Fin 512) :
    (xb m c t (ix2 r kk) * mb m c t (ix2 r e)) * wb m c t (ix3 e j kk) = kt m c r o e (512 * q + kk.val) := by
  subst hq
  have hk : 512 * (t.val % 8) + kk.val < 4096 := by have := kk.isLt; omega
  have hlt : 1536 * (t.val / 8) + j.val < 6144 := ho ▸ o.isLt
  have eo : (⟨1536 * (t.val / 8) + j.val, hlt⟩ : Fin 6144) = o := Fin.ext ho.symm
  have e1 := xblk_at m c t r kk hk
  have e2 := wblk_at m c t e j kk hlt hk
  have e3 := mblk_at m c t r e
  rw [eo] at e2
  unfold kt Cert.QkvSpec.kterm
  rw [dif_pos hk, if_neg he]
  exact congrArg₂ (· * ·) (congrArg₂ (· * ·) e1 e3) e2

/-- A point's step is one more block of the running total. -/
theorem step_sum (t : Fin cfg0.N) (r : Fin 1024) (j : Fin 1536) (o : Fin 6144) (ho : o.val = 1536 * (t.val / 8) + j.val)
    (q : ℕ) (hq : t.val % 8 = q) (prev : FVec Ideal S1024x1536 .f32) :
    stepOf (F := Ideal) (xb m c t) (wb m c t) (mb m c t) prev (ix2 r j)
      = Cert.QkvSpec.blk5 (kt m c r o 0) (kt m c r o 1) (kt m c r o 2) (kt m c r o 3) (kt m c r o 4) (prev (ix2 r j)) q := by
  have h := stepOf_at (xb m c t) (wb m c t) (mb m c t) prev r j
  rw [Finset.sum_congr rfl (fun kk _ => term0 m c t r j o ho q hq kk),
    Finset.sum_congr rfl (fun kk _ => termE m c 1 (by decide) t r j o ho q hq kk),
    Finset.sum_congr rfl (fun kk _ => termE m c 2 (by decide) t r j o ho q hq kk),
    Finset.sum_congr rfl (fun kk _ => termE m c 3 (by decide) t r j o ho q hq kk),
    Finset.sum_congr rfl (fun kk _ => termE m c 4 (by decide) t r j o ho q hq kk)] at h
  exact h

/-! ## The accumulator after every point -/

set_option maxHeartbeats 2000000 in
/-- After point `n` the accumulator's entry (r, j) is the running total after block `n % 8` for output column
    `1536 · (n / 8) + j`. -/
theorem acc_at : ∀ (n : ℕ) (hn : n < cfg0.N) (r : Fin 1024) (j : Fin 1536) (o : Fin 6144) (ho : o.val = 1536 * (n / 8) + j.val),
    ((outsAt0 m c n hn).2 : FVec Ideal S1024x1536 .f32) (ix2 r j)
      = Cert.QkvSpec.accAt (kt m c r o 0) (kt m c r o 1) (kt m c r o 2) (kt m c r o 3) (kt m c r o 4) (n % 8) := by
  intro n
  induction n using Nat.strong_induction_on with
  | _ n ih =>
    intro hn r j o ho
    have hN : n < 32 := lt_of_lt_of_eq hn (show cfg0.N = 32 from N_0)
    let t : Fin cfg0.N := ⟨n, hn⟩
    by_cases h0 : n % 8 = 0
    · -- a first block: from the cleared accumulator
      have h1 : ¬ n % 8 = 7 := by omega
      show ((outsAt0 m c t.val t.isLt).2 : FVec Ideal S1024x1536 .f32) (ix2 r j) = _
      rw [outsAt0_A m c t h0 h1]; dsimp only
      refine (congrFun (sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t)) (ix2 r j)).trans ?_
      refine (step_sum m c t r j o ho (n % 8) rfl (k0_pay3 (F := Ideal))).trans ?_
      rw [zero_at, h0]
      rfl
    · -- a later block: from what the point before left
      have hp : n - 1 < cfg0.N := Nat.lt_of_le_of_lt (Nat.sub_le _ _) hn
      have ihv := ih (n - 1) (by omega) hp r j o (by omega)
      have eq8 : n % 8 = (n - 1) % 8 + 1 := by omega
      by_cases h1 : n % 8 = 7
      · show ((outsAt0 m c t.val t.isLt).2 : FVec Ideal S1024x1536 .f32) (ix2 r j) = _
        rw [outsAt0_C m c t h0 h1]; dsimp only
        refine (congrFun (sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _) (ix2 r j)).trans ?_
        refine (step_sum m c t r j o ho (n % 8) rfl _).trans ?_
        rw [eq8]
        exact congrArg (fun a => Cert.QkvSpec.blk5 _ _ _ _ _ a _) ihv
      · show ((outsAt0 m c t.val t.isLt).2 : FVec Ideal S1024x1536 .f32) (ix2 r j) = _
        rw [outsAt0_B m c t h0 h1]; dsimp only
        refine (congrFun (sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _) (ix2 r j)).trans ?_
        refine (step_sum m c t r j o ho (n % 8) rfl _).trans ?_
        rw [eq8]
        exact congrArg (fun a => Cert.QkvSpec.blk5 _ _ _ _ _ a _) ihv

/-! ## The output block at a last contraction block -/

/-- The kernel's arrangement of the whole result, from the launch's four arrays. -/
def KG : FVec Ideal S1024x6144 .f32 := fun i => Cert.QkvSpec.KGat (Xa m c) (Wa m c) (Ma m c) (Ba m c) (i 0) (i 1)

set_option maxHeartbeats 2000000 in
/-- At a last contraction block the output block's entry (r, j) is the kernel's arrangement of entry
    (r, 1536 · oi + j) of the result. -/
theorem out_at (t : Fin cfg0.N) (h1 : t.val % 8 = 7) (r : Fin 1024) (j : Fin 1536) (o : Fin 6144)
    (ho : o.val = 1536 * (t.val / 8) + j.val) :
    ((outsAt0 m c t.val t.isLt).1 : FVec Ideal S1024x1536 .f32) (ix2 r j)
      = Cert.QkvSpec.KGat (Xa m c) (Wa m c) (Ma m c) (Ba m c) r o := by
  have h0 : ¬ t.val % 8 = 0 := by omega
  have hacc := acc_at m c t.val t.isLt r j o ho
  have hlt : 1536 * (t.val / 8) + j.val < 6144 := ho ▸ o.isLt
  have eo : (⟨1536 * (t.val / 8) + j.val, hlt⟩ : Fin 6144) = o := Fin.ext ho.symm
  have eb := bblk_at m c t j hlt
  rw [eo] at eb
  rw [outsAt0_C m c t h0 h1] at hacc ⊢; dsimp only at hacc ⊢
  have hacc7 := hacc.trans (congrArg (Cert.QkvSpec.accAt (kt m c r o 0) (kt m c r o 1) (kt m c r o 2) (kt m c r o 3) (kt m c r o 4)) h1)
  have e2 := congrFun (sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 r j)
  refine (congrFun (out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _) (ix2 r j)).trans ?_
  refine (bias_at _ (bb m c t) r j).trans ?_
  unfold Cert.QkvSpec.KGat
  exact congrArg₂ (· + ·) (e2.symm.trans hacc7) eb

/-! ## From the blocks to the array -/

/-- The output window's block index at point `t` is (0, t / 8). -/
theorem index_o : ∀ t : Fin cfg0.N, win0_4.index t (0 : Fin 2) = 0 ∧ win0_4.index t (1 : Fin 2) = t.val / 8 :=
  (by decide +kernel : ∀ t : Fin grid0.N, win0_4.index t (0 : Fin 2) = 0 ∧ win0_4.index t (1 : Fin 2) = t.val / 8)

/-- What a last contraction block writes back is its block of the kernel's arrangement. -/
theorem flushed_eq (t : Fin cfg0.N) (hf : (cfg0.win 4).flush t = true) :
    (dats m 0 c).flushed 4 t = ((cfg0.win 4).blk t).view.read (Elt Ideal) (KG m c) := by
  have h7 : t.val % 8 = 7 := (flush0_4 t).mp hf
  have hN : t.val < 32 := lt_of_lt_of_eq t.isLt (show cfg0.N = 32 from N_0)
  obtain ⟨e0, e1⟩ := index_o t
  show (cfg0.win 4).cut (grid0.coords t) ((dats m 0 c).after 4 t) = _
  rw [after0_4]
  funext y
  obtain ⟨p, q, rfl⟩ : ∃ (p : Fin 1024) (q : Fin 1536), y = ix2 p q := ⟨y 0, y 1, eq_ix2 y⟩
  have hlt : 1536 * (t.val / 8) + q.val < 6144 := by have := q.isLt; omega
  have ea : ((((cfg0.win 4).blk t).view.emb (ix2 p q)) 0 : Fin 1024) = p :=
    Fin.ext (by show win0_4.index t (0 : Fin 2) * 1024 + 1 * p.val = p.val; omega)
  have eb : ((((cfg0.win 4).blk t).view.emb (ix2 p q)) 1 : Fin 6144) = ⟨1536 * (t.val / 8) + q.val, hlt⟩ :=
    Fin.ext (by show win0_4.index t (1 : Fin 2) * 1536 + 1 * q.val = 1536 * (t.val / 8) + q.val; omega)
  refine (out_at m c t h7 p q ⟨1536 * (t.val / 8) + q.val, hlt⟩ rfl).trans ?_
  rw [View.read_apply]
  show _ = Cert.QkvSpec.KGat (Xa m c) (Wa m c) (Ma m c) (Ba m c) ((((cfg0.win 4).blk t).view.emb (ix2 p q)) 0) ((((cfg0.win 4).blk t).view.emb (ix2 p q)) 1)
  exact (congrArg₂ (Cert.QkvSpec.KGat (Xa m c) (Wa m c) (Ma m c) (Ba m c)) ea eb).symm

/-- An index of the output array is in point `t`'s block iff each coordinate is in the block's range. -/
theorem mem_blk4 (t : Fin cfg0.N) (i : S1024x6144.Idx) :
    i ∈ ((cfg0.win 4).blk t).view.set ↔ ∀ a : Fin 2, win0_4.index t a * S1024x1536.size a ≤ (i a).val ∧ (i a).val < win0_4.index t a * S1024x1536.size a + S1024x1536.size a := by
  show i ∈ ((View.whole main_v105).slice (win0_4.rect t)).set ↔ _
  rw [View.set_slice_whole, Rect.mem_set_unit]
  exact Iff.rfl

/-- Every entry of the output array lies in the block some last contraction block writes back: column `o` in that of
    point 8 · (o / 1536) + 7. -/
theorem cover (i : S1024x6144.Idx) : ∃ t : Fin cfg0.N, (cfg0.win 4).flush t = true ∧ i ∈ ((cfg0.win 4).blk t).view.set := by
  have hi0 : (i 0).val < 1024 := (i 0).isLt
  have hi1 : (i 1).val < 6144 := (i 1).isLt
  have hNt : 8 * ((i 1).val / 1536) + 7 < cfg0.N := lt_of_lt_of_eq (by omega : 8 * ((i 1).val / 1536) + 7 < 32) (show cfg0.N = 32 from N_0).symm
  refine ⟨⟨8 * ((i 1).val / 1536) + 7, hNt⟩, (flush0_4 _).mpr (by show (8 * ((i 1).val / 1536) + 7) % 8 = 7; omega), ?_⟩
  rw [mem_blk4]
  obtain ⟨e0, e1⟩ := index_o ⟨8 * ((i 1).val / 1536) + 7, hNt⟩
  have e1' : win0_4.index ⟨8 * ((i 1).val / 1536) + 7, hNt⟩ (1 : Fin 2) = (8 * ((i 1).val / 1536) + 7) / 8 := e1
  intro a
  match a with
  | ⟨0, _⟩ => show win0_4.index ⟨8 * ((i 1).val / 1536) + 7, hNt⟩ (0 : Fin 2) * 1024 ≤ (i 0).val ∧ (i 0).val < win0_4.index ⟨8 * ((i 1).val / 1536) + 7, hNt⟩ (0 : Fin 2) * 1024 + 1024; omega
  | ⟨1, _⟩ => show win0_4.index ⟨8 * ((i 1).val / 1536) + 7, hNt⟩ (1 : Fin 2) * 1536 ≤ (i 1).val ∧ (i 1).val < win0_4.index ⟨8 * ((i 1).val / 1536) + 7, hNt⟩ (1 : Fin 2) * 1536 + 1536; omega

/-- The output array after the run is the kernel's arrangement of the result. -/
theorem final : (dats m 0 c).arrAt 4 cfg0.N = KG m c :=
  (dats m 0 c).arrAt_eq_of_cover 4 (KG m c) (fun t hf => flushed_eq m c t hf) (cover)

end Cert.KernelIdeal.KVal

end
-- ==== Proof.KVal.Run.lean ====
/-
  The idealized kernel's run with its result named: every weakly fair execution ends with the output array at the
  kernel's arrangement of the result over the launch's four arrays, and with the thirteen arguments as given.
-/
import proofs.«405207_j28973849379101_2_alg».proof.Proof.KVal.Final

set_option maxRecDepth 16384

noncomputable section

namespace Cert.KernelIdeal.KVal

open Cert.KernelIdeal Cert.KernelIdeal.Gen Cert.KernelIdeal.Fr Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The run, its post read at the result and at the arguments: the result is the output window's array, which ends at what
    the write-backs make of it; an argument is none of the launch's arrays and no host line writes it. -/
theorem kernel_run : θ_run defs (onTc (τ := τ) (main (F := Ideal))) ⟨m, fun _ => 0, ρ⟩ (fun r => ∀ c : Dev nD,
      r.2.mem ((c.tc : Thread nD τ).loc main_v105) = KG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    have kept : ∀ b : Ref sig .tc, b.isScoped = false → (∀ w, (spec0 w).arr.view.ref ≠ b) →
        (b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12) →
        _ = m ((c.tc : Thread nD τ).loc b) :=
      fun b hs ha hb => ((h c).2 b (Pipeline.mem_restRefs_of b hs ha)).trans (V_arg m c b hb)
    ⟨((h c).1 4).trans (final m c),
     kept main_arg0 (by decide) (by decide) (by simp),
     kept main_arg1 (by decide) (by decide) (by simp),
     kept main_arg2 (by decide) (by decide) (by simp),
     kept main_arg3 (by decide) (by decide) (by simp),
     kept main_arg4 (by decide) (by decide) (by simp),
     kept main_arg5 (by decide) (by decide) (by simp),
     kept main_arg6 (by decide) (by decide) (by simp),
     kept main_arg7 (by decide) (by decide) (by simp),
     kept main_arg8 (by decide) (by decide) (by simp),
     kept main_arg9 (by decide) (by decide) (by simp),
     kept main_arg10 (by decide) (by decide) (by simp),
     kept main_arg11 (by decide) (by decide) (by simp),
     kept main_arg12 (by decide) (by decide) (by simp)⟩) (run_main m ρ)

end Cert.KernelIdeal.KVal

end
-- ==== Proof.HostSmall.lean ====
/-
  Three arrays the host lines write before the launch, each read at one position.

  * The activations as the kernel reads them: the host rounds the first argument (1024 × 4096) to the 16-bit format.
    Over the extended reals that rounding is the identity, so the array read at (r, k) is the argument at (r, k).
  * The mask (1024 × 5): the host lays the selector, a vector of 1024 words, along the rows of a 1024 × 4 rectangle,
    lays the positions 0, 1, 2, 3 along its columns, compares the two word for word, turns each one-bit answer into the
    number 1 or 0, and puts a column of ones in front of the four columns so made. Column e + 1 of the result, at row r,
    is therefore 1 when the selector's word at r is e and 0 otherwise: the one-hot code of the selector.
  * The bias as a row (1 × 6144): the third argument, a vector of 6144 numbers, with a unit axis put in front; the row
    read at (0, o) is the vector at o.

  Each array is first stated whole, as the host lines' composed term over the arguments; the readings at a position are
  then small facts about a concatenation, two broadcasts, a comparison of words and a change of shape, over variables.
-/
import proofs.«405207_j28973849379101_2_alg».proof.Proof.FrameI.Entry
import Idealize.ShloMosaic.Lib.StableHlo.Run
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.HostSide

open Cert.KernelIdeal Cert.KernelIdeal.Gen Cert.KernelIdeal.Fr
open Idealize.ShloMosaic Idealize.ShloMosaic.TcCoe Idealize.SL.Sem
open Idealize.ShloMosaic.ValueIdx Idealize.ShloMosaic.StableHlo

variable (m : (ℓ : Loc nD τ sig) → Buf (Elt Ideal) ℓ) (c : Dev nD)

/-! ## The three arrays, whole -/

set_option maxHeartbeats 4000000 in
/-- The activations at the launch: the first argument, rounded to the 16-bit format. -/
theorem v104_eq : (V m c main_v104 : S1024x4096.Idx → EReal)
    = truncf (F := Ideal) .bf16 (m ((c : Thread nD τ).loc main_arg0) : S1024x4096.Idx → EReal) bitsLt_bf16_f32 := by
  dsimp only [V, hostOps0]
  after_results_simp

set_option maxHeartbeats 4000000 in
/-- The bias row at the launch: the third argument with a unit axis in front. -/
theorem v103_eq : (V m c main_v103 : S1x6144.Idx → EReal)
    = shapeCast S1x6144 (m ((c : Thread nD τ).loc main_arg2) : S6144.Idx → EReal) shapeCasts_S6144_S1x6144 := by
  dsimp only [V, hostOps0]
  after_results_simp
  first | done | rfl

set_option maxHeartbeats 4000000 in
/-- The mask at the launch: a column of ones, then the four columns that compare the selector with 0, 1, 2, 3. -/
theorem v102_eq : (V m c main_v102 : S1024x5.Idx → EReal)
    = concatenate S1024x5 1 [⟨S1024x1, broadcastInDim S1024x1 ![] bcast_S_S1024x1 (constant (F := Ideal) S_ .f32 0x3F800000#32)⟩,
        ⟨S1024x4, uitofp (F := Ideal) .f32 (cmpi .eq
          (broadcastInDim S1024x4 ![0, 1] bcast_S1024x1_S1024x4_0_1 (broadcastInDim S1024x1 ![0] bcast_S1024_S1024x1_0 (m ((c : Thread nD τ).loc main_arg12) : S1024.Idx → BitVec 32)))
          (broadcastInDim S1024x4 ![0, 1] bcast_S1x4_S1024x4_0_1 (broadcastInDim S1x4 ![1] bcast_S4_S1x4_1 (iotaInDim S4 32 0))))⟩]
        concatenates_S1024x1_S1024x4_S1024x5_d1 := by
  dsimp only [V, hostOps0]
  after_results_simp
  first | done | rfl

/-! ## Readings at a position, over variables -/

/-- The two ways of writing a position of a rectangle by its coordinates agree. -/
theorem ij_eq_ix2 {n k : Nat} (p : Fin n) (q : Fin k) : Predicate.ij p q = ix2 p q := by
  funext d; match d with | ⟨0, _⟩ => rfl | ⟨1, _⟩ => rfl

/-- The two ways of writing a position of a vector by its coordinate agree. -/
theorem ofFin_eq_ix1 {n : Nat} (p : Fin n) : Shape.Idx.ofFin p = ix1 p := by
  funext d; match d with | ⟨0, _⟩ => exact Fin.ext rfl

/-- The one-bit answer of an equality test of two words, turned into a number: 1 when they are equal, else 0. -/
theorem bit_of_eq (x y : BitVec 32) :
    (FloatOps.uitofp (F := Ideal) .f32 (IntOp.cmpi .eq x y) : EReal) = if x = y then (1 : EReal) else 0 := by
  by_cases h : x = y
  · rw [if_pos h, Predicate.cmpi_eq_iff.mpr h]
    show (((1#1 : BitVec 1).toNat : ℝ) : EReal) = 1
    simp
  · rw [if_neg h, eq_zero_of_ne_one (fun h' => h (Predicate.cmpi_eq_iff.mp h'))]
    show (((0#1 : BitVec 1).toNat : ℝ) : EReal) = 0
    simp

/-- Column e + 1 of the mask at row r: past the leading column, the concatenation reads its second piece at column
    e; there the selector laid along the rows reads its word at r, the positions laid along the columns read e,
    and the comparison's bit becomes 1 or 0. -/
theorem onehot_at (x₁ : S1024x1.Idx → EReal) (a : S1024.Idx → BitVec 32) (r : Fin 1024) (q : Fin 5) (e : Fin 4)
    (hq : q.val = e.val + 1) (w : BitVec 32) (hw : w = BitVec.ofNat 32 e.val) :
    concatenate S1024x5 1 [⟨S1024x1, x₁⟩,
        ⟨S1024x4, uitofp (F := Ideal) .f32 (cmpi .eq
          (broadcastInDim S1024x4 ![0, 1] bcast_S1024x1_S1024x4_0_1 (broadcastInDim S1024x1 ![0] bcast_S1024_S1024x1_0 a))
          (broadcastInDim S1024x4 ![0, 1] bcast_S1x4_S1024x4_0_1 (broadcastInDim S1x4 ![1] bcast_S4_S1x4_1 (iotaInDim S4 32 0))))⟩]
        concatenates_S1024x1_S1024x4_S1024x5_d1 (ix2 r q)
      = if a (ix1 r) = w then (1 : EReal) else 0 := by
  refine (concatenate_pair_apply_right (t := S1024x5) (s₁ := S1024x1) (s₂ := S1024x4) 1 x₁ _
    concatenates_S1024x1_S1024x4_S1024x5_d1 (ix2 r q) rfl rfl (ix2 r e)
    (fun b hb => match b, hb with
      | ⟨0, _⟩, _ => rfl
      | ⟨1, _⟩, hb => absurd rfl hb)
    (by show e.val + 1 = q.val; omega)).trans ?_
  show FloatOps.uitofp (F := Ideal) .f32 (IntOp.cmpi .eq
      (broadcastInDim S1024x4 ![0, 1] bcast_S1024x1_S1024x4_0_1 (broadcastInDim S1024x1 ![0] bcast_S1024_S1024x1_0 a) (ix2 r e))
      (broadcastInDim S1024x4 ![0, 1] bcast_S1x4_S1024x4_0_1 (broadcastInDim S1x4 ![1] bcast_S4_S1x4_1 (iotaInDim S4 32 0)) (ix2 r e))) = _
  rw [← ij_eq_ix2 r e, Predicate.bcast_rows, Predicate.bcast_cols, Predicate.iota_apply, ofFin_eq_ix1, hw]
  exact bit_of_eq _ _

/-! ## The six readings -/

/-- The activations the kernel reads are the first argument's. -/
theorem x_at (r : Fin 1024) (k : Fin 4096) :
    (V m c main_v104 : S1024x4096.Idx → EReal) (ix2 r k)
      = (m ((c : Thread nD τ).loc main_arg0) : S1024x4096.Idx → EReal) (ix2 r k) :=
  (congrFun (v104_eq m c) (ix2 r k)).trans (truncf_apply _ _ _)

/-- Column 1 of the mask marks the rows whose selector is 0. -/
theorem m1_at (r : Fin 1024) :
    (V m c main_v102 : S1024x5.Idx → EReal) (ix2 r 1)
      = if (m ((c : Thread nD τ).loc main_arg12) : S1024.Idx → BitVec 32) (ix1 r) = 0#32 then (1 : EReal) else 0 :=
  (congrFun (v102_eq m c) (ix2 r 1)).trans (onehot_at _ _ r 1 0 rfl 0#32 rfl)

/-- Column 2 of the mask marks the rows whose selector is 1. -/
theorem m2_at (r : Fin 1024) :
    (V m c main_v102 : S1024x5.Idx → EReal) (ix2 r 2)
      = if (m ((c : Thread nD τ).loc main_arg12) : S1024.Idx → BitVec 32) (ix1 r) = 1#32 then (1 : EReal) else 0 :=
  (congrFun (v102_eq m c) (ix2 r 2)).trans (onehot_at _ _ r 2 1 rfl 1#32 rfl)

/-- Column 3 of the mask marks the rows whose selector is 2. -/
theorem m3_at (r : Fin 1024) :
    (V m c main_v102 : S1024x5.Idx → EReal) (ix2 r 3)
      = if (m ((c : Thread nD τ).loc main_arg12) : S1024.Idx → BitVec 32) (ix1 r) = 2#32 then (1 : EReal) else 0 :=
  (congrFun (v102_eq m c) (ix2 r 3)).trans (onehot_at _ _ r 3 2 rfl 2#32 rfl)

/-- Column 4 of the mask marks the rows whose selector is 3. -/
theorem m4_at (r : Fin 1024) :
    (V m c main_v102 : S1024x5.Idx → EReal) (ix2 r 4)
      = if (m ((c : Thread nD τ).loc main_arg12) : S1024.Idx → BitVec 32) (ix1 r) = 3#32 then (1 : EReal) else 0 :=
  (congrFun (v102_eq m c) (ix2 r 4)).trans (onehot_at _ _ r 4 3 rfl 3#32 rfl)

/-- The bias row is the third argument. -/
theorem b_at (o : Fin 6144) :
    (V m c main_v103 : S1x6144.Idx → EReal) (ix2 0 o)
      = (m ((c : Thread nD τ).loc main_arg2) : S6144.Idx → EReal) (ix1 o) :=
  (congrFun (v103_eq m c) (ix2 0 o)).trans (shapeCast_a_1a_apply _ shapeCasts_S6144_S1x6144 0 o)

end Cert.KernelIdeal.HostSide

end
-- ==== Proof.HostWeights.lean ====
/-
  The stacked weights the kernel contracts against, as the host lines before the launch make them, read at one position.

  The array is five 6144 × 4096 matrices stacked: the base weight, then one matrix per adapter. The host lines build
  it in three steps.

  * Each adapter stack (q: 4 × 4096 × 4096; k and v: 4 × 1024 × 4096) arrives as four-bit codes, eight to a 32-bit
    word. The word at (a, o, g) is laid along a new last axis of eight positions p, shifted right by 4·p bits (the
    positions 0 … 7 times 4) and its low four bits kept; the axes (g, p) are then merged into the contraction axis,
    k = 8·g + p: the code of weight (a, o, k). The zero points are unpacked in the same way from one word per eight
    output rows, o = 8·g + p. A weight is (code − (zero point + 1)) · scale, zero point and scale being its output
    row's.
  * The three dequantised stacks, each rounded to the 16-bit format, are joined along the output-row axis (q rows
    0 … 4095, k rows 4096 … 5119, v rows 5120 … 6143): a 4 × 6144 × 4096 array.
  * The base weight (6144 × 4096) gets a unit axis in front, is rounded to the 16-bit format, and is put on top of
    that array along the stack axis: 5 × 6144 × 4096.

  Over the extended reals the rounding is the identity. So stack row 0 read at (o, k) is the base weight at (o, k), and
  stack row e + 1 read at (o, k) is `wd` at (e, o, k), where `wd` is the join of the three dequantised stacks before
  any rounding. The reference program dequantises the same three groups of arguments by the same operations in the same
  order and joins them the same way, so `wd` is its value at that stage (`wd_eq`).

  The stacked array is first stated whole, as the host lines' composed term over the arguments: the fold of the host
  lines is read down to the outer join, the two joined pieces are read separately, and under the inner join each of
  the three stacks again. The readings at a position are then small facts about two joins and one broadcast, over
  variables.
-/
import proofs.«405207_j28973849379101_2_alg».proof.Proof.FrameI.Entry
import proofs.«405207_j28973849379101_2_alg».proof.Proof.RefRead
import Idealize.ShloMosaic.Lib.StableHlo.Run
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.HostSide

open Cert.KernelIdeal Cert.KernelIdeal.Gen Cert.KernelIdeal.Fr
open Idealize.ShloMosaic Idealize.ShloMosaic.TcCoe Idealize.SL.Sem
open Idealize.ShloMosaic.ValueIdx Idealize.ShloMosaic.StableHlo

variable (m : (ℓ : Loc nD τ sig) → Buf (Elt Ideal) ℓ) (c : Dev nD)

/-! ## The dequantised stacks -/

/-- The eight shift amounts 0, 4, …, 28: a packed word's p-th four-bit code sits 4·p bits up. -/
def shifts : (⟨S8, .i32⟩ : BufTy).Contents (Elt Ideal) :=
  muli (iotaInDim S8 32 0) (broadcastInDim S8 ![] bcast_S_S8 (constantI S_ 32 4#32))

/-- The q adapters' weights dequantised: each packed word of `x` gives eight codes (shift right by 4·p, keep the low four bits), laid along the contraction axis; the zero points are unpacked the same way from `z`, one per output row; a weight is (code − (zero point + 1)) · the row's scale. -/
def deqQ (x : (⟨S4x4096x512, .i32⟩ : BufTy).Contents (Elt Ideal)) (z : (⟨S4x512x1, .i32⟩ : BufTy).Contents (Elt Ideal))
    (s : (⟨S4x4096x1, .f32⟩ : BufTy).Contents (Elt Ideal)) : (⟨S4x4096x4096, .f32⟩ : BufTy).Contents (Elt Ideal) :=
  mulf (F := Ideal)
    (subf (F := Ideal)
      (sitofp (F := Ideal) .f32
        (shapeCast S4x4096x4096
          (andi
            (Host.shrsi
              (broadcastInDim S4x4096x512x8 ![0, 1, 2, 3] bcast_S4x4096x512x1_S4x4096x512x8_0_1_2_3
                (broadcastInDim S4x4096x512x1 ![0, 1, 2] bcast_S4x4096x512_S4x4096x512x1_0_1_2 x))
              (broadcastInDim S4x4096x512x8 ![0, 1, 2, 3] bcast_S1x1x1x8_S4x4096x512x8_0_1_2_3
                (broadcastInDim S1x1x1x8 ![3] bcast_S8_S1x1x1x8_3 shifts)))
            (broadcastInDim S4x4096x512x8 ![] bcast_S_S4x4096x512x8 (constantI S_ 32 15#32)))
          shapeCasts_S4x4096x512x8_S4x4096x4096))
      (broadcastInDim S4x4096x4096 ![0, 1, 2] bcast_S4x4096x1_S4x4096x4096_0_1_2
        (broadcastInDim S4x4096x1 ![0, 1] bcast_S4x4096_S4x4096x1_0_1
          (addf (F := Ideal)
            (sitofp (F := Ideal) .f32
              (shapeCast S4x4096
                (andi
                  (Host.shrsi
                    (broadcastInDim S4x512x8 ![0, 1, 2] bcast_S4x512x1_S4x512x8_0_1_2
                      (broadcastInDim S4x512x1 ![0, 1] bcast_S4x512_S4x512x1_0_1 (shapeCast S4x512 z shapeCasts_S4x512x1_S4x512)))
                    (broadcastInDim S4x512x8 ![0, 1, 2] bcast_S1x1x8_S4x512x8_0_1_2
                      (broadcastInDim S1x1x8 ![2] bcast_S8_S1x1x8_2 shifts)))
                  (broadcastInDim S4x512x8 ![] bcast_S_S4x512x8 (constantI S_ 32 15#32)))
                shapeCasts_S4x512x8_S4x4096))
            (broadcastInDim S4x4096 ![] bcast_S_S4x4096 (constant (F := Ideal) S_ .f32 0x3F800000#32))))))
    (broadcastInDim S4x4096x4096 ![0, 1, 2] bcast_S4x4096x1_S4x4096x4096_0_1_2 s)

/-- The same for a k or v adapter stack of 1024 output rows. -/
def deqKV (x : (⟨S4x1024x512, .i32⟩ : BufTy).Contents (Elt Ideal)) (z : (⟨S4x128x1, .i32⟩ : BufTy).Contents (Elt Ideal))
    (s : (⟨S4x1024x1, .f32⟩ : BufTy).Contents (Elt Ideal)) : (⟨S4x1024x4096, .f32⟩ : BufTy).Contents (Elt Ideal) :=
  mulf (F := Ideal)
    (subf (F := Ideal)
      (sitofp (F := Ideal) .f32
        (shapeCast S4x1024x4096
          (andi
            (Host.shrsi
              (broadcastInDim S4x1024x512x8 ![0, 1, 2, 3] bcast_S4x1024x512x1_S4x1024x512x8_0_1_2_3
                (broadcastInDim S4x1024x512x1 ![0, 1, 2] bcast_S4x1024x512_S4x1024x512x1_0_1_2 x))
              (broadcastInDim S4x1024x512x8 ![0, 1, 2, 3] bcast_S1x1x1x8_S4x1024x512x8_0_1_2_3
                (broadcastInDim S1x1x1x8 ![3] bcast_S8_S1x1x1x8_3 shifts)))
            (broadcastInDim S4x1024x512x8 ![] bcast_S_S4x1024x512x8 (constantI S_ 32 15#32)))
          shapeCasts_S4x1024x512x8_S4x1024x4096))
      (broadcastInDim S4x1024x4096 ![0, 1, 2] bcast_S4x1024x1_S4x1024x4096_0_1_2
        (broadcastInDim S4x1024x1 ![0, 1] bcast_S4x1024_S4x1024x1_0_1
          (addf (F := Ideal)
            (sitofp (F := Ideal) .f32
              (shapeCast S4x1024
                (andi
                  (Host.shrsi
                    (broadcastInDim S4x128x8 ![0, 1, 2] bcast_S4x128x1_S4x128x8_0_1_2
                      (broadcastInDim S4x128x1 ![0, 1] bcast_S4x128_S4x128x1_0_1 (shapeCast S4x128 z shapeCasts_S4x128x1_S4x128)))
                    (broadcastInDim S4x128x8 ![0, 1, 2] bcast_S1x1x8_S4x128x8_0_1_2
                      (broadcastInDim S1x1x8 ![2] bcast_S8_S1x1x8_2 shifts)))
                  (broadcastInDim S4x128x8 ![] bcast_S_S4x128x8 (constantI S_ 32 15#32)))
                shapeCasts_S4x128x8_S4x1024))
            (broadcastInDim S4x1024 ![] bcast_S_S4x1024 (constant (F := Ideal) S_ .f32 0x3F800000#32))))))
    (broadcastInDim S4x1024x4096 ![0, 1, 2] bcast_S4x1024x1_S4x1024x4096_0_1_2 s)

/-- the four adapters' dequantised weight stacks (f32, before rounding to bf16), joined along the output-row axis: q rows 0..4095, k rows 4096..5119, v rows 5120..6143 -/
def wd : S4x6144x4096.Idx → EReal :=
  concatenate S4x6144x4096 1
    [⟨S4x4096x4096, deqQ (m ((c : Thread nD τ).loc main_arg3)) (m ((c : Thread nD τ).loc main_arg6)) (m ((c : Thread nD τ).loc main_arg9))⟩,
     ⟨S4x1024x4096, deqKV (m ((c : Thread nD τ).loc main_arg4)) (m ((c : Thread nD τ).loc main_arg7)) (m ((c : Thread nD τ).loc main_arg10))⟩,
     ⟨S4x1024x4096, deqKV (m ((c : Thread nD τ).loc main_arg5)) (m ((c : Thread nD τ).loc main_arg8)) (m ((c : Thread nD τ).loc main_arg11))⟩]
    concatenates_S4x4096x4096_S4x1024x4096_S4x1024x4096_S4x6144x4096_d1

/-! ## Reading through the two joins -/

/-- The join of the three rounded stacks, read at its own buffer: the three operands' contents, each at its own
    buffer (the operation is printed over the family of its three operands; taken apart, each is a buffer a line of
    operations can go on being read through). -/
theorem v90_result (F : Valuation τ sig (Elt Ideal)) (hxs hy) :
    (nary (τ := τ) ![main_v29, main_v59, main_v89] main_v90
        (fun u => concatenate S4x6144x4096 1 [⟨S4x4096x4096, u 0⟩, ⟨S4x1024x4096, u 1⟩, ⟨S4x1024x4096, u 2⟩]
          concatenates_S4x4096x4096_S4x1024x4096_S4x1024x4096_S4x6144x4096_d1) hxs hy).result F (no_index (Proc.devRef .tc main_v90))
      = concatenate S4x6144x4096 1 [⟨S4x4096x4096, F (Proc.devRef .tc main_v29)⟩, ⟨S4x1024x4096, F (Proc.devRef .tc main_v59)⟩,
          ⟨S4x1024x4096, F (Proc.devRef .tc main_v89)⟩] concatenates_S4x4096x4096_S4x1024x4096_S4x1024x4096_S4x6144x4096_d1 :=
  nary_result _ _ _ hxs hy F

/-- Two joins along the stack axis of equal pieces are equal. -/
theorem cat2_congr {α : Type} {a a' : S1x6144x4096.Idx → α} {b b' : S4x6144x4096.Idx → α} (ha : a = a') (hb : b = b') :
    concatenate S5x6144x4096 0 [⟨S1x6144x4096, a⟩, ⟨S4x6144x4096, b⟩] concatenates_S1x6144x4096_S4x6144x4096_S5x6144x4096_d0
      = concatenate S5x6144x4096 0 [⟨S1x6144x4096, a'⟩, ⟨S4x6144x4096, b'⟩] concatenates_S1x6144x4096_S4x6144x4096_S5x6144x4096_d0 := by
  subst ha hb; rfl

/-- Two joins along the output-row axis of equal pieces are equal. -/
theorem cat3_congr {α : Type} {a a' : S4x4096x4096.Idx → α} {b b' d d' : S4x1024x4096.Idx → α} (ha : a = a') (hb : b = b') (hd : d = d') :
    concatenate S4x6144x4096 1 [⟨S4x4096x4096, a⟩, ⟨S4x1024x4096, b⟩, ⟨S4x1024x4096, d⟩] concatenates_S4x4096x4096_S4x1024x4096_S4x1024x4096_S4x6144x4096_d1
      = concatenate S4x6144x4096 1 [⟨S4x4096x4096, a'⟩, ⟨S4x1024x4096, b'⟩, ⟨S4x1024x4096, d'⟩] concatenates_S4x4096x4096_S4x1024x4096_S4x1024x4096_S4x6144x4096_d1 := by
  subst ha hb hd; rfl

/-! ## The stacked weights, whole -/

set_option maxHeartbeats 4000000 in
/-- The stacked weights at the launch: the base weight with a unit axis in front, rounded, on top of the join of the
    three dequantised adapter stacks, each rounded. -/
theorem v93_eq : (V m c main_v93 : S5x6144x4096.Idx → EReal)
    = concatenate S5x6144x4096 0
        [⟨S1x6144x4096, truncf (F := Ideal) .bf16 (broadcastInDim S1x6144x4096 ![1, 2] bcast_S6144x4096_S1x6144x4096_1_2
            (m ((c : Thread nD τ).loc main_arg1) : S6144x4096.Idx → EReal)) bitsLt_bf16_f32⟩,
         ⟨S4x6144x4096, concatenate S4x6144x4096 1
            [⟨S4x4096x4096, truncf (F := Ideal) .bf16 (deqQ (m ((c : Thread nD τ).loc main_arg3)) (m ((c : Thread nD τ).loc main_arg6)) (m ((c : Thread nD τ).loc main_arg9))) bitsLt_bf16_f32⟩,
             ⟨S4x1024x4096, truncf (F := Ideal) .bf16 (deqKV (m ((c : Thread nD τ).loc main_arg4)) (m ((c : Thread nD τ).loc main_arg7)) (m ((c : Thread nD τ).loc main_arg10))) bitsLt_bf16_f32⟩,
             ⟨S4x1024x4096, truncf (F := Ideal) .bf16 (deqKV (m ((c : Thread nD τ).loc main_arg5)) (m ((c : Thread nD τ).loc main_arg8)) (m ((c : Thread nD τ).loc main_arg11))) bitsLt_bf16_f32⟩]
            concatenates_S4x4096x4096_S4x1024x4096_S4x1024x4096_S4x6144x4096_d1⟩]
        concatenates_S1x6144x4096_S4x6144x4096_S5x6144x4096_d0 := by
  dsimp only [V, hostOps0]
  simp (disch := decide) only [after_cons, after_nil, nullary_result', unary_result', binary_result', reshape_result', v90_result, nullary_result_ne', unary_result_ne', binary_result_ne', reshape_result_ne', nary_result_ne']
  refine cat2_congr ?_ ?_
  · simp (disch := decide) only [after_cons, after_nil, nullary_result', unary_result', binary_result', reshape_result', v90_result, nullary_result_ne', unary_result_ne', binary_result_ne', reshape_result_ne', nary_result_ne']
    first | done | rfl
  · simp (disch := decide) only [after_cons, after_nil, nullary_result', unary_result', binary_result', reshape_result', v90_result, nullary_result_ne', unary_result_ne', binary_result_ne', reshape_result_ne', nary_result_ne']
    refine cat3_congr ?_ ?_ ?_
    · simp (disch := decide) only [after_cons, after_nil, nullary_result', unary_result', binary_result', reshape_result', v90_result, nullary_result_ne', unary_result_ne', binary_result_ne', reshape_result_ne', nary_result_ne']
      first | done | rfl
    · simp (disch := decide) only [after_cons, after_nil, nullary_result', unary_result', binary_result', reshape_result', v90_result, nullary_result_ne', unary_result_ne', binary_result_ne', reshape_result_ne', nary_result_ne']
      first | done | rfl
    · simp (disch := decide) only [after_cons, after_nil, nullary_result', unary_result', binary_result', reshape_result', v90_result, nullary_result_ne', unary_result_ne', binary_result_ne', reshape_result_ne', nary_result_ne']
      first | done | rfl

/-! ## Readings at a position, over variables -/

/-- Stack row 0 of a join along the stack axis is its first piece. -/
theorem stack_zero {α : Type} (A : S1x6144x4096.Idx → α) (B : S4x6144x4096.Idx → α) (o : Fin 6144) (k : Fin 4096) :
    concatenate S5x6144x4096 0 [⟨S1x6144x4096, A⟩, ⟨S4x6144x4096, B⟩] concatenates_S1x6144x4096_S4x6144x4096_S5x6144x4096_d0 (ix3 0 o k)
      = A (ix3 0 o k) :=
  concatenate_pair_apply_left (t := S5x6144x4096) (s₁ := S1x6144x4096) (s₂ := S4x6144x4096) 0 A B
    concatenates_S1x6144x4096_S4x6144x4096_S5x6144x4096_d0 (ix3 0 o k) rfl (ix3 0 o k)
    (fun b => match b with
      | ⟨0, _⟩ => rfl
      | ⟨1, _⟩ => rfl
      | ⟨2, _⟩ => rfl)

/-- Stack row e + 1 of a join along the stack axis is row e of its second piece. -/
theorem stack_succ {α : Type} (A : S1x6144x4096.Idx → α) (B : S4x6144x4096.Idx → α) (e : Fin 5) (e' : Fin 4) (he : e.val = e'.val + 1)
    (o : Fin 6144) (k : Fin 4096) :
    concatenate S5x6144x4096 0 [⟨S1x6144x4096, A⟩, ⟨S4x6144x4096, B⟩] concatenates_S1x6144x4096_S4x6144x4096_S5x6144x4096_d0 (ix3 e o k)
      = B (ix3 e' o k) :=
  concatenate_pair_apply_right (t := S5x6144x4096) (s₁ := S1x6144x4096) (s₂ := S4x6144x4096) 0 A B
    concatenates_S1x6144x4096_S4x6144x4096_S5x6144x4096_d0 (ix3 e o k) rfl rfl (ix3 e' o k)
    (fun b hb => match b, hb with
      | ⟨0, _⟩, hb => absurd rfl hb
      | ⟨1, _⟩, _ => rfl
      | ⟨2, _⟩, _ => rfl)
    (by show e'.val + 1 = e.val; omega)

/-- The base weight with a unit axis put in front and rounded, read at (0, o, k), is the base weight at (o, k): over the
    extended reals the rounding changes nothing, and the new axis has the one position 0. -/
theorem base_at (x : S6144x4096.Idx → EReal) (o : Fin 6144) (k : Fin 4096) :
    (truncf (F := Ideal) .bf16 (broadcastInDim S1x6144x4096 ![1, 2] bcast_S6144x4096_S1x6144x4096_1_2 x) bitsLt_bf16_f32
        : S1x6144x4096.Idx → EReal) (ix3 0 o k) = x (ix2 o k) :=
  (truncf_apply (ψ := .bf16) (broadcastInDim S1x6144x4096 ![1, 2] bcast_S6144x4096_S1x6144x4096_1_2 x : FVec Ideal S1x6144x4096 .f32)
      bitsLt_bf16_f32 (ix3 0 o k)).trans
    (broadcastInDim_apply ![1, 2] bcast_S6144x4096_S1x6144x4096_1_2 x (ix3 0 o k) (ix2 o k)
      (fun a => match a with
        | ⟨0, _⟩ => rfl
        | ⟨1, _⟩ => rfl))

/-- Over the extended reals, rounding each of the three stacks before joining them changes nothing. -/
theorem join_round (a : S4x4096x4096.Idx → EReal) (b d : S4x1024x4096.Idx → EReal) :
    (concatenate S4x6144x4096 1
        [⟨S4x4096x4096, truncf (F := Ideal) .bf16 (a : FVec Ideal S4x4096x4096 .f32) bitsLt_bf16_f32⟩,
         ⟨S4x1024x4096, truncf (F := Ideal) .bf16 (b : FVec Ideal S4x1024x4096 .f32) bitsLt_bf16_f32⟩,
         ⟨S4x1024x4096, truncf (F := Ideal) .bf16 (d : FVec Ideal S4x1024x4096 .f32) bitsLt_bf16_f32⟩]
        concatenates_S4x4096x4096_S4x1024x4096_S4x1024x4096_S4x6144x4096_d1 : S4x6144x4096.Idx → EReal)
      = concatenate S4x6144x4096 1 [⟨S4x4096x4096, a⟩, ⟨S4x1024x4096, b⟩, ⟨S4x1024x4096, d⟩]
          concatenates_S4x4096x4096_S4x1024x4096_S4x1024x4096_S4x6144x4096_d1 := rfl

/-! ## The five readings -/

/-- Stack row 0 of the stacked weights is the base weight. -/
theorem w0_at (o : Fin 6144) (k : Fin 4096) :
    (V m c main_v93 : S5x6144x4096.Idx → EReal) (ix3 0 o k)
      = (m ((c : Thread nD τ).loc main_arg1) : S6144x4096.Idx → EReal) (ix2 o k) :=
  (congrFun (v93_eq m c) (ix3 0 o k)).trans ((stack_zero _ _ o k).trans (base_at _ o k))

/-- Stack row 1 is the first adapter's dequantised weights. -/
theorem w1_at (o : Fin 6144) (k : Fin 4096) :
    (V m c main_v93 : S5x6144x4096.Idx → EReal) (ix3 1 o k) = wd m c (ix3 0 o k) :=
  (congrFun (v93_eq m c) (ix3 1 o k)).trans ((stack_succ _ _ 1 0 rfl o k).trans (congrFun (join_round _ _ _) (ix3 0 o k)))

/-- Stack row 2 is the second adapter's. -/
theorem w2_at (o : Fin 6144) (k : Fin 4096) :
    (V m c main_v93 : S5x6144x4096.Idx → EReal) (ix3 2 o k) = wd m c (ix3 1 o k) :=
  (congrFun (v93_eq m c) (ix3 2 o k)).trans ((stack_succ _ _ 2 1 rfl o k).trans (congrFun (join_round _ _ _) (ix3 1 o k)))

/-- Stack row 3 is the third adapter's. -/
theorem w3_at (o : Fin 6144) (k : Fin 4096) :
    (V m c main_v93 : S5x6144x4096.Idx → EReal) (ix3 3 o k) = wd m c (ix3 2 o k) :=
  (congrFun (v93_eq m c) (ix3 3 o k)).trans ((stack_succ _ _ 3 2 rfl o k).trans (congrFun (join_round _ _ _) (ix3 2 o k)))

/-- Stack row 4 is the fourth adapter's. -/
theorem w4_at (o : Fin 6144) (k : Fin 4096) :
    (V m c main_v93 : S5x6144x4096.Idx → EReal) (ix3 4 o k) = wd m c (ix3 3 o k) :=
  (congrFun (v93_eq m c) (ix3 4 o k)).trans ((stack_succ _ _ 4 3 rfl o k).trans (congrFun (join_round _ _ _) (ix3 3 o k)))

/-! ## The same stacks in the reference program -/

/-- The reference program dequantises the q stack by the same operations in the same order. -/
theorem deqQ_eq (x : (⟨S4x4096x512, .i32⟩ : BufTy).Contents (Elt Ideal)) (z : (⟨S4x512x1, .i32⟩ : BufTy).Contents (Elt Ideal)) (s : (⟨S4x4096x1, .f32⟩ : BufTy).Contents (Elt Ideal)) :
    deqQ x z s = Cert.ReferenceIdeal.ReadP.val_main_v33 (F := Ideal) x z s := rfl

/-- So it does the k stack … -/
theorem deqK_eq (x : (⟨S4x1024x512, .i32⟩ : BufTy).Contents (Elt Ideal)) (z : (⟨S4x128x1, .i32⟩ : BufTy).Contents (Elt Ideal)) (s : (⟨S4x1024x1, .f32⟩ : BufTy).Contents (Elt Ideal)) :
    deqKV x z s = Cert.ReferenceIdeal.ReadP.val_main_v62 (F := Ideal) x z s := rfl

/-- … and the v stack. -/
theorem deqV_eq (x : (⟨S4x1024x512, .i32⟩ : BufTy).Contents (Elt Ideal)) (z : (⟨S4x128x1, .i32⟩ : BufTy).Contents (Elt Ideal)) (s : (⟨S4x1024x1, .f32⟩ : BufTy).Contents (Elt Ideal)) :
    deqKV x z s = Cert.ReferenceIdeal.ReadP.val_main_v91 (F := Ideal) x z s := rfl

/-- The joined dequantised stacks are the reference program's. -/
theorem wd_eq : wd m c = Cert.ReferenceIdeal.ReadP.val_main_v92 (F := Ideal) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold wd Cert.ReferenceIdeal.ReadP.val_main_v92
  exact cat3_congr (deqQ_eq _ _ _) (deqK_eq _ _ _) (deqV_eq _ _ _)

end Cert.KernelIdeal.HostSide

end
-- ==== Proof.LibNary3.lean ====
/-
  A host operation over a literal family of THREE references (a concatenation of three operands), read at its own result
  buffer with each operand's contents at ITS OWN reference, so that a line of operations can go on being read through
  the operands: the family `![x, a, b]` applied to a bound index names no literal reference, while the three entries
  taken apart do. The library states the same for a family of four; this is the three-entry form, in that shape.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of an operation over three literal references, at its result buffer: its function applied to the three
    operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a single simplification pass fires on. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.RefStretch2.lean ====
/-
  The reference's second stretch of host operations (the three dequantisations), read over whatever contents it
  starts from: it leaves each adapter group's dequantised weight stack, as the stage of the packed weights, zero points
  and scales it finds in the argument buffers, and it writes neither the base product nor the activations nor the
  adapter indices.
-/
import proofs.«405207_j28973849379101_2_alg».proof.Proof.RefOps
import proofs.«405207_j28973849379101_2_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The q stack. -/
theorem stretch2_q (W : Valuation τ sig (Elt F)) :
    after (ops2 (F := F)) W (Proc.devRef .tc main_v33)
      = Cert.ReferenceIdeal.ReadP.val_main_v33 (F := F) (W (Proc.devRef .tc main_arg3)) (W (Proc.devRef .tc main_arg6)) (W (Proc.devRef .tc main_arg9)) := by
  after_results_simp3
  rfl

set_option maxRecDepth 8192 in
set_option maxHeartbeats 8000000 in
/-- The k stack. -/
theorem stretch2_k (W : Valuation τ sig (Elt F)) :
    after (ops2 (F := F)) W (Proc.devRef .tc main_v62)
      = Cert.ReferenceIdeal.ReadP.val_main_v62 (F := F) (W (Proc.devRef .tc main_arg4)) (W (Proc.devRef .tc main_arg7)) (W (Proc.devRef .tc main_arg10)) := by
  after_results_simp3
  rfl

set_option maxRecDepth 8192 in
set_option maxHeartbeats 8000000 in
/-- The v stack. -/
theorem stretch2_v (W : Valuation τ sig (Elt F)) :
    after (ops2 (F := F)) W (Proc.devRef .tc main_v91)
      = Cert.ReferenceIdeal.ReadP.val_main_v91 (F := F) (W (Proc.devRef .tc main_arg5)) (W (Proc.devRef .tc main_arg8)) (W (Proc.devRef .tc main_arg11)) := by
  after_results_simp3
  rfl

set_option maxRecDepth 8192 in
set_option maxHeartbeats 8000000 in
/-- It writes neither the base product nor the activations nor the indices. -/
theorem stretch2_keeps (W : Valuation τ sig (Elt F)) (b : Ref sig .tc) (hb : b = main_v4 ∨ b = main_arg0 ∨ b = main_arg12) :
    after (ops2 (F := F)) W (Proc.devRef .tc b) = W (Proc.devRef .tc b) := by
  rcases hb with rfl | rfl | rfl <;>
    exact after_of_forall_not_mem _ _ (List.forall_iff_forall_mem.mp (by
      simp only [ops2, List.Forall, nullary_writes, unary_writes, binary_writes, ternary_writes, nary_writes, reshape_writes, Finset.mem_singleton]
      repeat' apply And.intro
      all_goals exact devRef_ne_of_ne (by decide)))

end Cert.ReferenceIdeal.ValueP

end
-- ==== Proof.RefStretch3.lean ====
/-
  The reference's last stretch of host operations (the concatenation of the three dequantised stacks; then four
  times: compare the adapter indices with a constant, select the activations, take one adapter's row of the stacked
  weights, transpose, multiply, add), read over contents that hold the base product plus the bias, the three
  dequantised stacks, the activations and the indices: it leaves the program's result, the last stage of the
  arguments.
-/
import proofs.«405207_j28973849379101_2_alg».proof.Proof.RefOps
import proofs.«405207_j28973849379101_2_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The concatenation, read at its own buffer: the three operands' contents, each at its own buffer (the operation is printed
    over the family of its three operands; taken apart, each is a buffer the line can go on being read through). -/
theorem v92_result (F' : Valuation τ sig (Elt F)) (hxs hy) :
    (nary (τ := τ) ![main_v33, main_v62, main_v91] main_v92
        (fun u => concatenate S4x6144x4096 1 [⟨S4x4096x4096, u 0⟩, ⟨S4x1024x4096, u 1⟩, ⟨S4x1024x4096, u 2⟩]
          concatenates_S4x4096x4096_S4x1024x4096_S4x1024x4096_S4x6144x4096_d1) hxs hy).result F' (no_index (Proc.devRef .tc main_v92))
      = concatenate S4x6144x4096 1 [⟨S4x4096x4096, F' (Proc.devRef .tc main_v33)⟩, ⟨S4x1024x4096, F' (Proc.devRef .tc main_v62)⟩,
          ⟨S4x1024x4096, F' (Proc.devRef .tc main_v91)⟩] concatenates_S4x4096x4096_S4x1024x4096_S4x1024x4096_S4x6144x4096_d1 :=
  nary_result _ _ _ hxs hy F'

set_option maxRecDepth 8192 in
set_option maxHeartbeats 16000000 in
theorem stretch3 (W : Valuation τ sig (Elt F))
    (x0 : (⟨S1024x4096, .f32⟩ : BufTy).Contents (Elt F)) (x1 : (⟨S6144x4096, .f32⟩ : BufTy).Contents (Elt F)) (x2 : (⟨S6144, .f32⟩ : BufTy).Contents (Elt F)) (x3 : (⟨S4x4096x512, .i32⟩ : BufTy).Contents (Elt F)) (x4 x5 : (⟨S4x1024x512, .i32⟩ : BufTy).Contents (Elt F)) (x6 : (⟨S4x512x1, .i32⟩ : BufTy).Contents (Elt F)) (x7 x8 : (⟨S4x128x1, .i32⟩ : BufTy).Contents (Elt F)) (x9 : (⟨S4x4096x1, .f32⟩ : BufTy).Contents (Elt F)) (x10 x11 : (⟨S4x1024x1, .f32⟩ : BufTy).Contents (Elt F)) (x12 : (⟨S1024, .i32⟩ : BufTy).Contents (Elt F))
    (h4 : W (Proc.devRef .tc main_v4) = Cert.ReferenceIdeal.ReadP.val_main_v4 (F := F) x0 x1 x2)
    (h33 : W (Proc.devRef .tc main_v33) = Cert.ReferenceIdeal.ReadP.val_main_v33 (F := F) x3 x6 x9)
    (h62 : W (Proc.devRef .tc main_v62) = Cert.ReferenceIdeal.ReadP.val_main_v62 (F := F) x4 x7 x10)
    (h91 : W (Proc.devRef .tc main_v91) = Cert.ReferenceIdeal.ReadP.val_main_v91 (F := F) x5 x8 x11)
    (h0 : W (Proc.devRef .tc main_arg0) = x0) (h12 : W (Proc.devRef .tc main_arg12) = x12) :
    after (ops3 (F := F)) W (Proc.devRef .tc main_v128)
      = Cert.ReferenceIdeal.ReadP.val_main_v128 (F := F) x0 x1 x2 x3 x4 x5 x6 x7 x8 x9 x10 x11 x12 := by
  simp (disch := decide) only [after_cons, after_nil, nullary_result', unary_result', binary_result', ternary_result', reshape_result', v92_result,
    nullary_result_ne', unary_result_ne', binary_result_ne', ternary_result_ne', reshape_result_ne', nary_result_ne']
  rw [h4, h33, h62, h91, h0, h12]
  rfl

end Cert.ReferenceIdeal.ValueP

end
-- ==== Proof.RefRun.lean ====
/-
  The reference program's run, read in three stretches. The line of 161 host operations is cut after the fifth (the
  base product plus the bias) and after the 104th (the last of the three dequantisations). Each
  stretch is read over the contents the one before left, taken as a variable: a buffer a stretch does not write keeps what
  it held; the first stretch's result is the stage of the base product plus the bias, the second's the three stages of
  the dequantised adapter stacks, and the last stretch is read over those four and the activations and indices. So every weakly
  fair execution ends with the result at the last stage of the arguments, and with the arguments, which no operation
  writes, as given.
-/
import proofs.«405207_j28973849379101_2_alg».proof.Proof.RefOps
import proofs.«405207_j28973849379101_2_alg».proof.Proof.RefRead
import proofs.«405207_j28973849379101_2_alg».proof.Proof.RefStretch2
import proofs.«405207_j28973849379101_2_alg».proof.Proof.RefStretch3
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- No operation of the program writes an argument. -/
theorem arg_kept (V : Valuation τ sig (Elt F)) (b : Ref sig .tc)
    (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12) :
    after (ops (F := F)) V (Proc.devRef .tc b) = V (Proc.devRef .tc b) := by
  rcases hb with rfl | rfl | rfl | rfl | rfl | rfl | rfl | rfl | rfl | rfl | rfl | rfl | rfl <;>
    exact after_of_forall_not_mem _ _ (List.forall_iff_forall_mem.mp (by
      simp only [ops, List.Forall, nullary_writes, unary_writes, binary_writes, ternary_writes, nary_writes, reshape_writes, Finset.mem_singleton]
      repeat' apply And.intro
      all_goals exact devRef_ne_of_ne (by decide)))

set_option maxHeartbeats 4000000 in
/-- The first stretch leaves the base product plus the bias. -/
theorem stretch1 (V : Valuation τ sig (Elt F)) :
    after (ops1 (F := F)) V (Proc.devRef .tc main_v4)
      = Cert.ReferenceIdeal.ReadP.val_main_v4 (F := F) (V (Proc.devRef .tc main_arg0)) (V (Proc.devRef .tc main_arg1)) (V (Proc.devRef .tc main_arg2)) := by
  after_results_simp3
  rfl

set_option maxHeartbeats 4000000 in
/-- The first stretch writes no argument. -/
theorem stretch1_keeps (V : Valuation τ sig (Elt F)) (b : Ref sig .tc)
    (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12) :
    after (ops1 (F := F)) V (Proc.devRef .tc b) = V (Proc.devRef .tc b) := by
  rcases hb with rfl | rfl | rfl | rfl | rfl | rfl | rfl | rfl | rfl | rfl | rfl | rfl | rfl <;>
    exact after_of_forall_not_mem _ _ (List.forall_iff_forall_mem.mp (by
      simp only [ops1, List.Forall, nullary_writes, unary_writes, binary_writes, ternary_writes, nary_writes, reshape_writes, Finset.mem_singleton]
      repeat' apply And.intro
      all_goals exact devRef_ne_of_ne (by decide)))

/-- The whole line's result is the last stage of the arguments. -/
theorem result_eq (m : (ℓ : Loc nD τ sig) → Buf (Elt F) ℓ) (c : Dev nD) :
    after (ops (F := F)) (launchContents m c) (Proc.devRef .tc main_v128)
      = Cert.ReferenceIdeal.ReadP.val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [ops_cut, StableHlo.after_append, StableHlo.after_append]
  generalize hV : launchContents m c = V
  have a1 : ∀ b : Ref sig .tc, (b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12) →
      after (ops1 (F := F)) V (Proc.devRef .tc b) = V (Proc.devRef .tc b) := fun b hb => stretch1_keeps V b hb
  have e4 := stretch1 (F := F) V
  generalize hW1 : after (ops1 (F := F)) V = W1 at a1 e4
  have e33 := stretch2_q (F := F) W1
  have e62 := stretch2_k (F := F) W1
  have e91 := stretch2_v (F := F) W1
  have k4 := stretch2_keeps (F := F) W1 main_v4 (.inl rfl)
  have k0 := stretch2_keeps (F := F) W1 main_arg0 (.inr (.inl rfl))
  have k12 := stretch2_keeps (F := F) W1 main_arg12 (.inr (.inr rfl))
  generalize hW2 : after (ops2 (F := F)) W1 = W2 at e33 e62 e91 k4 k0 k12
  rw [a1 main_arg3 (by simp), a1 main_arg6 (by simp), a1 main_arg9 (by simp)] at e33
  rw [a1 main_arg4 (by simp), a1 main_arg7 (by simp), a1 main_arg10 (by simp)] at e62
  rw [a1 main_arg5 (by simp), a1 main_arg8 (by simp), a1 main_arg11 (by simp)] at e91
  refine (stretch3 (F := F) W2 _ _ _ _ _ _ _ _ _ _ _ _ _ (k4.trans e4) e33 e62 e91 (k0.trans (a1 main_arg0 (by simp))) (k12.trans (a1 main_arg12 (by simp)))).trans ?_
  subst hV
  rfl

set_option maxRecDepth 8192 in
/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v128) = Cert.ReferenceIdeal.ReadP.val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v128).trans (result_eq m c),
      (h c main_arg0).trans (arg_kept _ main_arg0 (by simp)),
      (h c main_arg1).trans (arg_kept _ main_arg1 (by simp)),
      (h c main_arg2).trans (arg_kept _ main_arg2 (by simp)),
      (h c main_arg3).trans (arg_kept _ main_arg3 (by simp)),
      (h c main_arg4).trans (arg_kept _ main_arg4 (by simp)),
      (h c main_arg5).trans (arg_kept _ main_arg5 (by simp)),
      (h c main_arg6).trans (arg_kept _ main_arg6 (by simp)),
      (h c main_arg7).trans (arg_kept _ main_arg7 (by simp)),
      (h c main_arg8).trans (arg_kept _ main_arg8 (by simp)),
      (h c main_arg9).trans (arg_kept _ main_arg9 (by simp)),
      (h c main_arg10).trans (arg_kept _ main_arg10 (by simp)),
      (h c main_arg11).trans (arg_kept _ main_arg11 (by simp)),
      (h c main_arg12).trans (arg_kept _ main_arg12 (by simp))⟩)
    (run_seq scopedRefs_eq scopedSems_eq defs main (fun _ => ops) main_eq (fun _ => ops_sub) m ρ)

end Cert.ReferenceIdeal.ValueP

end
-- ==== Proof.RefValue.lean ====
/-
  The reference's result, read at an index.

  The reference forms entry (r, o) of the result as a nest of five sums. The first is the product of row `r` of the
  activations with row `o` of the base weight over the 4096 contraction positions, to which the bias entry `o` is
  added. Each of the other four, one per adapter `d = 0, 1, 2, 3`, is the product over the same positions of the
  SELECTED activations (row `r` where the row's adapter index is `d`, zero where it is not) with row `o` of slab `d`
  of the stacked adapter weights; the four are added in turn. The stacked adapter weights enter only through their
  entries and are never opened here.

  Every stage below reads one operation's result at an index written by its coordinates: a transposition swaps the two
  coordinates, a broadcast drops the new axis, a unit slice of the stack at offset `d` followed by the removal of the
  unit axis reads slab `d` (the row-major position `o * 4096 + k` of a `6144 x 4096` array splits back into `o` and
  `k`), a comparison of two words is the one-bit word 1 exactly when they are equal, and a select on that bit is the
  `if` on the equality.
-/
import proofs.«405207_j28973849379101_2_alg».proof.Proof.RefRead
import proofs.«405207_j28973849379101_2_alg».proof.Proof.Spec
import Idealize.ShloMosaic.Lib.ValueIdx
import Idealize.ShloMosaic.Lib.Pipeline.Value
import Idealize.ShloMosaic.PureOps.Ideal.Laws

open scoped BigOperators

noncomputable section

namespace Cert.ReferenceIdeal.RefValue

open Cert.ReferenceIdeal Cert.ReferenceIdeal.Gen Cert.ReferenceIdeal.ReadP Idealize.ShloMosaic Idealize.ShloMosaic.TcCoe Idealize.SL.Sem
  Idealize.ShloMosaic.StableHlo Idealize.ShloMosaic.ValueIdx

/-! ## Words: the comparison bit and the select on it -/

/-- Equal words compare to the bit 1. -/
theorem cmpi_eq_pos {a b : BitVec 32} (h : a = b) : IntOp.cmpi .eq a b = 1#1 := by
  show BitVec.ofBool (a == b) = 1#1
  rw [beq_iff_eq.2 h]; rfl

/-- Unequal words compare to the bit 0. -/
theorem cmpi_eq_neg {a b : BitVec 32} (h : ¬ a = b) : IntOp.cmpi .eq a b = 0#1 := by
  show BitVec.ofBool (a == b) = 0#1
  rw [beq_eq_false_iff_ne.2 h]; rfl

/-- A select between a value and the zero constant, on the bit "the word `c` is `d`", is the value where `c = d` and
    zero elsewhere. -/
theorem select_cmp (c d : BitVec 32) (a : EReal) :
    Scalar.select (IntOp.cmpi .eq c d) a (FloatOps.ofBits (F := Ideal) .f32 0x00000000#32) = if c = d then a else 0 := by
  by_cases h : c = d
  · rw [if_pos h, cmpi_eq_pos h, select_one]
  · rw [if_neg h, cmpi_eq_neg h, select_zero]; exact Ideal.ofBits_zero_f32

/-! ## Indices: each stage's index function at an index given by its coordinates -/

section Indices
variable (r : Fin 1024) (o : Fin 6144) (k : Fin 4096) (z : Fin 1)

theorem idx_v0 : idx_main_v0 (ix2 k o) = ix2 o k :=
  funext fun a => Fin.ext (by match a with | ⟨0, _⟩ => rfl | ⟨1, _⟩ => rfl)
theorem lidx_v1 : lidx_main_v1 (ix2 r o) k = ix2 r k :=
  funext fun a => Fin.ext (by match a with | ⟨0, _⟩ => rfl | ⟨1, _⟩ => rfl)
theorem ridx_v1 : ridx_main_v1 (ix2 r o) k = ix2 k o :=
  funext fun a => Fin.ext (by match a with | ⟨0, _⟩ => rfl | ⟨1, _⟩ => rfl)
theorem idx_v2 : idx_main_v2 (ix2 z o) = ix1 o :=
  funext fun a => Fin.ext (by match a with | ⟨0, _⟩ => rfl)
theorem idx_v3 : idx_main_v3 (ix2 r o) = ix2 (0 : Fin 1) o :=
  funext fun a => Fin.ext (by match a with | ⟨0, _⟩ => rfl | ⟨1, _⟩ => rfl)

/-! The first adapter's stages. -/
theorem idx_call0_v1 : idx_main_call0_v1 (ix2 r k) = ix2 r (0 : Fin 1) :=
  funext fun a => Fin.ext (by match a with | ⟨0, _⟩ => rfl | ⟨1, _⟩ => rfl)
theorem idx_v95 : idx_main_v95 (ix2 r z) = ix1 r :=
  funext fun a => Fin.ext (by match a with | ⟨0, _⟩ => rfl)
theorem lidx_v100 : lidx_main_v100 (ix2 r o) k = ix2 r k :=
  funext fun a => Fin.ext (by match a with | ⟨0, _⟩ => rfl | ⟨1, _⟩ => rfl)
theorem ridx_v100 : ridx_main_v100 (ix2 r o) k = ix2 k o :=
  funext fun a => Fin.ext (by match a with | ⟨0, _⟩ => rfl | ⟨1, _⟩ => rfl)
/-- Transposed, with the unit axis restored, and placed in the stack at offset 0: position (k, o) reads slab 0 at (o, k). -/
theorem widx_v99 : idx_main_v97 (idx_main_v98 (idx_main_v99 (ix2 k o))) = ix3 (0 : Fin 4) o k :=
  funext fun a => Fin.ext (by
    have ho : o.val < 6144 := o.isLt
    have hk : k.val < 4096 := k.isLt
    match a with
    | ⟨0, _⟩ => rfl
    | ⟨1, _⟩ => show (o.val * 4096 + k.val) / 4096 % 6144 = o.val; omega
    | ⟨2, _⟩ => show (o.val * 4096 + k.val) % 4096 = k.val; omega)

/-! The second adapter's stages. -/
theorem idx_call1_v1 : idx_main_call1_v1 (ix2 r k) = ix2 r (0 : Fin 1) :=
  funext fun a => Fin.ext (by match a with | ⟨0, _⟩ => rfl | ⟨1, _⟩ => rfl)
theorem idx_v104 : idx_main_v104 (ix2 r z) = ix1 r :=
  funext fun a => Fin.ext (by match a with | ⟨0, _⟩ => rfl)
theorem lidx_v109 : lidx_main_v109 (ix2 r o) k = ix2 r k :=
  funext fun a => Fin.ext (by match a with | ⟨0, _⟩ => rfl | ⟨1, _⟩ => rfl)
theorem ridx_v109 : ridx_main_v109 (ix2 r o) k = ix2 k o :=
  funext fun a => Fin.ext (by match a with | ⟨0, _⟩ => rfl | ⟨1, _⟩ => rfl)
/-- The same at offset 1: position (k, o) reads slab 1 at (o, k). -/
theorem widx_v108 : idx_main_v106 (idx_main_v107 (idx_main_v108 (ix2 k o))) = ix3 (1 : Fin 4) o k :=
  funext fun a => Fin.ext (by
    have ho : o.val < 6144 := o.isLt
    have hk : k.val < 4096 := k.isLt
    match a with
    | ⟨0, _⟩ => rfl
    | ⟨1, _⟩ => show (o.val * 4096 + k.val) / 4096 % 6144 = o.val; omega
    | ⟨2, _⟩ => show (o.val * 4096 + k.val) % 4096 = k.val; omega)

/-! The third adapter's stages. -/
theorem idx_call2_v1 : idx_main_call2_v1 (ix2 r k) = ix2 r (0 : Fin 1) :=
  funext fun a => Fin.ext (by match a with | ⟨0, _⟩ => rfl | ⟨1, _⟩ => rfl)
theorem idx_v113 : idx_main_v113 (ix2 r z) = ix1 r :=
  funext fun a => Fin.ext (by match a with | ⟨0, _⟩ => rfl)
theorem lidx_v118 : lidx_main_v118 (ix2 r o) k = ix2 r k :=
  funext fun a => Fin.ext (by match a with | ⟨0, _⟩ => rfl | ⟨1, _⟩ => rfl)
theorem ridx_v118 : ridx_main_v118 (ix2 r o) k = ix2 k o :=
  funext fun a => Fin.ext (by match a with | ⟨0, _⟩ => rfl | ⟨1, _⟩ => rfl)
/-- The same at offset 2: position (k, o) reads slab 2 at (o, k). -/
theorem widx_v117 : idx_main_v115 (idx_main_v116 (idx_main_v117 (ix2 k o))) = ix3 (2 : Fin 4) o k :=
  funext fun a => Fin.ext (by
    have ho : o.val < 6144 := o.isLt
    have hk : k.val < 4096 := k.isLt
    match a with
    | ⟨0, _⟩ => rfl
    | ⟨1, _⟩ => show (o.val * 4096 + k.val) / 4096 % 6144 = o.val; omega
    | ⟨2, _⟩ => show (o.val * 4096 + k.val) % 4096 = k.val; omega)

/-! The fourth adapter's stages. -/
theorem idx_call3_v1 : idx_main_call3_v1 (ix2 r k) = ix2 r (0 : Fin 1) :=
  funext fun a => Fin.ext (by match a with | ⟨0, _⟩ => rfl | ⟨1, _⟩ => rfl)
theorem idx_v122 : idx_main_v122 (ix2 r z) = ix1 r :=
  funext fun a => Fin.ext (by match a with | ⟨0, _⟩ => rfl)
theorem lidx_v127 : lidx_main_v127 (ix2 r o) k = ix2 r k :=
  funext fun a => Fin.ext (by match a with | ⟨0, _⟩ => rfl | ⟨1, _⟩ => rfl)
theorem ridx_v127 : ridx_main_v127 (ix2 r o) k = ix2 k o :=
  funext fun a => Fin.ext (by match a with | ⟨0, _⟩ => rfl | ⟨1, _⟩ => rfl)
/-- The same at offset 3: position (k, o) reads slab 3 at (o, k). -/
theorem widx_v126 : idx_main_v124 (idx_main_v125 (idx_main_v126 (ix2 k o))) = ix3 (3 : Fin 4) o k :=
  funext fun a => Fin.ext (by
    have ho : o.val < 6144 := o.isLt
    have hk : k.val < 4096 := k.isLt
    match a with
    | ⟨0, _⟩ => rfl
    | ⟨1, _⟩ => show (o.val * 4096 + k.val) / 4096 % 6144 = o.val; omega
    | ⟨2, _⟩ => show (o.val * 4096 + k.val) % 4096 = k.val; omega)

end Indices

/-! ## Values: the stages read at an index -/

section Values
variable (x0 : (⟨S1024x4096, .f32⟩ : BufTy).Contents (Elt Ideal)) (x1 : (⟨S6144x4096, .f32⟩ : BufTy).Contents (Elt Ideal))
  (x2 : (⟨S6144, .f32⟩ : BufTy).Contents (Elt Ideal)) (x3 : (⟨S4x4096x512, .i32⟩ : BufTy).Contents (Elt Ideal))
  (x4 x5 : (⟨S4x1024x512, .i32⟩ : BufTy).Contents (Elt Ideal)) (x6 : (⟨S4x512x1, .i32⟩ : BufTy).Contents (Elt Ideal))
  (x7 x8 : (⟨S4x128x1, .i32⟩ : BufTy).Contents (Elt Ideal)) (x9 : (⟨S4x4096x1, .f32⟩ : BufTy).Contents (Elt Ideal))
  (x10 x11 : (⟨S4x1024x1, .f32⟩ : BufTy).Contents (Elt Ideal)) (x12 : (⟨S1024, .i32⟩ : BufTy).Contents (Elt Ideal))
  (r : Fin 1024) (o : Fin 6144) (k : Fin 4096)

/-- The base product with the bias: row `r` of the activations against row `o` of the base weight, plus bias entry `o`. -/
theorem base_at :
    val_main_v4 (F := Ideal) x0 x1 x2 (ix2 r o) = (∑ k : Fin 4096, x0 (ix2 r k) * x1 (ix2 o k)) + x2 (ix1 o) := by
  rw [val_main_v4_apply, val_main_v1_apply, val_main_v3_apply, val_main_v2_apply, idx_v3, idx_v2, Ideal.addf_def]
  refine congrArg (fun s : EReal => s + x2 (ix1 o)) (Finset.sum_congr rfl fun k _ => ?_)
  rw [lidx_v1, ridx_v1, val_main_v0_apply, idx_v0]

/-! The first adapter (index 0). -/

/-- The selected activations: row `r` where the row's adapter index is 0, zero elsewhere. -/
theorem sel0_at :
    val_main_v96 (F := Ideal) x0 x12 (ix2 r k) = if x12 (ix1 r) = 0#32 then x0 (ix2 r k) else 0 := by
  rw [val_main_v96_apply, val_main_call0_v1_apply, val_main_v95_apply, val_main_v94_apply, val_main_v93_apply, val_main_c_10_apply,
    val_main_call0_v2_apply, val_main_call0_v0_apply, val_main_cst_11_apply, idx_call0_v1, idx_v95]
  exact select_cmp _ _ _

/-- The transposed slab 0 of the stacked adapter weights at (k, o) is the stack's entry (0, o, k). -/
theorem wrow0_at :
    val_main_v99 (F := Ideal) x3 x4 x5 x6 x7 x8 x9 x10 x11 (ix2 k o)
      = val_main_v92 (F := Ideal) x3 x4 x5 x6 x7 x8 x9 x10 x11 (ix3 (0 : Fin 4) o k) := by
  rw [val_main_v99_apply, val_main_v98_apply, val_main_v97_apply, widx_v99]

/-- The first adapter's product at (r, o). -/
theorem prod0_at :
    val_main_v100 (F := Ideal) x0 x3 x4 x5 x6 x7 x8 x9 x10 x11 x12 (ix2 r o)
      = ∑ k : Fin 4096, (if x12 (ix1 r) = 0#32 then x0 (ix2 r k) else 0)
          * val_main_v92 (F := Ideal) x3 x4 x5 x6 x7 x8 x9 x10 x11 (ix3 (0 : Fin 4) o k) := by
  rw [val_main_v100_apply]
  refine Finset.sum_congr rfl fun k _ => ?_
  rw [lidx_v100, ridx_v100, sel0_at, wrow0_at]

/-! The second adapter (index 1). -/

/-- The selected activations: row `r` where the row's adapter index is 1, zero elsewhere. -/
theorem sel1_at :
    val_main_v105 (F := Ideal) x0 x12 (ix2 r k) = if x12 (ix1 r) = 1#32 then x0 (ix2 r k) else 0 := by
  rw [val_main_v105_apply, val_main_call1_v1_apply, val_main_v104_apply, val_main_v103_apply, val_main_v102_apply, val_main_c_12_apply,
    val_main_call1_v2_apply, val_main_call1_v0_apply, val_main_cst_13_apply, idx_call1_v1, idx_v104]
  exact select_cmp _ _ _

/-- The transposed slab 1 of the stacked adapter weights at (k, o) is the stack's entry (1, o, k). -/
theorem wrow1_at :
    val_main_v108 (F := Ideal) x3 x4 x5 x6 x7 x8 x9 x10 x11 (ix2 k o)
      = val_main_v92 (F := Ideal) x3 x4 x5 x6 x7 x8 x9 x10 x11 (ix3 (1 : Fin 4) o k) := by
  rw [val_main_v108_apply, val_main_v107_apply, val_main_v106_apply, widx_v108]

/-- The second adapter's product at (r, o). -/
theorem prod1_at :
    val_main_v109 (F := Ideal) x0 x3 x4 x5 x6 x7 x8 x9 x10 x11 x12 (ix2 r o)
      = ∑ k : Fin 4096, (if x12 (ix1 r) = 1#32 then x0 (ix2 r k) else 0)
          * val_main_v92 (F := Ideal) x3 x4 x5 x6 x7 x8 x9 x10 x11 (ix3 (1 : Fin 4) o k) := by
  rw [val_main_v109_apply]
  refine Finset.sum_congr rfl fun k _ => ?_
  rw [lidx_v109, ridx_v109, sel1_at, wrow1_at]

/-! The third adapter (index 2). -/

/-- The selected activations: row `r` where the row's adapter index is 2, zero elsewhere. -/
theorem sel2_at :
    val_main_v114 (F := Ideal) x0 x12 (ix2 r k) = if x12 (ix1 r) = 2#32 then x0 (ix2 r k) else 0 := by
  rw [val_main_v114_apply, val_main_call2_v1_apply, val_main_v113_apply, val_main_v112_apply, val_main_v111_apply, val_main_c_14_apply,
    val_main_call2_v2_apply, val_main_call2_v0_apply, val_main_cst_15_apply, idx_call2_v1, idx_v113]
  exact select_cmp _ _ _

/-- The transposed slab 2 of the stacked adapter weights at (k, o) is the stack's entry (2, o, k). -/
theorem wrow2_at :
    val_main_v117 (F := Ideal) x3 x4 x5 x6 x7 x8 x9 x10 x11 (ix2 k o)
      = val_main_v92 (F := Ideal) x3 x4 x5 x6 x7 x8 x9 x10 x11 (ix3 (2 : Fin 4) o k) := by
  rw [val_main_v117_apply, val_main_v116_apply, val_main_v115_apply, widx_v117]

/-- The third adapter's product at (r, o). -/
theorem prod2_at :
    val_main_v118 (F := Ideal) x0 x3 x4 x5 x6 x7 x8 x9 x10 x11 x12 (ix2 r o)
      = ∑ k : Fin 4096, (if x12 (ix1 r) = 2#32 then x0 (ix2 r k) else 0)
          * val_main_v92 (F := Ideal) x3 x4 x5 x6 x7 x8 x9 x10 x11 (ix3 (2 : Fin 4) o k) := by
  rw [val_main_v118_apply]
  refine Finset.sum_congr rfl fun k _ => ?_
  rw [lidx_v118, ridx_v118, sel2_at, wrow2_at]

/-! The fourth adapter (index 3). -/

/-- The selected activations: row `r` where the row's adapter index is 3, zero elsewhere. -/
theorem sel3_at :
    val_main_v123 (F := Ideal) x0 x12 (ix2 r k) = if x12 (ix1 r) = 3#32 then x0 (ix2 r k) else 0 := by
  rw [val_main_v123_apply, val_main_call3_v1_apply, val_main_v122_apply, val_main_v121_apply, val_main_v120_apply, val_main_c_16_apply,
    val_main_call3_v2_apply, val_main_call3_v0_apply, val_main_cst_17_apply, idx_call3_v1, idx_v122]
  exact select_cmp _ _ _

/-- The transposed slab 3 of the stacked adapter weights at (k, o) is the stack's entry (3, o, k). -/
theorem wrow3_at :
    val_main_v126 (F := Ideal) x3 x4 x5 x6 x7 x8 x9 x10 x11 (ix2 k o)
      = val_main_v92 (F := Ideal) x3 x4 x5 x6 x7 x8 x9 x10 x11 (ix3 (3 : Fin 4) o k) := by
  rw [val_main_v126_apply, val_main_v125_apply, val_main_v124_apply, widx_v126]

/-- The fourth adapter's product at (r, o). -/
theorem prod3_at :
    val_main_v127 (F := Ideal) x0 x3 x4 x5 x6 x7 x8 x9 x10 x11 x12 (ix2 r o)
      = ∑ k : Fin 4096, (if x12 (ix1 r) = 3#32 then x0 (ix2 r k) else 0)
          * val_main_v92 (F := Ideal) x3 x4 x5 x6 x7 x8 x9 x10 x11 (ix3 (3 : Fin 4) o k) := by
  rw [val_main_v127_apply]
  refine Finset.sum_congr rfl fun k _ => ?_
  rw [lidx_v127, ridx_v127, sel3_at, wrow3_at]

end Values

/-! ## The result -/

/-- Entry (r, o) of the reference's result is the nest of five sums, over the stacked adapter weights as they stand. -/
theorem stage_at (x0 : (⟨S1024x4096, .f32⟩ : BufTy).Contents (Elt Ideal)) (x1 : (⟨S6144x4096, .f32⟩ : BufTy).Contents (Elt Ideal)) (x2 : (⟨S6144, .f32⟩ : BufTy).Contents (Elt Ideal)) (x3 : (⟨S4x4096x512, .i32⟩ : BufTy).Contents (Elt Ideal)) (x4 x5 : (⟨S4x1024x512, .i32⟩ : BufTy).Contents (Elt Ideal)) (x6 : (⟨S4x512x1, .i32⟩ : BufTy).Contents (Elt Ideal)) (x7 x8 : (⟨S4x128x1, .i32⟩ : BufTy).Contents (Elt Ideal)) (x9 : (⟨S4x4096x1, .f32⟩ : BufTy).Contents (Elt Ideal)) (x10 x11 : (⟨S4x1024x1, .f32⟩ : BufTy).Contents (Elt Ideal)) (x12 : (⟨S1024, .i32⟩ : BufTy).Contents (Elt Ideal)) (r : Fin 1024) (o : Fin 6144) :
    Cert.ReferenceIdeal.ReadP.val_main_v128 (F := Ideal) x0 x1 x2 x3 x4 x5 x6 x7 x8 x9 x10 x11 x12 (ValueIdx.ix2 r o)
      = Cert.QkvSpec.RGat x0 x1 x2 (Cert.ReferenceIdeal.ReadP.val_main_v92 (F := Ideal) x3 x4 x5 x6 x7 x8 x9 x10 x11) x12 r o := by
  rw [val_main_v128_apply, val_main_v119_apply, val_main_v110_apply, val_main_v101_apply, prod3_at, prod2_at, prod1_at, prod0_at,
    base_at]
  generalize val_main_v92 (F := Ideal) x3 x4 x5 x6 x7 x8 x9 x10 x11 = wd
  unfold Cert.QkvSpec.RGat
  simp only [Ideal.addf_def]

end Cert.ReferenceIdeal.RefValue

end
-- ==== Proof.lean ====
/-
  Five claims about one fused projection: a token's row of activations against the base QKV weight plus, for the
  adapter the token's index names, that adapter's 4-bit-packed delta weight, dequantised.

  The kernel stacks the base weight on the four dequantised adapter weights and, for every token, multiplies the
  activations by a one-hot mask before each adapter's product; it walks the 4096 contraction positions in eight blocks,
  keeping a running total in a scratch accumulator, and adds the bias once the last block is in. The reference forms
  five whole products, selecting a token's activations where its index names the adapter, and adds them to the base
  product and the bias in turn. Over the extended reals the two agree entry by entry: sums regroup and reorder freely,
  a product with 1 is the number and with 0 is 0, the rounding of the stacked weights and of the activations is the
  identity, and both programs dequantise with the same host lines.

  Frames: both printed kernels run their one launch to the end point by point (the accumulator kept between points
  at exactly what the point before left), and the host lines write fresh buffers only; the reference is a straight line
  of host operations. The idealisation rewrote nothing, so the preservation claim has no conjunct.
-/
import proofs.«405207_j28973849379101_2_alg».proof.Defs
import proofs.«405207_j28973849379101_2_alg».proof.Proof.Gen.Kernel
import proofs.«405207_j28973849379101_2_alg».proof.Proof.Gen.KernelIdeal
import proofs.«405207_j28973849379101_2_alg».proof.Proof.Gen.ReferenceIdeal
import proofs.«405207_j28973849379101_2_alg».proof.Proof.Gen.Pre_finite_inputs
import proofs.«405207_j28973849379101_2_alg».proof.Proof.FrameB.Frame
import proofs.«405207_j28973849379101_2_alg».proof.Proof.FrameI.Frame
import proofs.«405207_j28973849379101_2_alg».proof.Proof.KVal.Run
import proofs.«405207_j28973849379101_2_alg».proof.Proof.HostSmall
import proofs.«405207_j28973849379101_2_alg».proof.Proof.HostWeights
import proofs.«405207_j28973849379101_2_alg».proof.Proof.RefRun
import proofs.«405207_j28973849379101_2_alg».proof.Proof.RefValue
import proofs.«405207_j28973849379101_2_alg».proof.Proof.Spec
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs to the end and leaves its arguments as given. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- From memories that agree on the arguments both idealized programs run, and the reference's result is the kernel's:
    entry (r, o) of the reference is its nest of five whole products, entry (r, o) of the kernel the running total over
    the eight blocks plus the bias, and the launch's four arrays are the arguments as the host lines arrange them. -/
theorem algebraic : Cert.algebraic_KernelIdeal_ReferenceIdeal := by
  intro m ρ m' ρ' _ hagree
  refine ⟨fun c => Cert.KernelIdeal.KVal.KG m c, Cert.KernelIdeal.KVal.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12⟩ := hagree c
  rw [a0, a1, a2, a3, a4, a5, a6, a7, a8, a9, a10, a11, a12]
  funext i
  obtain ⟨r, o, rfl⟩ : ∃ (r : Fin 1024) (o : Fin 6144), i = ix2 r o := ⟨i 0, i 1, eq_ix2 i⟩
  refine (Cert.ReferenceIdeal.RefValue.stage_at (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) r o).trans ?_
  rw [← Cert.KernelIdeal.HostSide.wd_eq m c]
  exact (Cert.QkvSpec.KGat_eq_RGat _ _ _ _ _ _ _ _ _
    (Cert.KernelIdeal.HostSide.x_at m c) (Cert.KernelIdeal.HostSide.w0_at m c) (Cert.KernelIdeal.HostSide.w1_at m c)
    (Cert.KernelIdeal.HostSide.w2_at m c) (Cert.KernelIdeal.HostSide.w3_at m c) (Cert.KernelIdeal.HostSide.w4_at m c)
    (Cert.KernelIdeal.HostSide.m1_at m c) (Cert.KernelIdeal.HostSide.m2_at m c) (Cert.KernelIdeal.HostSide.m3_at m c)
    (Cert.KernelIdeal.HostSide.m4_at m c) (Cert.KernelIdeal.HostSide.b_at m c) r o).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
